-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x256 : Shape := ⟨3, ![64, 900, 256]⟩
abbrev S64x900x4 : Shape := ⟨3, ![64, 900, 4]⟩
abbrev S64x200 : Shape := ⟨2, ![64, 200]⟩
abbrev S64x200x4 : Shape := ⟨3, ![64, 200, 4]⟩
abbrev S_ : Shape := ⟨0, ![]⟩

class Facts : Prop where
  bcast_S_S64x900x256 : S_.BroadcastsInDim S64x900x256 (![] : Fin 0 → Fin S64x900x256.rank)
  reducesTo_S64x900x256_S_d0_1_2 : S64x900x256.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x200x4 : S_.BroadcastsInDim S64x200x4 (![] : Fin 0 → Fin S64x200x4.rank)
  reducesTo_S64x200x4_S_d0_1_2 : S64x200x4.ReducesTo [0, 1, 2] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg2 : IVec S64x200 32) (main_v13 : IVec S_ 1) (main_v15 : IVec S64x200 1) (main_c_5 : IVec S_ 1) : IVec S_ 1 :=
  let main_v16 : IVec S_ 1 := (fun x v => Host.reduce IntOp.andi x v reducesTo_S64x200_S_d0_1 h_S_) main_v15 main_c_5
  let main_v17 : IVec S_ 1 := andi main_v13 main_v16
  let main_c_6 : IVec S_ 32 := constantI S_ 32 256#32
  let main_v18 : IVec S64x200 32 := broadcastInDim S64x200 ![] bcast_S_S64x200 main_c_6
  let main_v19 : IVec S64x200 1 := cmpi .slt main_arg2 main_v18
  let main_c_7 : IVec S_ 1 := constantI S_ 1 1#1
  let main_v20 : IVec S_ 1 := (fun x v => Host.reduce IntOp.andi x v reducesTo_S64x200_S_d0_1 h_S_) main_v19 main_c_7
  let main_v21 : IVec S_ 1 := andi main_v17 main_v20
  main_v21

def fn {F : FTy → Type} [FloatOps F] (main_arg0 : FVec F S64x900x256 .f32) (main_arg1 : FVec F S64x900x4 .f32) (main_arg2 : IVec S64x200 32) (main_arg3 : FVec F S64x200x4 .f32) : IVec S_ 1 :=
  let main_v0 : FVec F S64x900x256 .f32 := Host.absf main_arg0
  let main_cst : FVec F S_ .f32 := constant S_ .f32 0x7F800000#32
  let main_v1 : FVec F S64x900x256 .f32 := broadcastInDim S64x900x256 ![] bcast_S_S64x900x256 main_cst
  let main_v2 : IVec S64x900x256 1 := cmpf .olt main_v0 main_v1
  let main_c : IVec S_ 1 := constantI S_ 1 1#1
  let main_v3 : IVec S_ 1 := (fun x v => Host.reduce IntOp.andi x v reducesTo_S64x900x256_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x200x4 .f32 := Host.absf main_arg3
  let main_cst_2 : FVec F S_ .f32 := constant S_ .f32 0x7F800000#32
  let main_v10 : FVec F S64x200x4 .f32 := broadcastInDim S64x200x4 ![] bcast_S_S64x200x4 main_cst_2
  let main_v11 : IVec S64x200x4 1 := cmpf .olt main_v9 main_v10
  let main_c_3 : IVec S_ 1 := constantI S_ 1 1#1
  let main_v12 : IVec S_ 1 := (fun x v => Host.reduce IntOp.andi x v reducesTo_S64x200x4_S_d0_1_2 h_S_) main_v11 main_c_3
  let main_v13 : IVec S_ 1 := andi main_v8 main_v12
  let main_c_4 : IVec S_ 32 := constantI S_ 32 0#32
  let main_v14 : IVec S64x200 32 := broadcastInDim S64x200 ![] bcast_S_S64x200 main_c_4
  let main_v15 : IVec S64x200 1 := cmpi .sge main_arg2 main_v14
  let main_c_5 : IVec S_ 1 := constantI S_ 1 1#1
  fn_part1 (F := F) main_arg2 main_v13 main_v15 main_c_5
-- ==== Kernel.lean ====
abbrev S64x900x256 : Shape := ⟨3, ![64, 900, 256]⟩
abbrev S64x900x4 : Shape := ⟨3, ![64, 900, 4]⟩
abbrev S64x200 : Shape := ⟨2, ![64, 200]⟩
abbrev S64x200x4 : Shape := ⟨3, ![64, 200, 4]⟩
abbrev S64x1x200 : Shape := ⟨3, ![64, 1, 200]⟩
abbrev S64x900x200 : Shape := ⟨3, ![64, 900, 200]⟩
abbrev S1x900x256 : Shape := ⟨3, ![1, 900, 256]⟩
abbrev S1x900x4 : Shape := ⟨3, ![1, 900, 4]⟩
abbrev S1x1x200 : Shape := ⟨3, ![1, 1, 200]⟩
abbrev S1x200x4 : Shape := ⟨3, ![1, 200, 4]⟩
abbrev S1x900x200 : Shape := ⟨3, ![1, 900, 200]⟩
abbrev S900x256 : Shape := ⟨2, ![900, 256]⟩
abbrev S900 : Shape := ⟨1, ![900]⟩
abbrev S900x1 : Shape := ⟨2, ![900, 1]⟩
abbrev S200 : Shape := ⟨1, ![200]⟩
abbrev S256x200 : Shape := ⟨2, ![256, 200]⟩
abbrev S1x200 : Shape := ⟨2, ![1, 200]⟩
abbrev S900x200 : Shape := ⟨2, ![900, 200]⟩
abbrev S900x4 : Shape := ⟨2, ![900, 4]⟩
abbrev S200x4 : Shape := ⟨2, ![200, 4]⟩
abbrev S200x1 : Shape := ⟨2, ![200, 1]⟩

abbrev nBuf : Space → Nat
  | .hbm => 6
  | .vmem => 10
  | .smem => 0
  | _ => 0

abbrev bufTy : (tb : Table) → Fin (tcTables nBuf tb) → BufTy
  | .hbm, ⟨0, _⟩ => ⟨S64x900x256, .f32⟩
  | .hbm, ⟨1, _⟩ => ⟨S64x900x4, .f32⟩
  | .hbm, ⟨2, _⟩ => ⟨S64x200, .i32⟩
  | .hbm, ⟨3, _⟩ => ⟨S64x200x4, .f32⟩
  | .hbm, ⟨4, _⟩ => ⟨S64x1x200, .i32⟩
  | .hbm, ⟨5, _⟩ => ⟨S64x900x200, .f32⟩
  | .local _ .vmem, ⟨0, _⟩ => ⟨S1x900x256, .f32⟩
  | .local _ .vmem, ⟨1, _⟩ => ⟨S1x900x256, .f32⟩
  | .local _ .vmem, ⟨2, _⟩ => ⟨S1x900x4, .f32⟩
  | .local _ .vmem, ⟨3, _⟩ => ⟨S1x900x4, .f32⟩
  | .local _ .vmem, ⟨4, _⟩ => ⟨S1x1x200, .i32⟩
  | .local _ .vmem, ⟨5, _⟩ => ⟨S1x1x200, .i32⟩
  | .local _ .vmem, ⟨6, _⟩ => ⟨S1x200x4, .f32⟩
  | .local _ .vmem, ⟨7, _⟩ => ⟨S1x200x4, .f32⟩
  | .local _ .vmem, ⟨8, _⟩ => ⟨S1x900x200, .f32⟩
  | .local _ .vmem, ⟨9, _⟩ => ⟨S1x900x200, .f32⟩
  | _, _ => ⟨S64x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x200x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64x200_S64x1x200_0_2 : S64x200.BroadcastsInDim S64x1x200 (![0, 2] : Fin 2 → Fin S64x1x200.rank)
  inb_S1x900x256_S1x900x256_0_0_0 : ∀ a, (![0, 0, 0] : Fin 3 → Nat) a + S1x900x256.size a ≤ S1x900x256.size a
  h_S1x900x256 : 0 < S1x900x256.numel
  shapeCasts_S1x900x256_S900x256 : S1x900x256.ShapeCasts S900x256
  reduces_S900x256_S900 : S900x256.Reduces [1] S900
  shapeCasts_S900_S900x1 : S900.ShapeCasts S900x1
  broadcasts_S900x1_S900x256 : S900x1.Broadcasts S900x256
  inb_S1x1x200_S1x1x200_0_0_0 : ∀ a, (![0, 0, 0] : Fin 3 → Nat) a + S1x1x200.size a ≤ S1x1x200.size a
  h_S1x1x200 : 0 < S1x1x200.numel
  shapeCasts_S1x1x200_S200 : S1x1x200.ShapeCasts S200
  iota_S256x200_d0_w32 : S256x200.Iotas .tc 32 [0]
  shapeCasts_S200_S1x200 : S200.ShapeCasts S1x200
  broadcasts_S1x200_S256x200 : S1x200.Broadcasts S256x200
  natLt_1_32 : 1 < 32
  bitsLt_bf16_f32 : FTy.bits .bf16 < FTy.bits .f32
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  slices_S900x4_o0_0_S900x1 : S900x4.Slices ![0, 0] S900x1
  shapeCasts_S900x1_S900 : S900x1.ShapeCasts S900
  slices_S900x4_o0_1_S900x1 : S900x4.Slices ![0, 1] S900x1
  slices_S900x4_o0_2_S900x1 : S900x4.Slices ![0, 2] S900x1
  slices_S900x4_o0_3_S900x1 : S900x4.Slices ![0, 3] S900x1
  inb_S1x200x4_S1x200x4_0_0_0 : ∀ a, (![0, 0, 0] : Fin 3 → Nat) a + S1x200x4.size a ≤ S1x200x4.size a
  h_S1x200x4 : 0 < S1x200x4.numel
  shapeCasts_S1x200x4_S200x4 : S1x200x4.ShapeCasts S200x4
  slices_S200x4_o0_0_S200x1 : S200x4.Slices ![0, 0] S200x1
  shapeCasts_S200x1_S200 : S200x1.ShapeCasts S200
  slices_S200x4_o0_1_S200x1 : S200x4.Slices ![0, 1] S200x1
  slices_S200x4_o0_2_S200x1 : S200x4.Slices ![0, 2] S200x1
  slices_S200x4_o0_3_S200x1 : S200x4.Slices ![0, 3] S200x1
  broadcasts_S900x1_S900x200 : S900x1.Broadcasts S900x200
  broadcasts_S1x200_S900x200 : S1x200.Broadcasts S900x200
  inb_S1x900x200_S1x900x200_0_0_0 : ∀ a, (![0, 0, 0] : Fin 3 → Nat) a + S1x900x200.size a ≤ S1x900x200.size a
  h_S1x900x200 : 0 < S1x900x200.numel
  shapeCasts_S1x900x200_S900x200 : S1x900x200.ShapeCasts S900x200
  shapeCasts_S900x200_S1x900x200 : S900x200.ShapeCasts S1x900x200
  dot_S900x256_S256x200_S900x200_1_0_0_1_n_n_wf : DotDims.WF S900x256 S256x200 S900x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x256.size a ≤ S64x900x256.size a
  hwx0_0 : ∀ i : grid0.Coords, EltTy.bits .f32 = 32 ∨ (Rect.block (s := S64x900x256) S1x900x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S64x900x4.size a
  hwx0_1 : ∀ i : grid0.Coords, EltTy.bits .f32 = 32 ∨ (Rect.block (s := S64x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x200.size a ≤ S64x1x200.size a
  hwx0_2 : ∀ i : grid0.Coords, EltTy.bits .i32 = 32 ∨ (Rect.block (s := S64x1x200) S1x1x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x4.size a ≤ S64x200x4.size a
  hwx0_3 : ∀ i : grid0.Coords, EltTy.bits .f32 = 32 ∨ (Rect.block (s := S64x200x4) S1x200x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x200.size a ≤ S64x900x200.size a
  hwx0_4 : ∀ i : grid0.Coords, EltTy.bits .f32 = 32 ∨ (Rect.block (s := S64x900x200) S1x900x200.size (cc0_transform_4 i) (hinb0_4 i)).WholeWords (EltTy.packing .f32)

variable [Facts₀]

def dot_S900x256_S256x200_S900x200_1_0_0_1_n_n : DotDims S900x256 S256x200 S900x200 where
  lhsContracting := [1]
  rhsContracting := [0]
  lhsNonContracting := [0]
  rhsNonContracting := [1]
  lhsBatch := []
  rhsBatch := []
  wf := dot_S900x256_S256x200_S900x200_1_0_0_1_n_n_wf

abbrev win0_0 : Pipeline.Window sig grid0 :=
  Pipeline.Window.ofSpec (Memref.whole main_arg0) S1x900x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x200x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x900x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x256 : Shape := ⟨3, ![64, 900, 256]⟩
abbrev S64x900x4 : Shape := ⟨3, ![64, 900, 4]⟩
abbrev S64x200 : Shape := ⟨2, ![64, 200]⟩
abbrev S64x200x4 : Shape := ⟨3, ![64, 200, 4]⟩
abbrev S_ : Shape := ⟨0, ![]⟩
abbrev S64x900 : Shape := ⟨2, ![64, 900]⟩
abbrev S64x900x1 : Shape := ⟨3, ![64, 900, 1]⟩
abbrev S4x64x900 : Shape := ⟨3, ![4, 64, 900]⟩
abbrev S1x64x900 : Shape := ⟨3, ![1, 64, 900]⟩
abbrev S4x64x200 : Shape := ⟨3, ![4, 64, 200]⟩
abbrev S1x64x200 : Shape := ⟨3, ![1, 64, 200]⟩
abbrev S64x200x1 : Shape := ⟨3, ![64, 200, 1]⟩
abbrev S64x1x200 : Shape := ⟨3, ![64, 1, 200]⟩
abbrev S64x900x200 : Shape := ⟨3, ![64, 900, 200]⟩
abbrev S64x900x200x1 : Shape := ⟨4, ![64, 900, 200, 1]⟩
abbrev S1 : Shape := ⟨1, ![1]⟩
abbrev S1x1x1x1 : Shape := ⟨4, ![1, 1, 1, 1]⟩
abbrev S64x900x1x4 : Shape := ⟨4, ![64, 900, 1, 4]⟩
abbrev S64x1x200x4 : Shape := ⟨4, ![64, 1, 200, 4]⟩
abbrev S64x900x200x4 : Shape := ⟨4, ![64, 900, 200, 4]⟩
abbrev S64x900x2 : Shape := ⟨3, ![64, 900, 2]⟩
abbrev S64x900x1x2 : Shape := ⟨4, ![64, 900, 1, 2]⟩
abbrev S64x200x2 : Shape := ⟨3, ![64, 200, 2]⟩
abbrev S64x1x200x2 : Shape := ⟨4, ![64, 1, 200, 2]⟩
abbrev S64x900x200x2 : Shape := ⟨4, ![64, 900, 200, 2]⟩

abbrev nBuf : Space → Nat
  | .hbm => 371
  | .vmem => 0
  | .smem => 0
  | _ => 0

abbrev hbmTy0_0 (i : Nat) : BufTy := match i % 128 with
  | 0 => ⟨S64x900x256, .f32⟩
  | 1 => ⟨S64x900x4, .f32⟩
  | 2 => ⟨S64x200, .i32⟩
  | 3 => ⟨S64x200x4, .f32⟩
  | 4 => ⟨S_, .f32⟩
  | 5 => ⟨S_, .f32⟩
  | 6 => ⟨S_, .f32⟩
  | 7 => ⟨S64x900x256, .i1⟩
  | 8 => ⟨S_, .f32⟩
  | 9 => ⟨S64x900x256, .f32⟩
  | 10 => ⟨S64x900x256, .f32⟩
  | 11 => ⟨S_, .f32⟩
  | 12 => ⟨S64x900x256, .f32⟩
  | 13 => ⟨S64x900x256, .i1⟩
  | 14 => ⟨S_, .f32⟩
  | 15 => ⟨S64x900x256, .f32⟩
  | 16 => ⟨S64x900x256, .f32⟩
  | 17 => ⟨S_, .f32⟩
  | 18 => ⟨S64x900x256, .f32⟩
  | 19 => ⟨S64x900x256, .i1⟩
  | 20 => ⟨S_, .f32⟩
  | 21 => ⟨S64x900x256, .f32⟩
  | 22 => ⟨S64x900x256, .f32⟩
  | 23 => ⟨S_, .f32⟩
  | 24 => ⟨S64x900, .f32⟩
  | 25 => ⟨S_, .f32⟩
  | 26 => ⟨S64x900, .f32⟩
  | 27 => ⟨S64x900, .f32⟩
  | 28 => ⟨S64x900x1, .f32⟩
  | 29 => ⟨S64x900x256, .f32⟩
  | 30 => ⟨S64x900x256, .f32⟩
  | 31 => ⟨S64x900x256, .f32⟩
  | 32 => ⟨S_, .f32⟩
  | 33 => ⟨S64x900, .f32⟩
  | 34 => ⟨S64x900x1, .f32⟩
  | 35 => ⟨S64x900x256, .f32⟩
  | 36 => ⟨S64x900x256, .f32⟩
  | 37 => ⟨S_, .f32⟩
  | 38 => ⟨S_, .f32⟩
  | 39 => ⟨S_, .f32⟩
  | 40 => ⟨S64x900x4, .i1⟩
  | 41 => ⟨S_, .f32⟩
  | 42 => ⟨S64x900x4, .f32⟩
  | 43 => ⟨S64x900x4, .f32⟩
  | 44 => ⟨S_, .f32⟩
  | 45 => ⟨S64x900x4, .f32⟩
  | 46 => ⟨S64x900x4, .i1⟩
  | 47 => ⟨S_, .f32⟩
  | 48 => ⟨S64x900x4, .f32⟩
  | 49 => ⟨S64x900x4, .f32⟩
  | 50 => ⟨S_, .f32⟩
  | 51 => ⟨S64x900x4, .f32⟩
  | 52 => ⟨S64x900x4, .i1⟩
  | 53 => ⟨S_, .f32⟩
  | 54 => ⟨S64x900x4, .f32⟩
  | 55 => ⟨S64x900x4, .f32⟩
  | 56 => ⟨S4x64x900, .f32⟩
  | 57 => ⟨S1x64x900, .f32⟩
  | 58 => ⟨S64x900, .f32⟩
  | 59 => ⟨S1x64x900, .f32⟩
  | 60 => ⟨S64x900, .f32⟩
  | 61 => ⟨S1x64x900, .f32⟩
  | 62 => ⟨S64x900, .f32⟩
  | 63 => ⟨S1x64x900, .f32⟩
  | 64 => ⟨S64x900, .f32⟩
  | 65 => ⟨S_, .f32⟩
  | 66 => ⟨S_, .f32⟩
  | 67 => ⟨S_, .f32⟩
  | 68 => ⟨S64x900, .f32⟩
  | 69 => ⟨S64x900, .f32⟩
  | 70 => ⟨S_, .f32⟩
  | 71 => ⟨S64x900, .f32⟩
  | 72 => ⟨S64x900, .f32⟩
  | 73 => ⟨S_, .f32⟩
  | 74 => ⟨S_, .f32⟩
  | 75 => ⟨S_, .f32⟩
  | 76 => ⟨S64x900, .f32⟩
  | 77 => ⟨S64x900, .f32⟩
  | 78 => ⟨S_, .f32⟩
  | 79 => ⟨S64x900, .f32⟩
  | 80 => ⟨S64x900, .f32⟩
  | 81 => ⟨S_, .f32⟩
  | 82 => ⟨S_, .f32⟩
  | 83 => ⟨S_, .f32⟩
  | 84 => ⟨S64x900, .f32⟩
  | 85 => ⟨S64x900, .f32⟩
  | 86 => ⟨S_, .f32⟩
  | 87 => ⟨S64x900, .f32⟩
  | 88 => ⟨S64x900, .f32⟩
  | 89 => ⟨S_, .f32⟩
  | 90 => ⟨S_, .f32⟩
  | 91 => ⟨S_, .f32⟩
  | 92 => ⟨S64x900, .f32⟩
  | 93 => ⟨S64x900, .f32⟩
  | 94 => ⟨S_, .f32⟩
  | 95 => ⟨S64x900, .f32⟩
  | 96 => ⟨S64x900, .f32⟩
  | 97 => ⟨S64x900x1, .f32⟩
  | 98 => ⟨S64x900x1, .f32⟩
  | 99 => ⟨S64x900x1, .f32⟩
  | 100 => ⟨S64x900x1, .f32⟩
  | 101 => ⟨S64x900x4, .f32⟩
  | 102 => ⟨S_, .f32⟩
  | 103 => ⟨S_, .f32⟩
  | 104 => ⟨S_, .f32⟩
  | 105 => ⟨S64x200x4, .i1⟩
  | 106 => ⟨S_, .f32⟩
  | 107 => ⟨S64x200x4, .f32⟩
  | 108 => ⟨S64x200x4, .f32⟩
  | 109 => ⟨S_, .f32⟩
  | 110 => ⟨S64x200x4, .f32⟩
  | 111 => ⟨S64x200x4, .i1⟩
  | 112 => ⟨S_, .f32⟩
  | 113 => ⟨S64x200x4, .f32⟩
  | 114 => ⟨S64x200x4, .f32⟩
  | 115 => ⟨S_, .f32⟩
  | 116 => ⟨S64x200x4, .f32⟩
  | 117 => ⟨S64x200x4, .i1⟩
  | 118 => ⟨S_, .f32⟩
  | 119 => ⟨S64x200x4, .f32⟩
  | 120 => ⟨S64x200x4, .f32⟩
  | 121 => ⟨S4x64x200, .f32⟩
  | 122 => ⟨S1x64x200, .f32⟩
  | 123 => ⟨S64x200, .f32⟩
  | 124 => ⟨S1x64x200, .f32⟩
  | 125 => ⟨S64x200, .f32⟩
  | 126 => ⟨S1x64x200, .f32⟩
  | 127 => ⟨S64x200, .f32⟩
  | _ => ⟨S64x900x256, .f32⟩

abbrev hbmTy0_1 (i : Nat) : BufTy := match i % 128 with
  | 0 => ⟨S1x64x200, .f32⟩
  | 1 => ⟨S64x200, .f32⟩
  | 2 => ⟨S_, .f32⟩
  | 3 => ⟨S_, .f32⟩
  | 4 => ⟨S_, .f32⟩
  | 5 => ⟨S64x200, .f32⟩
  | 6 => ⟨S64x200, .f32⟩
  | 7 => ⟨S_, .f32⟩
  | 8 => ⟨S64x200, .f32⟩
  | 9 => ⟨S64x200, .f32⟩
  | 10 => ⟨S_, .f32⟩
  | 11 => ⟨S_, .f32⟩
  | 12 => ⟨S_, .f32⟩
  | 13 => ⟨S64x200, .f32⟩
  | 14 => ⟨S64x200, .f32⟩
  | 15 => ⟨S_, .f32⟩
  | 16 => ⟨S64x200, .f32⟩
  | 17 => ⟨S64x200, .f32⟩
  | 18 => ⟨S_, .f32⟩
  | 19 => ⟨S_, .f32⟩
  | 20 => ⟨S_, .f32⟩
  | 21 => ⟨S64x200, .f32⟩
  | 22 => ⟨S64x200, .f32⟩
  | 23 => ⟨S_, .f32⟩
  | 24 => ⟨S64x200, .f32⟩
  | 25 => ⟨S64x200, .f32⟩
  | 26 => ⟨S_, .f32⟩
  | 27 => ⟨S_, .f32⟩
  | 28 => ⟨S_, .f32⟩
  | 29 => ⟨S64x200, .f32⟩
  | 30 => ⟨S64x200, .f32⟩
  | 31 => ⟨S_, .f32⟩
  | 32 => ⟨S64x200, .f32⟩
  | 33 => ⟨S64x200, .f32⟩
  | 34 => ⟨S64x200x1, .f32⟩
  | 35 => ⟨S64x200x1, .f32⟩
  | 36 => ⟨S64x200x1, .f32⟩
  | 37 => ⟨S64x200x1, .f32⟩
  | 38 => ⟨S64x200x4, .f32⟩
  | 39 => ⟨S64x1x200, .i32⟩
  | 40 => ⟨S64x900x200, .i32⟩
  | 41 => ⟨S_, .i32⟩
  | 42 => ⟨S64x900x200, .i32⟩
  | 43 => ⟨S64x900x200, .i1⟩
  | 44 => ⟨S_, .i32⟩
  | 45 => ⟨S64x900x200, .i32⟩
  | 46 => ⟨S64x900x200, .i32⟩
  | 47 => ⟨S64x900x200, .i32⟩
  | 48 => ⟨S64x900x200x1, .i32⟩
  | 49 => ⟨S1, .i32⟩
  | 50 => ⟨S_, .i32⟩
  | 51 => ⟨S64x900x200x1, .i32⟩
  | 52 => ⟨S64x900x200x1, .i1⟩
  | 53 => ⟨S1x1x1x1, .i32⟩
  | 54 => ⟨S64x900x200x1, .i32⟩
  | 55 => ⟨S64x900x200x1, .i1⟩
  | 56 => ⟨S64x900x200x1, .i1⟩
  | 57 => ⟨S_, .i1⟩
  | 58 => ⟨S64x900x200, .i1⟩
  | 59 => ⟨S64x900x200, .f32⟩
  | 60 => ⟨S_, .f32⟩
  | 61 => ⟨S64x900x200, .f32⟩
  | 62 => ⟨S64x900x200, .f32⟩
  | 63 => ⟨S64x900x200, .f32⟩
  | 64 => ⟨S64x900x1x4, .f32⟩
  | 65 => ⟨S64x1x200x4, .f32⟩
  | 66 => ⟨S64x900x200x4, .f32⟩
  | 67 => ⟨S64x900x200x4, .f32⟩
  | 68 => ⟨S64x900x200x4, .f32⟩
  | 69 => ⟨S64x900x200x4, .f32⟩
  | 70 => ⟨S_, .f32⟩
  | 71 => ⟨S64x900x200, .f32⟩
  | 72 => ⟨S4x64x900, .f32⟩
  | 73 => ⟨S1x64x900, .f32⟩
  | 74 => ⟨S64x900, .f32⟩
  | 75 => ⟨S1x64x900, .f32⟩
  | 76 => ⟨S64x900, .f32⟩
  | 77 => ⟨S1x64x900, .f32⟩
  | 78 => ⟨S64x900, .f32⟩
  | 79 => ⟨S1x64x900, .f32⟩
  | 80 => ⟨S64x900, .f32⟩
  | 81 => ⟨S_, .f32⟩
  | 82 => ⟨S64x900, .f32⟩
  | 83 => ⟨S64x900, .f32⟩
  | 84 => ⟨S64x900, .f32⟩
  | 85 => ⟨S_, .f32⟩
  | 86 => ⟨S64x900, .f32⟩
  | 87 => ⟨S64x900, .f32⟩
  | 88 => ⟨S64x900, .f32⟩
  | 89 => ⟨S_, .f32⟩
  | 90 => ⟨S64x900, .f32⟩
  | 91 => ⟨S64x900, .f32⟩
  | 92 => ⟨S64x900, .f32⟩
  | 93 => ⟨S_, .f32⟩
  | 94 => ⟨S64x900, .f32⟩
  | 95 => ⟨S64x900, .f32⟩
  | 96 => ⟨S64x900, .f32⟩
  | 97 => ⟨S64x900x1, .f32⟩
  | 98 => ⟨S64x900x1, .f32⟩
  | 99 => ⟨S64x900x1, .f32⟩
  | 100 => ⟨S64x900x1, .f32⟩
  | 101 => ⟨S64x900x4, .f32⟩
  | 102 => ⟨S4x64x200, .f32⟩
  | 103 => ⟨S1x64x200, .f32⟩
  | 104 => ⟨S64x200, .f32⟩
  | 105 => ⟨S1x64x200, .f32⟩
  | 106 => ⟨S64x200, .f32⟩
  | 107 => ⟨S1x64x200, .f32⟩
  | 108 => ⟨S64x200, .f32⟩
  | 109 => ⟨S1x64x200, .f32⟩
  | 110 => ⟨S64x200, .f32⟩
  | 111 => ⟨S_, .f32⟩
  | 112 => ⟨S64x200, .f32⟩
  | 113 => ⟨S64x200, .f32⟩
  | 114 => ⟨S64x200, .f32⟩
  | 115 => ⟨S_, .f32⟩
  | 116 => ⟨S64x200, .f32⟩
  | 117 => ⟨S64x200, .f32⟩
  | 118 => ⟨S64x200, .f32⟩
  | 119 => ⟨S_, .f32⟩
  | 120 => ⟨S64x200, .f32⟩
  | 121 => ⟨S64x200, .f32⟩
  | 122 => ⟨S64x200, .f32⟩
  | 123 => ⟨S_, .f32⟩
  | 124 => ⟨S64x200, .f32⟩
  | 125 => ⟨S64x200, .f32⟩
  | 126 => ⟨S64x200, .f32⟩
  | 127 => ⟨S64x200x1, .f32⟩
  | _ => ⟨S64x900x256, .f32⟩

abbrev hbmTy0_2 (i : Nat) : BufTy := match i % 128 with
  | 0 => ⟨S64x200x1, .f32⟩
  | 1 => ⟨S64x200x1, .f32⟩
  | 2 => ⟨S64x200x1, .f32⟩
  | 3 => ⟨S64x200x4, .f32⟩
  | 4 => ⟨S64x900x1, .f32⟩
  | 5 => ⟨S64x900, .f32⟩
  | 6 => ⟨S64x900x1, .f32⟩
  | 7 => ⟨S64x900, .f32⟩
  | 8 => ⟨S64x900, .f32⟩
  | 9 => ⟨S64x900x1, .f32⟩
  | 10 => ⟨S64x900, .f32⟩
  | 11 => ⟨S64x900x1, .f32⟩
  | 12 => ⟨S64x900, .f32⟩
  | 13 => ⟨S64x900, .f32⟩
  | 14 => ⟨S64x900, .f32⟩
  | 15 => ⟨S64x200x1, .f32⟩
  | 16 => ⟨S64x200, .f32⟩
  | 17 => ⟨S64x200x1, .f32⟩
  | 18 => ⟨S64x200, .f32⟩
  | 19 => ⟨S64x200, .f32⟩
  | 20 => ⟨S64x200x1, .f32⟩
  | 21 => ⟨S64x200, .f32⟩
  | 22 => ⟨S64x200x1, .f32⟩
  | 23 => ⟨S64x200, .f32⟩
  | 24 => ⟨S64x200, .f32⟩
  | 25 => ⟨S64x200, .f32⟩
  | 26 => ⟨S64x900x2, .f32⟩
  | 27 => ⟨S64x900x1x2, .f32⟩
  | 28 => ⟨S64x200x2, .f32⟩
  | 29 => ⟨S64x1x200x2, .f32⟩
  | 30 => ⟨S64x900x200x2, .f32⟩
  | 31 => ⟨S64x900x200x2, .f32⟩
  | 32 => ⟨S64x900x200x2, .f32⟩
  | 33 => ⟨S64x900x2, .f32⟩
  | 34 => ⟨S64x900x1x2, .f32⟩
  | 35 => ⟨S64x200x2, .f32⟩
  | 36 => ⟨S64x1x200x2, .f32⟩
  | 37 => ⟨S64x900x200x2, .f32⟩
  | 38 => ⟨S64x900x200x2, .f32⟩
  | 39 => ⟨S64x900x200x2, .f32⟩
  | 40 => ⟨S64x900x200x2, .f32⟩
  | 41 => ⟨S_, .f32⟩
  | 42 => ⟨S_, .f32⟩
  | 43 => ⟨S64x900x200x2, .f32⟩
  | 44 => ⟨S64x900x200x2, .f32⟩
  | 45 => ⟨S64x900x200x1, .f32⟩
  | 46 => ⟨S64x900x200, .f32⟩
  | 47 => ⟨S64x900x200x1, .f32⟩
  | 48 => ⟨S64x900x200, .f32⟩
  | 49 => ⟨S64x900x200, .f32⟩
  | 50 => ⟨S64x900x1, .f32⟩
  | 51 => ⟨S64x1x200, .f32⟩
  | 52 => ⟨S64x900x200, .f32⟩
  | 53 => ⟨S64x900x200, .f32⟩
  | 54 => ⟨S64x900x200, .f32⟩
  | 55 => ⟨S64x900x200, .f32⟩
  | 56 => ⟨S64x900x200, .f32⟩
  | 57 => ⟨S64x900x2, .f32⟩
  | 58 => ⟨S64x900x1x2, .f32⟩
  | 59 => ⟨S64x200x2, .f32⟩
  | 60 => ⟨S64x1x200x2, .f32⟩
  | 61 => ⟨S64x900x200x2, .f32⟩
  | 62 => ⟨S64x900x200x2, .f32⟩
  | 63 => ⟨S64x900x200x2, .f32⟩
  | 64 => ⟨S64x900x2, .f32⟩
  | 65 => ⟨S64x900x1x2, .f32⟩
  | 66 => ⟨S64x200x2, .f32⟩
  | 67 => ⟨S64x1x200x2, .f32⟩
  | 68 => ⟨S64x900x200x2, .f32⟩
  | 69 => ⟨S64x900x200x2, .f32⟩
  | 70 => ⟨S64x900x200x2, .f32⟩
  | 71 => ⟨S64x900x200x2, .f32⟩
  | 72 => ⟨S_, .f32⟩
  | 73 => ⟨S_, .f32⟩
  | 74 => ⟨S64x900x200x2, .f32⟩
  | 75 => ⟨S64x900x200x2, .f32⟩
  | 76 => ⟨S64x900x200x1, .f32⟩
  | 77 => ⟨S64x900x200, .f32⟩
  | 78 => ⟨S64x900x200x1, .f32⟩
  | 79 => ⟨S64x900x200, .f32⟩
  | 80 => ⟨S64x900x200, .f32⟩
  | 81 => ⟨S64x900x200, .f32⟩
  | 82 => ⟨S64x900x200, .f32⟩
  | 83 => ⟨S64x900x200, .f32⟩
  | 84 => ⟨S64x900x200, .f32⟩
  | 85 => ⟨S_, .f32⟩
  | 86 => ⟨S64x900x200, .f32⟩
  | 87 => ⟨S64x900x200, .f32⟩
  | 88 => ⟨S_, .f32⟩
  | 89 => ⟨S64x900x200, .f32⟩
  | 90 => ⟨S64x900x200, .f32⟩
  | 91 => ⟨S64x900x200, .f32⟩
  | 92 => ⟨S_, .f32⟩
  | 93 => ⟨S64x900x200, .f32⟩
  | 94 => ⟨S64x900x200, .f32⟩
  | 95 => ⟨S64x900x200, .f32⟩
  | 96 => ⟨S_, .f32⟩
  | 97 => ⟨S_, .f32⟩
  | 98 => ⟨S_, .f32⟩
  | 99 => ⟨S64x900x200, .i1⟩
  | 100 => ⟨S_, .f32⟩
  | 101 => ⟨S64x900x200, .f32⟩
  | 102 => ⟨S64x900x200, .f32⟩
  | 103 => ⟨S_, .f32⟩
  | 104 => ⟨S64x900x200, .f32⟩
  | 105 => ⟨S64x900x200, .i1⟩
  | 106 => ⟨S_, .f32⟩
  | 107 => ⟨S64x900x200, .f32⟩
  | 108 => ⟨S64x900x200, .f32⟩
  | 109 => ⟨S_, .f32⟩
  | 110 => ⟨S64x900x200, .f32⟩
  | 111 => ⟨S64x900x200, .i1⟩
  | 112 => ⟨S_, .f32⟩
  | 113 => ⟨S64x900x200, .f32⟩
  | 114 => ⟨S64x900x200, .f32⟩
  | _ => ⟨S64x900x256, .f32⟩

abbrev hbmTy (i : Nat) : BufTy := match i / 128 with
  | 0 => hbmTy0_0 i
  | 1 => hbmTy0_1 i
  | 2 => hbmTy0_2 i
  | _ => ⟨S64x900x256, .f32⟩

abbrev bufTy : (tb : Table) → Fin (tcTables nBuf tb) → BufTy
  | .hbm, ⟨i, _⟩ => hbmTy i
  | _, _ => ⟨S64x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_v0 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_call1_v0 : Ref sig .tc := ⟨.hbm, 15, rfl⟩
abbrev main_call0_v6 : Ref sig .tc := ⟨.hbm, 16, rfl⟩
abbrev main_call0_cst_0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_call2_v0 : Ref sig .tc := ⟨.hbm, 21, rfl⟩
abbrev main_v0 : Ref sig .tc := ⟨.hbm, 22, rfl⟩
abbrev main_cst_2 : Ref sig .tc := ⟨.hbm, 23, rfl⟩
abbrev main_v1 : Ref sig .tc := ⟨.hbm, 24, rfl⟩
abbrev main_cst_3 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_4 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_5 : Ref sig .tc := ⟨.hbm, 37, rfl⟩
abbrev main_cst_6 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_call1_call0_v0 : Ref sig .tc := ⟨.hbm, 42, rfl⟩
abbrev main_call1_v2 : Ref sig .tc := ⟨.hbm, 43, rfl⟩
abbrev main_call1_cst : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_call1_v0 : Ref sig .tc := ⟨.hbm, 48, rfl⟩
abbrev main_call1_v6 : Ref sig .tc := ⟨.hbm, 49, rfl⟩
abbrev main_call1_cst_0 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_call2_v0 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_8 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v22 : Ref sig .tc := ⟨.hbm, 72, rfl⟩
abbrev main_cst_10 : Ref sig .tc := ⟨.hbm, 73, rfl⟩
abbrev main_cst_11 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v23 : Ref sig .tc := ⟨.hbm, 80, rfl⟩
abbrev main_cst_12 : Ref sig .tc := ⟨.hbm, 81, rfl⟩
abbrev main_cst_13 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v24 : Ref sig .tc := ⟨.hbm, 88, rfl⟩
abbrev main_cst_14 : Ref sig .tc := ⟨.hbm, 89, rfl⟩
abbrev main_cst_15 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_cst_16 : Ref sig .tc := ⟨.hbm, 102, rfl⟩
abbrev main_cst_17 : Ref sig .tc := ⟨.hbm, 103, rfl⟩
abbrev main_cst_18 : Ref sig .tc := ⟨.hbm, 104, rfl⟩
abbrev main_call6_v0 : Ref sig .tc := ⟨.hbm, 105, rfl⟩
abbrev main_call6_v1 : Ref sig .tc := ⟨.hbm, 106, rfl⟩
abbrev main_call6_call0_v0 : Ref sig .tc := ⟨.hbm, 107, rfl⟩
abbrev main_call6_v2 : Ref sig .tc := ⟨.hbm, 108, rfl⟩
abbrev main_call6_cst : Ref sig .tc := ⟨.hbm, 109, rfl⟩
abbrev main_call6_v3 : Ref sig .tc := ⟨.hbm, 110, rfl⟩
abbrev main_call6_v4 : Ref sig .tc := ⟨.hbm, 111, rfl⟩
abbrev main_call6_v5 : Ref sig .tc := ⟨.hbm, 112, rfl⟩
abbrev main_call6_call1_v0 : Ref sig .tc := ⟨.hbm, 113, rfl⟩
abbrev main_call6_v6 : Ref sig .tc := ⟨.hbm, 114, rfl⟩
abbrev main_call6_cst_0 : Ref sig .tc := ⟨.hbm, 115, rfl⟩
abbrev main_call6_v7 : Ref sig .tc := ⟨.hbm, 116, rfl⟩
abbrev main_call6_v8 : Ref sig .tc := ⟨.hbm, 117, rfl⟩
abbrev main_call6_v9 : Ref sig .tc := ⟨.hbm, 118, rfl⟩
abbrev main_call6_call2_v0 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_cst_19 : Ref sig .tc := ⟨.hbm, 130, rfl⟩
abbrev main_cst_20 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v41 : Ref sig .tc := ⟨.hbm, 137, rfl⟩
abbrev main_cst_21 : Ref sig .tc := ⟨.hbm, 138, rfl⟩
abbrev main_cst_22 : Ref sig .tc := ⟨.hbm, 139, rfl⟩
abbrev main_call8_v0 : Ref sig .tc := ⟨.hbm, 140, rfl⟩
abbrev main_call8_v1 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_v42 : Ref sig .tc := ⟨.hbm, 145, rfl⟩
abbrev main_cst_23 : Ref sig .tc := ⟨.hbm, 146, rfl⟩
abbrev main_cst_24 : Ref sig .tc := ⟨.hbm, 147, rfl⟩
abbrev main_call9_v0 : Ref sig .tc := ⟨.hbm, 148, rfl⟩
abbrev main_call9_v1 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_v43 : Ref sig .tc := ⟨.hbm, 153, rfl⟩
abbrev main_cst_25 : Ref sig .tc := ⟨.hbm, 154, rfl⟩
abbrev main_cst_26 : Ref sig .tc := ⟨.hbm, 155, rfl⟩
abbrev main_call10_v0 : Ref sig .tc := ⟨.hbm, 156, rfl⟩
abbrev main_call10_v1 : Ref sig .tc := ⟨.hbm, 157, rfl⟩
abbrev main_call10_v2 : Ref sig .tc := ⟨.hbm, 158, rfl⟩
abbrev main_call10_v3 : Ref sig .tc := ⟨.hbm, 159, rfl⟩
abbrev main_call10_v4 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_call11_c : Ref sig .tc := ⟨.hbm, 169, rfl⟩
abbrev main_call11_v0 : Ref sig .tc := ⟨.hbm, 170, rfl⟩
abbrev main_call11_v1 : Ref sig .tc := ⟨.hbm, 171, rfl⟩
abbrev main_call11_c_0 : Ref sig .tc := ⟨.hbm, 172, rfl⟩
abbrev main_call11_v2 : Ref sig .tc := ⟨.hbm, 173, rfl⟩
abbrev main_call11_v3 : Ref sig .tc := ⟨.hbm, 174, rfl⟩
abbrev main_call11_v4 : Ref sig .tc := ⟨.hbm, 175, rfl⟩
abbrev main_call11_v5 : Ref sig .tc := ⟨.hbm, 176, rfl⟩
abbrev main_call11_c_1 : Ref sig .tc := ⟨.hbm, 177, rfl⟩
abbrev main_call11_c_2 : Ref sig .tc := ⟨.hbm, 178, rfl⟩
abbrev main_call11_v6 : Ref sig .tc := ⟨.hbm, 179, rfl⟩
abbrev main_call11_v7 : Ref sig .tc := ⟨.hbm, 180, rfl⟩
abbrev main_call11_v8 : Ref sig .tc := ⟨.hbm, 181, rfl⟩
abbrev main_call11_v9 : Ref sig .tc := ⟨.hbm, 182, rfl⟩
abbrev main_call11_v10 : Ref sig .tc := ⟨.hbm, 183, rfl⟩
abbrev main_call11_v11 : Ref sig .tc := ⟨.hbm, 184, rfl⟩
abbrev main_call11_c_3 : Ref sig .tc := ⟨.hbm, 185, rfl⟩
abbrev main_call11_v12 : Ref sig .tc := ⟨.hbm, 186, rfl⟩
abbrev main_call11_v13 : Ref sig .tc := ⟨.hbm, 187, rfl⟩
abbrev main_call11_cst : Ref sig .tc := ⟨.hbm, 188, rfl⟩
abbrev main_call11_v14 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_cst_27 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_cst_28 : Ref sig .tc := ⟨.hbm, 209, rfl⟩
abbrev main_v70 : Ref sig .tc := ⟨.hbm, 210, rfl⟩
abbrev main_v71 : Ref sig .tc := ⟨.hbm, 211, rfl⟩
abbrev main_v72 : Ref sig .tc := ⟨.hbm, 212, rfl⟩
abbrev main_cst_29 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_cst_30 : Ref sig .tc := ⟨.hbm, 217, rfl⟩
abbrev main_v76 : Ref sig .tc := ⟨.hbm, 218, rfl⟩
abbrev main_v77 : Ref sig .tc := ⟨.hbm, 219, rfl⟩
abbrev main_v78 : Ref sig .tc := ⟨.hbm, 220, rfl⟩
abbrev main_cst_31 : Ref sig .tc := ⟨.hbm, 221, rfl⟩
abbrev main_v79 : Ref sig .tc := ⟨.hbm, 222, rfl⟩
abbrev main_v80 : Ref sig .tc := ⟨.hbm, 223, rfl⟩
abbrev main_v81 : Ref sig .tc := ⟨.hbm, 224, rfl⟩
abbrev main_v82 : Ref sig .tc := ⟨.hbm, 225, rfl⟩
abbrev main_v83 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_cst_32 : Ref sig .tc := ⟨.hbm, 239, rfl⟩
abbrev main_v96 : Ref sig .tc := ⟨.hbm, 240, rfl⟩
abbrev main_v97 : Ref sig .tc := ⟨.hbm, 241, rfl⟩
abbrev main_v98 : Ref sig .tc := ⟨.hbm, 242, rfl⟩
abbrev main_cst_33 : Ref sig .tc := ⟨.hbm, 243, rfl⟩
abbrev main_v99 : Ref sig .tc := ⟨.hbm, 244, rfl⟩
abbrev main_v100 : Ref sig .tc := ⟨.hbm, 245, rfl⟩
abbrev main_v101 : Ref sig .tc := ⟨.hbm, 246, rfl⟩
abbrev main_cst_34 : Ref sig .tc := ⟨.hbm, 247, rfl⟩
abbrev main_v102 : Ref sig .tc := ⟨.hbm, 248, rfl⟩
abbrev main_v103 : Ref sig .tc := ⟨.hbm, 249, rfl⟩
abbrev main_v104 : Ref sig .tc := ⟨.hbm, 250, rfl⟩
abbrev main_cst_35 : Ref sig .tc := ⟨.hbm, 251, rfl⟩
abbrev main_v105 : Ref sig .tc := ⟨.hbm, 252, rfl⟩
abbrev main_v106 : Ref sig .tc := ⟨.hbm, 253, rfl⟩
abbrev main_v107 : Ref sig .tc := ⟨.hbm, 254, rfl⟩
abbrev main_v108 : Ref sig .tc := ⟨.hbm, 255, rfl⟩
abbrev main_v109 : Ref sig .tc := ⟨.hbm, 256, rfl⟩
abbrev main_v110 : Ref sig .tc := ⟨.hbm, 257, rfl⟩
abbrev main_v111 : Ref sig .tc := ⟨.hbm, 258, rfl⟩
abbrev main_v112 : Ref sig .tc := ⟨.hbm, 259, rfl⟩
abbrev main_v113 : Ref sig .tc := ⟨.hbm, 260, rfl⟩
abbrev main_v114 : Ref sig .tc := ⟨.hbm, 261, rfl⟩
abbrev main_v115 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_cst_36 : Ref sig .tc := ⟨.hbm, 297, rfl⟩
abbrev main_call12_v0 : Ref sig .tc := ⟨.hbm, 298, rfl⟩
abbrev main_call12_v1 : Ref sig .tc := ⟨.hbm, 299, rfl⟩
abbrev main_v150 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_v161 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_cst_37 : Ref sig .tc := ⟨.hbm, 328, rfl⟩
abbrev main_call13_v0 : Ref sig .tc := ⟨.hbm, 329, rfl⟩
abbrev main_call13_v1 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_cst_38 : Ref sig .tc := ⟨.hbm, 341, rfl⟩
abbrev main_v188 : Ref sig .tc := ⟨.hbm, 342, rfl⟩
abbrev main_v189 : Ref sig .tc := ⟨.hbm, 343, rfl⟩
abbrev main_cst_39 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_cst_40 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_cst_41 : Ref sig .tc := ⟨.hbm, 352, rfl⟩
abbrev main_cst_42 : Ref sig .tc := ⟨.hbm, 353, rfl⟩
abbrev main_cst_43 : Ref sig .tc := ⟨.hbm, 354, rfl⟩
abbrev main_call14_v0 : Ref sig .tc := ⟨.hbm, 355, rfl⟩
abbrev main_call14_v1 : Ref sig .tc := ⟨.hbm, 356, rfl⟩
abbrev main_call14_call0_v0 : Ref sig .tc := ⟨.hbm, 357, rfl⟩
abbrev main_call14_v2 : Ref sig .tc := ⟨.hbm, 358, rfl⟩
abbrev main_call14_cst : Ref sig .tc := ⟨.hbm, 359, rfl⟩
abbrev main_call14_v3 : Ref sig .tc := ⟨.hbm, 360, rfl⟩
abbrev main_call14_v4 : Ref sig .tc := ⟨.hbm, 361, rfl⟩
abbrev main_call14_v5 : Ref sig .tc := ⟨.hbm, 362, rfl⟩
abbrev main_call14_call1_v0 : Ref sig .tc := ⟨.hbm, 363, rfl⟩
abbrev main_call14_v6 : Ref sig .tc := ⟨.hbm, 364, rfl⟩
abbrev main_call14_cst_0 : Ref sig .tc := ⟨.hbm, 365, rfl⟩
abbrev main_call14_v7 : Ref sig .tc := ⟨.hbm, 366, rfl⟩
abbrev main_call14_v8 : Ref sig .tc := ⟨.hbm, 367, rfl⟩
abbrev main_call14_v9 : Ref sig .tc := ⟨.hbm, 368, rfl⟩
abbrev main_call14_call2_v0 : Ref sig .tc := ⟨.hbm, 369, rfl⟩
abbrev main_v196 : Ref sig .tc := ⟨.hbm, 370, rfl⟩

abbrev nD : Nat := 1
abbrev τ : Topo := Topo.v7x

variable {F : FTy → Type} [FloatOps F]

class Facts₀ : Prop where
  bcast_S_S64x900x256 : S_.BroadcastsInDim S64x900x256 (![] : Fin 0 → Fin S64x900x256.rank)
  reducesTo_S64x900x256_S64x900_d2 : S64x900x256.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x256_0_1_2 : S64x900x1.BroadcastsInDim S64x900x256 (![0, 1, 2] : Fin 3 → Fin S64x900x256.rank)
  bcast_S_S64x900x4 : S_.BroadcastsInDim S64x900x4 (![] : Fin 0 → Fin S64x900x4.rank)
  transposes_S64x900x4_S4x64x900_2_0_1 : S64x900x4.Transposes [2, 0, 1] S4x64x900
  slices_S4x64x900_S1x64x900_0_0_0 : S4x64x900.Slices ![0, 0, 0] S1x64x900
  shapeCasts_S1x64x900_S64x900 : S1x64x900.ShapeCasts S64x900
  slices_S4x64x900_S1x64x900_1_0_0 : S4x64x900.Slices ![1, 0, 0] S1x64x900
  slices_S4x64x900_S1x64x900_2_0_0 : S4x64x900.Slices ![2, 0, 0] S1x64x900
  slices_S4x64x900_S1x64x900_3_0_0 : S4x64x900.Slices ![3, 0, 0] S1x64x900
  concatenates_S64x900x1_S64x900x1_S64x900x1_S64x900x1_S64x900x4_d2 : Shape.Concatenates [S64x900x1, S64x900x1, S64x900x1, S64x900x1] S64x900x4 2
  bcast_S_S64x200x4 : S_.BroadcastsInDim S64x200x4 (![] : Fin 0 → Fin S64x200x4.rank)
  transposes_S64x200x4_S4x64x200_2_0_1 : S64x200x4.Transposes [2, 0, 1] S4x64x200
  slices_S4x64x200_S1x64x200_0_0_0 : S4x64x200.Slices ![0, 0, 0] S1x64x200
  shapeCasts_S1x64x200_S64x200 : S1x64x200.ShapeCasts S64x200
  slices_S4x64x200_S1x64x200_1_0_0 : S4x64x200.Slices ![1, 0, 0] S1x64x200
  slices_S4x64x200_S1x64x200_2_0_0 : S4x64x200.Slices ![2, 0, 0] S1x64x200
  slices_S4x64x200_S1x64x200_3_0_0 : S4x64x200.Slices ![3, 0, 0] S1x64x200
  bcast_S_S64x200 : S_.BroadcastsInDim S64x200 (![] : Fin 0 → Fin S64x200.rank)
  bcast_S64x200_S64x200x1_0_1 : S64x200.BroadcastsInDim S64x200x1 (![0, 1] : Fin 2 → Fin S64x200x1.rank)
  concatenates_S64x200x1_S64x200x1_S64x200x1_S64x200x1_S64x200x4_d2 : Shape.Concatenates [S64x200x1, S64x200x1, S64x200x1, S64x200x1] S64x200x4 2
  bcast_S64x200_S64x1x200_0_2 : S64x200.BroadcastsInDim S64x1x200 (![0, 2] : Fin 2 → Fin S64x1x200.rank)
  bcast_S64x1x200_S64x900x200_0_1_2 : S64x1x200.BroadcastsInDim S64x900x200 (![0, 1, 2] : Fin 3 → Fin S64x900x200.rank)
  bcast_S_S64x900x200 : S_.BroadcastsInDim S64x900x200 (![] : Fin 0 → Fin S64x900x200.rank)
  shapeCasts_S64x900x200_S64x900x200x1 : S64x900x200.ShapeCasts S64x900x200x1
  bcast_S_S64x900x200x1 : S_.BroadcastsInDim S64x900x200x1 (![] : Fin 0 → Fin S64x900x200x1.rank)
  bcast_S1_S1x1x1x1_3 : S1.BroadcastsInDim S1x1x1x1 (![3] : Fin 1 → Fin S1x1x1x1.rank)
  bcast_S1x1x1x1_S64x900x200x1_0_1_2_3 : S1x1x1x1.BroadcastsInDim S64x900x200x1 (![0, 1, 2, 3] : Fin 4 → Fin S64x900x200x1.rank)
  reducesTo_S64x900x200x1_S64x900x200_d3 : S64x900x200x1.ReducesTo [3] S64x900x200
  bcast_S64x900x4_S64x900x1x4_0_1_3 : S64x900x4.BroadcastsInDim S64x900x1x4 (![0, 1, 3] : Fin 3 → Fin S64x900x1x4.rank)
  bcast_S64x200x4_S64x1x200x4_0_2_3 : S64x200x4.BroadcastsInDim S64x1x200x4 (![0, 2, 3] : Fin 3 → Fin S64x1x200x4.rank)
  bcast_S64x900x1x4_S64x900x200x4_0_1_2_3 : S64x900x1x4.BroadcastsInDim S64x900x200x4 (![0, 1, 2, 3] : Fin 4 → Fin S64x900x200x4.rank)
  bcast_S64x1x200x4_S64x900x200x4_0_1_2_3 : S64x1x200x4.BroadcastsInDim S64x900x200x4 (![0, 1, 2, 3] : Fin 4 → Fin S64x900x200x4.rank)
  reducesTo_S64x900x200x4_S64x900x200_d3 : S64x900x200x4.ReducesTo [3] S64x900x200
  slices_S64x900x4_S64x900x1_0_0_2 : S64x900x4.Slices ![0, 0, 2] S64x900x1
  shapeCasts_S64x900x1_S64x900 : S64x900x1.ShapeCasts S64x900
  slices_S64x900x4_S64x900x1_0_0_0 : S64x900x4.Slices ![0, 0, 0] S64x900x1
  slices_S64x900x4_S64x900x1_0_0_3 : S64x900x4.Slices ![0, 0, 3] S64x900x1
  slices_S64x900x4_S64x900x1_0_0_1 : S64x900x4.Slices ![0, 0, 1] S64x900x1
  slices_S64x200x4_S64x200x1_0_0_2 : S64x200x4.Slices ![0, 0, 2] S64x200x1
  shapeCasts_S64x200x1_S64x200 : S64x200x1.ShapeCasts S64x200
  slices_S64x200x4_S64x200x1_0_0_0 : S64x200x4.Slices ![0, 0, 0] S64x200x1
  slices_S64x200x4_S64x200x1_0_0_3 : S64x200x4.Slices ![0, 0, 3] S64x200x1
  slices_S64x200x4_S64x200x1_0_0_1 : S64x200x4.Slices ![0, 0, 1] S64x200x1
  slices_S64x900x4_S64x900x2_0_0_0 : S64x900x4.Slices ![0, 0, 0] S64x900x2
  bcast_S64x900x2_S64x900x1x2_0_1_3 : S64x900x2.BroadcastsInDim S64x900x1x2 (![0, 1, 3] : Fin 3 → Fin S64x900x1x2.rank)
  slices_S64x200x4_S64x200x2_0_0_0 : S64x200x4.Slices ![0, 0, 0] S64x200x2
  bcast_S64x200x2_S64x1x200x2_0_2_3 : S64x200x2.BroadcastsInDim S64x1x200x2 (![0, 2, 3] : Fin 3 → Fin S64x1x200x2.rank)
  bcast_S64x900x1x2_S64x900x200x2_0_1_2_3 : S64x900x1x2.BroadcastsInDim S64x900x200x2 (![0, 1, 2, 3] : Fin 4 → Fin S64x900x200x2.rank)
  bcast_S64x1x200x2_S64x900x200x2_0_1_2_3 : S64x1x200x2.BroadcastsInDim S64x900x200x2 (![0, 1, 2, 3] : Fin 4 → Fin S64x900x200x2.rank)
  slices_S64x900x4_S64x900x2_0_0_2 : S64x900x4.Slices ![0, 0, 2] S64x900x2
  slices_S64x200x4_S64x200x2_0_0_2 : S64x200x4.Slices ![0, 0, 2] S64x200x2
  bcast_S_S64x900x200x2 : S_.BroadcastsInDim S64x900x200x2 (![] : Fin 0 → Fin S64x900x200x2.rank)
  slices_S64x900x200x2_S64x900x200x1_0_0_0_0 : S64x900x200x2.Slices ![0, 0, 0, 0] S64x900x200x1
  shapeCasts_S64x900x200x1_S64x900x200 : S64x900x200x1.ShapeCasts S64x900x200
  slices_S64x900x200x2_S64x900x200x1_0_0_0_1 : S64x900x200x2.Slices ![0, 0, 0, 1] S64x900x200x1
  bcast_S64x900x1_S64x900x200_0_1_2 : S64x900x1.BroadcastsInDim S64x900x200 (![0, 1, 2] : Fin 3 → Fin S64x900x200.rank)
  gather_S64x900x256_S64x900x200x1_S64x900x200_n_2_01_01_2_3_111_wf : GatherDims.WF S64x900x256 S64x900x200x1 S64x900x200 [] [2] [0, 1] [2] [0, 1] 3 ![1, 1, 1]

variable [Facts₀]

def gather_S64x900x256_S64x900x200x1_S64x900x200_n_2_01_01_2_3_111 : GatherDims S64x900x256 S64x900x200x1 S64x900x200 where
  offsetDims := []
  collapsedSliceDims := [2]
  operandBatchingDims := [0, 1]
  startIndicesBatchingDims := [0, 1]
  startIndexMap := [2]
  indexVectorDim := 3
  sliceSizes := ![1, 1, 1]
  wf := gather_S64x900x256_S64x900x200x1_S64x900x200_n_2_01_01_2_3_111_wf

class Facts : Prop extends Facts₀ where

variable [Facts]
-- ==== Proof.Spec.lean ====
/-
  The matching cost as ONE function of the four argument arrays, entry by entry, on the extended reals.

  For a batch `b`, a query `q` and a target `t` the entry is
      nan_to_num ( 1 · class(q, t) + 5 · box(q, t) + 2 · giou(q, t) )        (NaN, +∞ and −∞ all sent to 10⁶)
  where
    • class(q, t) = 0 − ∑_c softmax(q, c) · [c = label t], the softmax of the sanitised logits of row `q` (shifted by
      the row's maximum, an exponential, divided by the row's sum of exponentials);
    • box(q, t) is the L1 distance of the two sanitised boxes in (cx, cy, w, h) form, the four absolute differences added
      from the left;
    • giou(q, t) = 0 − (iou − (enclosing − union) / enclosing) of the two boxes in corner form (centre ∓ half the extent).
  Sanitising a box entry replaces +∞ by 1 and −∞ by 0 and clips the centre into [0, 1] and the extent into [ε, 1].
  Every literal is kept as the word the programs carry; the same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The extended real an f32 word denotes. -/
abbrev lit (w : BitVec 32) : EReal := Ideal.ofBits .f32 w

/-- `nan_to_num` as the programs spell it: three selects in order, a NaN test (which never holds of an extended
    real), then +∞ replaced by `p`, then −∞ replaced by `n`. -/
def nanToNum (a p n x : EReal) : EReal :=
  let s1 := Scalar.select (Ideal.cmp .one x x) a x
  let s2 := Scalar.select (Ideal.cmp .oeq s1 (lit 0x7F800000#32)) p s1
  Scalar.select (Ideal.cmp .oeq s2 (lit 0xFF800000#32)) n s2

/-- Clipping into [lo, hi]: the lower bound first, then the upper. -/
def clip (lo hi x : EReal) : EReal := min hi (max lo x)

/-- The absolute value on the extended reals. -/
def absE (x : EReal) : EReal := max x (-x)

/-- The one-hot entry for class index `c` against a label word: the comparison's bit widened and read as a number. -/
def hot (c : Fin 256) (l : BitVec 32) : EReal :=
  FloatOps.sitofp (F := Ideal) .f32 ((IntOp.cmpi .eq (BitVec.ofNat 32 c.val) l).setWidth 32)

/-- `nan_to_num` with the NaN test spelt "unordered or not equal": the same function, since nothing is unordered. -/
def nanToNumU (a p n x : EReal) : EReal :=
  let s1 := Scalar.select (Ideal.cmp .une x x) a x
  let s2 := Scalar.select (Ideal.cmp .oeq s1 (lit 0x7F800000#32)) p s1
  Scalar.select (Ideal.cmp .oeq s2 (lit 0xFF800000#32)) n s2

/-- The two spellings of the NaN test are one comparison on the extended reals (`x ≠ x`), so the two are one function. -/
theorem nanToNumU_eq : nanToNumU = nanToNum := rfl

/-! ### Boxes: four numbers (cx, cy, w, h), or in corner form (x_lo, y_lo, x_hi, y_hi) -/

/-- A box entry sanitised: +∞ becomes 1, −∞ becomes 0. -/
def sbox (x : EReal) : EReal := nanToNum (lit 0x00000000#32) (lit 0x3F800000#32) (lit 0x00000000#32) x

/-- A sanitised box: the centre clipped into [0, 1], the extents into [ε, 1]. -/
def sanBox (u : Fin 4 → EReal) : Fin 4 → EReal :=
  ![clip (lit 0x00000000#32) (lit 0x3F800000#32) (sbox (u 0)), clip (lit 0x00000000#32) (lit 0x3F800000#32) (sbox (u 1)),
    clip (lit 0x358637BD#32) (lit 0x3F800000#32) (sbox (u 2)), clip (lit 0x358637BD#32) (lit 0x3F800000#32) (sbox (u 3))]

/-- The corner form of a (cx, cy, w, h) box: the centre minus and plus half the extent. -/
def corners (u : Fin 4 → EReal) : Fin 4 → EReal :=
  ![u 0 - lit 0x3F000000#32 * u 2, u 1 - lit 0x3F000000#32 * u 3, u 0 + lit 0x3F000000#32 * u 2, u 1 + lit 0x3F000000#32 * u 3]

/-- The L1 distance of two boxes, the four absolute differences added from the left. -/
def l1 (u v : Fin 4 → EReal) : EReal :=
  ((absE (u 0 - v 0) + absE (u 1 - v 1)) + absE (u 2 - v 2)) + absE (u 3 - v 3)

/-- The area of a corner-form box. -/
def areaOf (c : Fin 4 → EReal) : EReal := (c 2 - c 0) * (c 3 - c 1)
/-- The area of the intersection of two corner-form boxes (each side clipped at 0). -/
def interOf (c d : Fin 4 → EReal) : EReal :=
  max (lit 0x00000000#32) (min (c 2) (d 2) - max (c 0) (d 0)) * max (lit 0x00000000#32) (min (c 3) (d 3) - max (c 1) (d 1))
/-- The area of their union. -/
def unionOf (c d : Fin 4 → EReal) : EReal := (areaOf c + areaOf d) - interOf c d
/-- The area of the smallest box enclosing both. -/
def enclOf (c d : Fin 4 → EReal) : EReal :=
  max (lit 0x00000000#32) (max (c 2) (d 2) - min (c 0) (d 0)) * max (lit 0x00000000#32) (max (c 3) (d 3) - min (c 1) (d 1))
/-- The generalised IoU: the IoU less the share of the enclosing box outside the union. -/
def giouOf (c d : Fin 4 → EReal) : EReal :=
  Ideal.div (interOf c d) (unionOf c d) - Ideal.div (enclOf c d - unionOf c d) (enclOf c d)

section OneBatch

/- One batch's slices: logits [900, 256], predicted boxes [900, 4], labels [200], target boxes [200, 4]. -/
variable (lg : Fin 900 → Fin 256 → EReal) (pb : Fin 900 → Fin 4 → EReal) (lab : Fin 200 → BitVec 32)
  (tb : Fin 200 → Fin 4 → EReal)

/-! ### The class cost -/

def slog (q : Fin 900) (c : Fin 256) : EReal := nanToNum (lit 0x00000000#32) (lit 0x00000000#32) (lit 0x00000000#32) (lg q c)
def rmax (q : Fin 900) : EReal := (Finset.univ : Finset (Fin 256)).fold max (lit 0xFF800000#32) (fun c => slog lg q c)
def ex (q : Fin 900) (c : Fin 256) : EReal := Ideal.exp (slog lg q c - rmax lg q)
def rsum (q : Fin 900) : EReal := ∑ c : Fin 256, ex lg q c
def prob (q : Fin 900) (c : Fin 256) : EReal := Ideal.div (ex lg q c) (rsum lg q)
def costClass (q : Fin 900) (t : Fin 200) : EReal := lit 0x00000000#32 - ∑ c : Fin 256, prob lg q c * hot c (lab t)

/-! ### The weighted sum, sanitised -/

def total (q : Fin 900) (t : Fin 200) : EReal :=
  (lit 0x3F800000#32 * costClass lg lab q t + lit 0x40A00000#32 * l1 (sanBox (pb q)) (sanBox (tb t)))
    + lit 0x40000000#32 * (lit 0x00000000#32 - giouOf (corners (sanBox (pb q))) (corners (sanBox (tb t))))

def cost (q : Fin 900) (t : Fin 200) : EReal :=
  nanToNum (lit 0x49742400#32) (lit 0x49742400#32) (lit 0x49742400#32) (total lg pb lab tb q t)

end OneBatch

/-! ## The whole array -/

abbrev S64x900x256 : Shape := ⟨3, ![64, 900, 256]⟩
abbrev S64x900x4 : Shape := ⟨3, ![64, 900, 4]⟩
abbrev S64x200 : Shape := ⟨2, ![64, 200]⟩
abbrev S64x200x4 : Shape := ⟨3, ![64, 200, 4]⟩
abbrev S64x900x200 : Shape := ⟨3, ![64, 900, 200]⟩

/-- The result array [64, 900, 200] from the four argument arrays: entry (b, q, t) is batch `b`'s cost at (q, t). -/
def G (a0 : S64x900x256.Idx → EReal) (a1 : S64x900x4.Idx → EReal) (a2 : S64x200.Idx → BitVec 32) (a3 : S64x200x4.Idx → EReal) :
    S64x900x200.Idx → EReal :=
  fun i =>
    let b : Fin 64 := ⟨(i 0).val, (i 0).isLt⟩
    let q : Fin 900 := ⟨(i 1).val, (i 1).isLt⟩
    let t : Fin 200 := ⟨(i 2).val, (i 2).isLt⟩
    cost (fun q c => a0 (ix3 b q c)) (fun q k => a1 (ix3 b q k)) (fun t => a2 (ix2 b t)) (fun t k => a3 (ix3 b t k)) q t

theorem G_apply (a0 : S64x900x256.Idx → EReal) (a1 : S64x900x4.Idx → EReal) (a2 : S64x200.Idx → BitVec 32) (a3 : S64x200x4.Idx → EReal)
    (b : Fin 64) (q : Fin 900) (t : Fin 200) :
    G a0 a1 a2 a3 (ix3 b q t)
      = cost (fun q c => a0 (ix3 b q c)) (fun q k => a1 (ix3 b q k)) (fun t => a2 (ix2 b t)) (fun t k => a3 (ix3 b t k)) q t := rfl

end Cert.Spec

end
-- ==== Proof.PreDecode.lean ====
/-
  The precondition read back: every label word, read unsigned, is below 256 (the signed label lies in [0, 256)).
-/
import proofs.«424823_j58110907515474_1_alg».proof.Pre_finite_inputs
import Idealize.ShloMosaic.Lib.ReduceAll
import Idealize.ShloMosaic.Lib.ValueIdx

namespace Cert.PreDecode

open Idealize.ShloMosaic Cert.Pre_finite_inputs

instance : Subsingleton S_.Idx := ⟨fun a b => funext fun d => d.elim0⟩

/-- A 32-bit word that is at least 0 and below 256 as a signed number is below 256 as an unsigned one. -/
theorem toNat_lt_of_signed (l : BitVec 32) (h0 : (0#32 : BitVec 32).toInt ≤ l.toInt) (h1 : l.toInt < (256#32 : BitVec 32).toInt) :
    l.toNat < 256 := by
  have e0 : (0#32 : BitVec 32).toInt = 0 := by decide
  have e1 : (256#32 : BitVec 32).toInt = 256 := by decide
  rw [e0] at h0; rw [e1] at h1
  rw [BitVec.toInt_eq_toNat_cond] at h0 h1
  have := l.isLt
  split at h0 <;> omega

/-- The precondition's two label conjuncts, entry by entry. -/
theorem label_lt {F : FTy → Type} [FloatOps F] [Facts] (a0 : FVec F S64x900x256 .f32) (a1 : FVec F S64x900x4 .f32)
    (lab : IVec S64x200 32) (a3 : FVec F S64x200x4 .f32)
    (h : fn (F := F) a0 a1 lab a3 = fun _ => 1#1) (i : S64x200.Idx) : (lab i).toNat < 256 := by
  have h0 := congrFun h ValueIdx.ix0
  dsimp only [fn, fn_part1] at h0
  obtain ⟨h1, hlt⟩ := IntOp.andi_eq_one.1 (show IntOp.andi _ _ = 1#1 from h0)
  obtain ⟨_, hge⟩ := IntOp.andi_eq_one.1 (show IntOp.andi _ _ = 1#1 from h1)
  have hge' := Host.reduce_andi_all _ _ _ _ _ hge i
  have hlt' := Host.reduce_andi_all _ _ _ _ _ hlt i
  exact toNat_lt_of_signed _ (IntOp.cmpi_sge.1 hge') (IntOp.cmpi_slt.1 hlt')

end Cert.PreDecode
-- ==== Proof.KClass.lean ====
/-
  The class cost of one batch at (q, t): the one-hot product picks the softmax column of the label.

  The payload is 0 − A · B with A the [900, 256] softmax of the sanitised logits (each row shifted by its maximum,
  the exponential, divided by the row's sum) and B the [256, 200] one-hot array of the labels. Read at (q, t) the
  product is ∑_c A(q, c) · B(c, t); A(q, c) is the softmax entry of row q and B(c, t) the one-hot entry of class c
  against label t, so the entry is the class cost as the specification writes it.
-/
import proofs.«424823_j58110907515474_1_alg».proof.Proof.Gen.KernelIdeal.Frame
import proofs.«424823_j58110907515474_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ClassValue

open Cert.KernelIdeal Cert.KernelIdeal.Gen Idealize.ShloMosaic Idealize.ShloMosaic.ValueIdx
open scoped BigOperators

/-! ### The product at (q, t): the sum over the class index -/

/-- The left operand's index at output (q, t): its row is the output's row. -/
private theorem lhs_axis0 (i : S900x200.Idx) (k : dot_S900x256_S256x200_S900x200_1_0_0_1_n_n.contr.Idx) :
    (dot_S900x256_S256x200_S900x200_1_0_0_1_n_n.lhsIdx i k 0).val = (i 0).val := by
  unfold DotDims.lhsIdx
  rw [dif_neg (show ¬(0 : Fin S900x256.rank) ∈ dot_S900x256_S256x200_S900x200_1_0_0_1_n_n.lhsBatch by decide),
    dif_pos (show (0 : Fin S900x256.rank) ∈ dot_S900x256_S256x200_S900x200_1_0_0_1_n_n.lhsNonContracting by decide)]
  rfl

/-- Its column is the contraction coordinate. -/
private theorem lhs_axis1 (i : S900x200.Idx) (k : dot_S900x256_S256x200_S900x200_1_0_0_1_n_n.contr.Idx) :
    (dot_S900x256_S256x200_S900x200_1_0_0_1_n_n.lhsIdx i k 1).val = (k ⟨0, by decide⟩).val :=
  dot_S900x256_S256x200_S900x200_1_0_0_1_n_n.lhsIdx_val_of_single rfl i k

/-- The right operand's row is the contraction coordinate. -/
private theorem rhs_axis0 (i : S900x200.Idx) (k : dot_S900x256_S256x200_S900x200_1_0_0_1_n_n.contr.Idx) :
    (dot_S900x256_S256x200_S900x200_1_0_0_1_n_n.rhsIdx i k 0).val = (k ⟨0, by decide⟩).val :=
  dot_S900x256_S256x200_S900x200_1_0_0_1_n_n.rhsIdx_val_of_single rfl i k

/-- Its column is the output's column. -/
private theorem rhs_axis1 (i : S900x200.Idx) (k : dot_S900x256_S256x200_S900x200_1_0_0_1_n_n.contr.Idx) :
    (dot_S900x256_S256x200_S900x200_1_0_0_1_n_n.rhsIdx i k 1).val = (i 1).val := by
  unfold DotDims.rhsIdx
  rw [dif_neg (show ¬(1 : Fin S256x200.rank) ∈ dot_S900x256_S256x200_S900x200_1_0_0_1_n_n.rhsBatch by decide),
    dif_pos (show (1 : Fin S256x200.rank) ∈ dot_S900x256_S256x200_S900x200_1_0_0_1_n_n.rhsNonContracting by decide)]
  rfl

/-- A [900, 256] by [256, 200] product into the zero array, at (q, t): ∑_c A(q, c) · B(c, t). -/
private theorem matmul_cell (A : FVec Ideal S900x256 .bf16) (B : FVec Ideal S256x200 .bf16) (q : Fin 900) (t : Fin 200) :
    matmul dot_S900x256_S256x200_S900x200_1_0_0_1_n_n none A B (constant (F := Ideal) S900x200 .f32 0x00000000#32) (ix2 q t)
      = ∑ c : Fin 256, A (ix2 q c) * B (ix2 c t) := by
  simp only [matmul]
  rw [Ideal.matmul_constant_zero_apply, ← Equiv.sum_comp (contrEquiv1 dot_S900x256_S256x200_S900x200_1_0_0_1_n_n 256 rfl rfl).symm]
  refine Finset.sum_congr rfl fun k _ => ?_
  have hk := contrEquiv1_symm_val dot_S900x256_S256x200_S900x200_1_0_0_1_n_n 256 rfl rfl k
  have el : dot_S900x256_S256x200_S900x200_1_0_0_1_n_n.lhsIdx (ix2 q t) ((contrEquiv1 dot_S900x256_S256x200_S900x200_1_0_0_1_n_n 256 rfl rfl).symm k) = ix2 q k :=
    funext fun a => Fin.ext (by
      match a with
      | ⟨0, _⟩ => exact lhs_axis0 _ _
      | ⟨1, _⟩ => exact (lhs_axis1 _ _).trans hk)
  have er : dot_S900x256_S256x200_S900x200_1_0_0_1_n_n.rhsIdx (ix2 q t) ((contrEquiv1 dot_S900x256_S256x200_S900x200_1_0_0_1_n_n 256 rfl rfl).symm k) = ix2 k t :=
    funext fun a => Fin.ext (by
      match a with
      | ⟨0, _⟩ => exact (rhs_axis0 _ _).trans hk
      | ⟨1, _⟩ => exact rhs_axis1 _ _)
  rw [el, er]

/-! ### The stages of the payload, each a function of the array before it -/

/-- The logits of one batch as a [900, 256] array, sanitised: three selects in order (a test that never holds of an
    extended real, then +∞ replaced by 0, then −∞ replaced by 0). -/
private def sanV (v0 : Vec Ideal S1x900x256 .f32) : FVec Ideal S900x256 .f32 :=
  have v1 : FVec Ideal S900x256 .f32 := shapeCast S900x256 v0 shapeCasts_S1x900x256_S900x256
  have cst : Ideal .f32 := Scalar.ofBits .f32 0x00000000#32
  have cst_2 : Ideal .f32 := Scalar.ofBits .f32 0x00000000#32
  have cst_3 : Ideal .f32 := Scalar.ofBits .f32 0x00000000#32
  have v2 : IVec S900x256 1 := cmpf .one v1 v1
  have v3 : FVec Ideal S900x256 .f32 := broadcast S900x256 cst
  have v4 : FVec Ideal S900x256 .f32 := select v2 v3 v1
  have cst_4 : Ideal .f32 := Scalar.ofBits .f32 0x7F800000#32
  have v5 : FVec Ideal S900x256 .f32 := broadcast S900x256 cst_4
  have v6 : IVec S900x256 1 := cmpf .oeq v4 v5
  have v7 : FVec Ideal S900x256 .f32 := broadcast S900x256 cst_3
  have v8 : FVec Ideal S900x256 .f32 := select v6 v7 v4
  have cst_5 : Ideal .f32 := Scalar.ofBits .f32 0xFF800000#32
  have v9 : FVec Ideal S900x256 .f32 := broadcast S900x256 cst_5
  have v10 : IVec S900x256 1 := cmpf .oeq v8 v9
  have v11 : FVec Ideal S900x256 .f32 := broadcast S900x256 cst_2
  have v12 : FVec Ideal S900x256 .f32 := select v10 v11 v8
  v12

/-- Each row shifted by its maximum, then the exponential. -/
private def expV (v12 : FVec Ideal S900x256 .f32) : FVec Ideal S900x256 .f32 :=
  have v13 : FVec Ideal S900 .f32 := multiReduction .maximumf [1] S900 v12 0xFF800000#32 reduces_S900x256_S900 (.inl rfl) rfl
  have v14 : FVec Ideal S900x1 .f32 := shapeCast S900x1 v13 shapeCasts_S900_S900x1
  have v15 : FVec Ideal S900x256 .f32 := broadcastTo S900x256 v14 broadcasts_S900x1_S900x256
  have v16 : FVec Ideal S900x256 .f32 := subf v12 v15
  have v17 : FVec Ideal S900x256 .f32 := exp v16
  v17

/-- Each row divided by its sum. -/
private def divV (v17 : FVec Ideal S900x256 .f32) : FVec Ideal S900x256 .f32 :=
  have v18 : FVec Ideal S900 .f32 := multiReduction .add [1] S900 v17 0x00000000#32 reduces_S900x256_S900 (.inl rfl) rfl
  have v19 : FVec Ideal S900x1 .f32 := shapeCast S900x1 v18 shapeCasts_S900_S900x1
  have v20 : FVec Ideal S900x256 .f32 := broadcastTo S900x256 v19 broadcasts_S900x1_S900x256
  have v21 : FVec Ideal S900x256 .f32 := divf v17 v20
  v21

/-- The one-hot [256, 200] array of the labels: the class index along the rows against the label along the columns. -/
private def hotV (v22 : Vec Ideal S1x1x200 .i32) : FVec Ideal S256x200 .f32 :=
  have v23 : IVec S200 32 := shapeCast S200 v22 shapeCasts_S1x1x200_S200
  have v24 : IVec S256x200 32 := iota .tc S256x200 32 [0] iota_S256x200_d0_w32
  have v25 : IVec S1x200 32 := shapeCast S1x200 v23 shapeCasts_S200_S1x200
  have v26 : IVec S256x200 32 := broadcastTo S256x200 v25 broadcasts_S1x200_S256x200
  have v27 : IVec S256x200 1 := cmpi .eq v24 v26
  have v28 : IVec S256x200 32 := extui 32 v27 natLt_1_32
  have v29 : FVec Ideal S256x200 .f32 := sitofp .f32 v28
  v29

/-! ### Each stage at an index -/

/-- The sanitised logit at (q, c). -/
private theorem sanV_apply (v0 : Vec Ideal S1x900x256 .f32) (q : Fin 900) (c : Fin 256) :
    sanV v0 (ix2 q c) = Spec.slog (fun q c => v0 (ix3 (0 : Fin 1) q c)) q c := by
  have h1 := shapeCast_1ab_ab_apply v0 shapeCasts_S1x900x256_S900x256 q c
  show Spec.nanToNum (Spec.lit 0x00000000#32) (Spec.lit 0x00000000#32) (Spec.lit 0x00000000#32)
      (shapeCast S900x256 v0 shapeCasts_S1x900x256_S900x256 (ix2 q c)) = _
  rw [h1]
  rfl

/-- Inserting the class coordinate c into the row index q gives (q, c). -/
private theorem lift_row (h : S900x256.Reduces [1] S900) (q : Fin 900) (c : Fin 256) : h.lift (ix1 q) c = ix2 q c :=
  funext fun a => Fin.ext (by
    match a with
    | ⟨0, _⟩ => rfl
    | ⟨1, _⟩ => rfl)

/-- A row's maximum: the fold of max from −∞ over the row. -/
private theorem rowmax_apply (v : FVec Ideal S900x256 .f32) (h : S900x256.Reduces [1] S900) (hφ : FKind.Formats .f32)
    (hacc : (0xFF800000#32 : BitVec 32) = FKind.maximumf.neutral .f32 hφ) (q : Fin 900) :
    multiReduction .maximumf [1] S900 v 0xFF800000#32 h hφ hacc (ix1 q)
      = (Finset.univ : Finset (Fin 256)).fold max (Spec.lit 0xFF800000#32) (fun c => v (ix2 q c)) :=
  (Ideal.multiReduction_maximumf_single v _ h hφ hacc (ix1 q)).trans
    (congrArg ((Finset.univ : Finset (Fin 256)).fold max (Spec.lit 0xFF800000#32))
      (funext fun c => congrArg v (lift_row h q c)))

/-- A row's sum. -/
private theorem rowsum_apply (v : FVec Ideal S900x256 .f32) (h : S900x256.Reduces [1] S900) (hφ : FKind.Formats .f32)
    (hacc : (0x00000000#32 : BitVec 32) = FKind.add.neutral .f32 hφ) (q : Fin 900) :
    multiReduction .add [1] S900 v 0x00000000#32 h hφ hacc (ix1 q) = ∑ c : Fin 256, v (ix2 q c) :=
  (Ideal.multiReduction_add_single v _ h hφ hacc (ix1 q)).trans
    (Finset.sum_congr rfl fun c _ => congrArg v (lift_row h q c))

/-- A [900] column viewed [900, 1] and broadcast along the rows reads, at (q, c), the column at q. -/
private theorem col_apply (w : FVec Ideal S900 .f32) (h1 : S900.ShapeCasts S900x1) (h2 : S900x1.Broadcasts S900x256)
    (q : Fin 900) (c : Fin 256) :
    broadcastTo S900x256 (shapeCast S900x1 w h1) h2 (ix2 q c) = w (ix1 q) := by
  refine (broadcastTo_apply (shapeCast S900x1 w h1) h2 (ix2 q c) (ix2 q (0 : Fin 1)) fun a => ?_).trans ?_
  · match a with
    | ⟨0, _⟩ => rfl
    | ⟨1, _⟩ => rfl
  · refine shapeCast_apply w h1 (ix2 q (0 : Fin 1)) (ix1 q) ?_
    rw [Shape.rowMajor_val_one, Shape.rowMajor_val_two]
    show q.val = q.val * 1 + 0
    omega

/-- The shifted exponential at (q, c). -/
private theorem expV_apply (v : FVec Ideal S900x256 .f32) (q : Fin 900) (c : Fin 256) :
    expV v (ix2 q c)
      = Ideal.exp (v (ix2 q c) - (Finset.univ : Finset (Fin 256)).fold max (Spec.lit 0xFF800000#32) (fun c => v (ix2 q c))) :=
  congrArg Ideal.exp (congrArg (fun z : EReal => v (ix2 q c) - z)
    ((col_apply _ shapeCasts_S900_S900x1 broadcasts_S900x1_S900x256 q c).trans
      (rowmax_apply v reduces_S900x256_S900 (.inl rfl) rfl q)))

/-- The quotient by the row's sum at (q, c). -/
private theorem divV_apply (v : FVec Ideal S900x256 .f32) (q : Fin 900) (c : Fin 256) :
    divV v (ix2 q c) = Ideal.div (v (ix2 q c)) (∑ c : Fin 256, v (ix2 q c)) :=
  congrArg (Ideal.div (v (ix2 q c)))
    ((col_apply _ shapeCasts_S900_S900x1 broadcasts_S900x1_S900x256 q c).trans
      (rowsum_apply v reduces_S900x256_S900 (.inl rfl) rfl q))

/-- The three stages together are the softmax of the sanitised row. -/
private theorem soft_apply (v0 : Vec Ideal S1x900x256 .f32) (q : Fin 900) (c : Fin 256) :
    divV (expV (sanV v0)) (ix2 q c) = Spec.prob (fun q c => v0 (ix3 (0 : Fin 1) q c)) q c := by
  rw [divV_apply]
  simp only [expV_apply, sanV_apply]
  rfl

/-- The one-hot entry at (c, t). -/
private theorem hotV_apply (v22 : Vec Ideal S1x1x200 .i32) (c : Fin 256) (t : Fin 200) :
    hotV v22 (ix2 c t) = Spec.hot c (v22 (ix3 (0 : Fin 1) (0 : Fin 1) t)) := by
  have e1 : iota .tc S256x200 32 [0] iota_S256x200_d0_w32 (ix2 c t) = BitVec.ofNat 32 c.val :=
    iota_single_apply .tc S256x200 32 0 iota_S256x200_d0_w32 (ix2 c t)
  have e2 : broadcastTo S256x200 (shapeCast S1x200 (shapeCast S200 v22 shapeCasts_S1x1x200_S200) shapeCasts_S200_S1x200)
      broadcasts_S1x200_S256x200 (ix2 c t) = v22 (ix3 (0 : Fin 1) (0 : Fin 1) t) :=
    (broadcastTo_1b_ab_apply _ broadcasts_S1x200_S256x200 c t).trans
      ((shapeCast_a_1a_apply _ shapeCasts_S200_S1x200 (0 : Fin 1) t).trans
        (shapeCast_apply v22 shapeCasts_S1x1x200_S200 (ix1 t) (ix3 (0 : Fin 1) (0 : Fin 1) t) (by
          rw [Shape.rowMajor_val_three, Shape.rowMajor_val_one]
          show (0 * 1 + 0) * 200 + t.val = t.val
          omega)))
  show FloatOps.sitofp (F := Ideal) .f32
      ((IntOp.cmpi .eq (iota .tc S256x200 32 [0] iota_S256x200_d0_w32 (ix2 c t))
        (broadcastTo S256x200 (shapeCast S1x200 (shapeCast S200 v22 shapeCasts_S1x1x200_S200) shapeCasts_S200_S1x200)
          broadcasts_S1x200_S256x200 (ix2 c t))).setWidth 32) = _
  rw [e1, e2]
  rfl

/-- The payload is 0 minus the product of the softmax array and the one-hot array. -/
private theorem pay2_eq (x0 : Vec Ideal S1x900x256 .f32) (x2 : Vec Ideal S1x1x200 .i32) :
    k0_pay2 (F := Ideal) x0 x2
      = subf (broadcast S900x200 (Scalar.ofBits .f32 0x00000000#32))
          (matmul dot_S900x256_S256x200_S900x200_1_0_0_1_n_n none (truncf .bf16 (divV (expV (sanV x0))) bitsLt_bf16_f32)
            (truncf .bf16 (hotV x2) bitsLt_bf16_f32) (constant (F := Ideal) S900x200 .f32 0x00000000#32)) := rfl

/-- The class-cost payload of one batch at (q, t). -/
theorem class_cell (x0 : Vec Ideal S1x900x256 .f32) (x2 : Vec Ideal S1x1x200 .i32) (q : Fin 900) (t : Fin 200) :
    k0_pay2 (F := Ideal) x0 x2 (ix2 q t)
      = Spec.costClass (fun q c => x0 (ix3 (0 : Fin 1) q c)) (fun t => x2 (ix3 (0 : Fin 1) (0 : Fin 1) t)) q t := by
  rw [pay2_eq, subf_apply, broadcast_apply, matmul_cell]
  unfold Spec.costClass
  refine congrArg (fun z : EReal => Spec.lit 0x00000000#32 - z) (Finset.sum_congr rfl fun c _ => ?_)
  rw [truncf_apply, truncf_apply, soft_apply, hotV_apply]

end Cert.KernelIdeal.ClassValue

end
-- ==== Proof.KPay.lean ====
/-
  The kernel's block at one grid point, read at an entry: the body's result for a batch is that batch's cost.

  The block is one store of one payload over the whole window. The payload is read at (0, q, t) function by function:
  the two boxes' entries with their infinities replaced and clipped are the sanitised boxes at coordinates 0..3; the four
  absolute differences added from the left are the L1 distance; the centre minus and plus half the extent are the corner
  forms, from which the areas, the pairwise maxima and minima, the intersection, the union and the enclosing box give the
  generalised IoU; the weighted sum of the class cost, the L1 distance and minus the GIoU, with NaN and the two infinities
  replaced, is the cost.
-/
import proofs.«424823_j58110907515474_1_alg».proof.Proof.Gen.KernelIdeal.Frame
import proofs.«424823_j58110907515474_1_alg».proof.Proof.Spec
import proofs.«424823_j58110907515474_1_alg».proof.Proof.KClass
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Column forms of the layout operations -/

section Columns
variable {α : Type}

/-- An `[a, 1]` array cast to `[a]` reads, at `i`, the operand at `(i, 0)`. -/
private theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Pointwise operations the index lemmas do not name -/

private theorem absf_apply {s : Shape} {φ : FTy} (a : FVec Ideal s φ) (i : s.Idx) : absf a i = Spec.absE (a i) := rfl

/-! ## A column spread along the rows, a row spread along the columns -/

/-- A vector over the queries, made a column and spread over the targets, reads its own entry at the query. -/
private theorem col_apply (v : FVec Ideal S900 .f32) (q : Fin 900) (t : Fin 200) :
    broadcastTo S900x200 (shapeCast S900x1 v shapeCasts_S900_S900x1) broadcasts_S900x1_S900x200 (ix2 q t) = v (ix1 q) := by
  rw [broadcastTo_a1_ab_apply, shapeCast_a_a1_apply]

/-- A vector over the targets, made a row and spread over the queries, reads its own entry at the target. -/
private theorem row_apply (w : FVec Ideal S200 .f32) (q : Fin 900) (t : Fin 200) :
    broadcastTo S900x200 (shapeCast S1x200 w shapeCasts_S200_S1x200) broadcasts_S1x200_S900x200 (ix2 q t) = w (ix1 t) := by
  rw [broadcastTo_1b_ab_apply, shapeCast_a_1a_apply]

/-! ## The predicted boxes, sanitised -/

section Pred
variable (P : FVec Ideal S900x4 .f32) (a n p : Ideal .f32) (M : IVec S900x4 1) (q : Fin 900)

private theorem pay6_apply : k0_pay6 (F := Ideal) P a n p M (ix1 q)
    = Spec.clip (Spec.lit 0x00000000#32) (Spec.lit 0x3F800000#32) (k0_pay5 (F := Ideal) P a n p M (ix2 q (0 : Fin 4))) := by
  show min _ (max _ (shapeCast S900 (extractStridedSlice S900x1 ![0, 0] (k0_pay5 (F := Ideal) P a n p M) slices_S900x4_o0_0_S900x1)
    shapeCasts_S900x1_S900 (ix1 q))) = _
  rw [shapeCast_a1_a_apply, slice2_axis1_apply 0 _ _ q (0 : Fin 1) (0 : Fin 4) rfl]; rfl

private theorem pay7_apply : k0_pay7 (F := Ideal) P a n p M (ix1 q)
    = Spec.clip (Spec.lit 0x00000000#32) (Spec.lit 0x3F800000#32) (k0_pay5 (F := Ideal) P a n p M (ix2 q (1 : Fin 4))) := by
  show min _ (max _ (shapeCast S900 (extractStridedSlice S900x1 ![0, 1] (k0_pay5 (F := Ideal) P a n p M) slices_S900x4_o0_1_S900x1)
    shapeCasts_S900x1_S900 (ix1 q))) = _
  rw [shapeCast_a1_a_apply, slice2_axis1_apply 1 _ _ q (0 : Fin 1) (1 : Fin 4) rfl]; rfl

private theorem pay8_apply : k0_pay8 (F := Ideal) P a n p M (ix1 q)
    = Spec.clip (Spec.lit 0x358637BD#32) (Spec.lit 0x3F800000#32) (k0_pay5 (F := Ideal) P a n p M (ix2 q (2 : Fin 4))) := by
  show min _ (max _ (shapeCast S900 (extractStridedSlice S900x1 ![0, 2] (k0_pay5 (F := Ideal) P a n p M) slices_S900x4_o0_2_S900x1)
    shapeCasts_S900x1_S900 (ix1 q))) = _
  rw [shapeCast_a1_a_apply, slice2_axis1_apply 2 _ _ q (0 : Fin 1) (2 : Fin 4) rfl]; rfl

private theorem pay9_apply : k0_pay9 (F := Ideal) P a n p M (ix1 q)
    = Spec.clip (Spec.lit 0x358637BD#32) (Spec.lit 0x3F800000#32) (k0_pay5 (F := Ideal) P a n p M (ix2 q (3 : Fin 4))) := by
  show min _ (max _ (shapeCast S900 (extractStridedSlice S900x1 ![0, 3] (k0_pay5 (F := Ideal) P a n p M) slices_S900x4_o0_3_S900x1)
    shapeCasts_S900x1_S900 (ix1 q))) = _
  rw [shapeCast_a1_a_apply, slice2_axis1_apply 3 _ _ q (0 : Fin 1) (3 : Fin 4) rfl]; rfl

end Pred

/-- The block of predicted boxes with its unit axis dropped. -/
private theorem pay3_apply (x1 : Vec Ideal S1x900x4 .f32) (q : Fin 900) (k : Fin 4) :
    k0_pay3 (F := Ideal) x1 (ix2 q k) = x1 (ix3 (0 : Fin 1) q k) := shapeCast_1ab_ab_apply x1 _ q k

/-- A predicted-box entry with its infinities replaced. -/
private theorem psan_apply (x1 : Vec Ideal S1x900x4 .f32) (q : Fin 900) (k : Fin 4) :
    k0_pay5 (F := Ideal) (k0_pay3 x1) (Scalar.ofBits .f32 0x00000000#32) (Scalar.ofBits .f32 0x00000000#32)
        (Scalar.ofBits .f32 0x3F800000#32) (k0_pay4 x1) (ix2 q k) = Spec.sbox (x1 (ix3 (0 : Fin 1) q k)) := by
  rw [← pay3_apply x1 q k]; rfl

/-! ## The target boxes, sanitised -/

section Targ
variable (n : Ideal .f32) (T : FVec Ideal S200x4 .f32) (t : Fin 200)

private theorem pay12_apply : k0_pay12 (F := Ideal) n T (ix1 t)
    = Spec.clip (Spec.lit 0x00000000#32) (Spec.lit 0x3F800000#32) (k0_pay11 (F := Ideal) n T (ix2 t (0 : Fin 4))) := by
  show min _ (max _ (shapeCast S200 (extractStridedSlice S200x1 ![0, 0] (k0_pay11 (F := Ideal) n T) slices_S200x4_o0_0_S200x1)
    shapeCasts_S200x1_S200 (ix1 t))) = _
  rw [shapeCast_a1_a_apply, slice2_axis1_apply 0 _ _ t (0 : Fin 1) (0 : Fin 4) rfl]; rfl

private theorem pay13_apply : k0_pay13 (F := Ideal) n T (ix1 t)
    = Spec.clip (Spec.lit 0x00000000#32) (Spec.lit 0x3F800000#32) (k0_pay11 (F := Ideal) n T (ix2 t (1 : Fin 4))) := by
  show min _ (max _ (shapeCast S200 (extractStridedSlice S200x1 ![0, 1] (k0_pay11 (F := Ideal) n T) slices_S200x4_o0_1_S200x1)
    shapeCasts_S200x1_S200 (ix1 t))) = _
  rw [shapeCast_a1_a_apply, slice2_axis1_apply 1 _ _ t (0 : Fin 1) (1 : Fin 4) rfl]; rfl

private theorem pay14_apply : k0_pay14 (F := Ideal) n T (ix1 t)
    = Spec.clip (Spec.lit 0x358637BD#32) (Spec.lit 0x3F800000#32) (k0_pay11 (F := Ideal) n T (ix2 t (2 : Fin 4))) := by
  show min _ (max _ (shapeCast S200 (extractStridedSlice S200x1 ![0, 2] (k0_pay11 (F := Ideal) n T) slices_S200x4_o0_2_S200x1)
    shapeCasts_S200x1_S200 (ix1 t))) = _
  rw [shapeCast_a1_a_apply, slice2_axis1_apply 2 _ _ t (0 : Fin 1) (2 : Fin 4) rfl]; rfl

private theorem pay15_apply : k0_pay15 (F := Ideal) n T (ix1 t)
    = Spec.clip (Spec.lit 0x358637BD#32) (Spec.lit 0x3F800000#32) (k0_pay11 (F := Ideal) n T (ix2 t (3 : Fin 4))) := by
  show min _ (max _ (shapeCast S200 (extractStridedSlice S200x1 ![0, 3] (k0_pay11 (F := Ideal) n T) slices_S200x4_o0_3_S200x1)
    shapeCasts_S200x1_S200 (ix1 t))) = _
  rw [shapeCast_a1_a_apply, slice2_axis1_apply 3 _ _ t (0 : Fin 1) (3 : Fin 4) rfl]; rfl

end Targ

/-- A target-box entry with its infinities replaced. -/
private theorem tsan_apply (x3 : Vec Ideal S1x200x4 .f32) (t : Fin 200) (k : Fin 4) :
    k0_pay11 (F := Ideal) (Scalar.ofBits .f32 0x00000000#32) (k0_pay10 x3) (ix2 t k) = Spec.sbox (x3 (ix3 (0 : Fin 1) t k)) := by
  rw [← shapeCast_1ab_ab_apply x3 shapeCasts_S1x200x4_S200x4 t k]; rfl

/-! ## The two sanitised boxes at a query and a target -/

section San
variable (x1 : Vec Ideal S1x900x4 .f32) (x3 : Vec Ideal S1x200x4 .f32) (q : Fin 900) (t : Fin 200)

private theorem p0_apply : k0_pay6 (F := Ideal) (k0_pay3 x1) (Scalar.ofBits .f32 0x00000000#32) (Scalar.ofBits .f32 0x00000000#32)
    (Scalar.ofBits .f32 0x3F800000#32) (k0_pay4 x1) (ix1 q) = Spec.sanBox (fun k => x1 (ix3 (0 : Fin 1) q k)) 0 := by
  rw [pay6_apply, psan_apply]; rfl
private theorem p1_apply : k0_pay7 (F := Ideal) (k0_pay3 x1) (Scalar.ofBits .f32 0x00000000#32) (Scalar.ofBits .f32 0x00000000#32)
    (Scalar.ofBits .f32 0x3F800000#32) (k0_pay4 x1) (ix1 q) = Spec.sanBox (fun k => x1 (ix3 (0 : Fin 1) q k)) 1 := by
  rw [pay7_apply, psan_apply]; rfl
private theorem p2_apply : k0_pay8 (F := Ideal) (k0_pay3 x1) (Scalar.ofBits .f32 0x00000000#32) (Scalar.ofBits .f32 0x00000000#32)
    (Scalar.ofBits .f32 0x3F800000#32) (k0_pay4 x1) (ix1 q) = Spec.sanBox (fun k => x1 (ix3 (0 : Fin 1) q k)) 2 := by
  rw [pay8_apply, psan_apply]; rfl
private theorem p3_apply : k0_pay9 (F := Ideal) (k0_pay3 x1) (Scalar.ofBits .f32 0x00000000#32) (Scalar.ofBits .f32 0x00000000#32)
    (Scalar.ofBits .f32 0x3F800000#32) (k0_pay4 x1) (ix1 q) = Spec.sanBox (fun k => x1 (ix3 (0 : Fin 1) q k)) 3 := by
  rw [pay9_apply, psan_apply]; rfl

private theorem t0_apply : k0_pay12 (F := Ideal) (Scalar.ofBits .f32 0x00000000#32) (k0_pay10 x3) (ix1 t)
    = Spec.sanBox (fun k => x3 (ix3 (0 : Fin 1) t k)) 0 := by rw [pay12_apply, tsan_apply]; rfl
private theorem t1_apply : k0_pay13 (F := Ideal) (Scalar.ofBits .f32 0x00000000#32) (k0_pay10 x3) (ix1 t)
    = Spec.sanBox (fun k => x3 (ix3 (0 : Fin 1) t k)) 1 := by rw [pay13_apply, tsan_apply]; rfl
private theorem t2_apply : k0_pay14 (F := Ideal) (Scalar.ofBits .f32 0x00000000#32) (k0_pay10 x3) (ix1 t)
    = Spec.sanBox (fun k => x3 (ix3 (0 : Fin 1) t k)) 2 := by rw [pay14_apply, tsan_apply]; rfl
private theorem t3_apply : k0_pay15 (F := Ideal) (Scalar.ofBits .f32 0x00000000#32) (k0_pay10 x3) (ix1 t)
    = Spec.sanBox (fun k => x3 (ix3 (0 : Fin 1) t k)) 3 := by rw [pay15_apply, tsan_apply]; rfl

end San

/-! ## The L1 distance -/

section L1
variable (p0 p1 p2 p3 : FVec Ideal S900 .f32) (n : Ideal .f32) (T : FVec Ideal S200x4 .f32) (q : Fin 900) (t : Fin 200)

private theorem pay16_apply : k0_pay16 (F := Ideal) p0 p1 p2 n T (ix2 q t)
    = (Spec.absE (p0 (ix1 q) - k0_pay12 (F := Ideal) n T (ix1 t)) + Spec.absE (p1 (ix1 q) - k0_pay13 (F := Ideal) n T (ix1 t)))
        + Spec.absE (p2 (ix1 q) - k0_pay14 (F := Ideal) n T (ix1 t)) := by
  unfold k0_pay16
  simp only [addf_apply, subf_apply, absf_apply, col_apply, row_apply]

private theorem pay19_apply (A : FVec Ideal S900x200 .f32) : k0_pay19 (F := Ideal) A (k0_pay17 n T) (k0_pay18 p3) (ix2 q t)
    = A (ix2 q t) + Spec.absE (p3 (ix1 q) - k0_pay15 (F := Ideal) n T (ix1 t)) := by
  unfold k0_pay19 k0_pay17 k0_pay18
  simp only [addf_apply, subf_apply, absf_apply, col_apply, row_apply]

end L1

/-! ## The generalised IoU -/

section Pairs
variable (c0 c1 c2 c3 : FVec Ideal S900 .f32) (d0 d1 d2 d3 : FVec Ideal S200 .f32) (q : Fin 900) (t : Fin 200)

private theorem pay30_apply : k0_pay30 (F := Ideal) c0 c2 d0 d2 (ix2 q t)
    = max (k0_pay20 (F := Ideal) c0 c2 (ix1 q)) (k0_pay24 (F := Ideal) d0 d2 (ix1 t)) := by
  unfold k0_pay30; simp only [maximumf_apply, col_apply, row_apply]

private theorem pay31_apply : k0_pay31 (F := Ideal) c1 c3 d1 d3 (ix2 q t)
    = max (k0_pay21 (F := Ideal) c1 c3 (ix1 q)) (k0_pay25 (F := Ideal) d1 d3 (ix1 t)) := by
  unfold k0_pay31; simp only [maximumf_apply, col_apply, row_apply]

private theorem pay32_apply : k0_pay32 (F := Ideal) c0 c2 d0 d2 (ix2 q t)
    = min (k0_pay22 (F := Ideal) c0 c2 (ix1 q)) (k0_pay26 (F := Ideal) d0 d2 (ix1 t)) := by
  unfold k0_pay32; simp only [minimumf_apply, col_apply, row_apply]

private theorem pay33_apply : k0_pay33 (F := Ideal) d1 d3 (ix2 (0 : Fin 1) t) = k0_pay27 (F := Ideal) d1 d3 (ix1 t) := by
  unfold k0_pay33; exact shapeCast_a_1a_apply _ _ _ _

private theorem pay34_apply : k0_pay34 (F := Ideal) c1 c3 (ix2 q t) = k0_pay23 (F := Ideal) c1 c3 (ix1 q) := by
  unfold k0_pay34; exact col_apply _ q t

end Pairs

section Giou
variable (c0 c1 c2 c3 : FVec Ideal S900 .f32) (d0 d1 d2 d3 : FVec Ideal S200 .f32) (aC : FVec Ideal S900 .f32)
  (aD : FVec Ideal S200 .f32) (m0 m1 n2 : FVec Ideal S900x200 .f32) (r3 : FVec Ideal S1x200 .f32) (b3 : FVec Ideal S900x200 .f32)
  (q : Fin 900) (t : Fin 200)

/-- From the two corner forms, their areas, and the pairwise maxima and minima: minus the generalised IoU. -/
private theorem pay35_apply
    (hC : aC (ix1 q) = Spec.areaOf ![c0 (ix1 q), c1 (ix1 q), c2 (ix1 q), c3 (ix1 q)])
    (hD : aD (ix1 t) = Spec.areaOf ![d0 (ix1 t), d1 (ix1 t), d2 (ix1 t), d3 (ix1 t)])
    (h0 : m0 (ix2 q t) = max (c0 (ix1 q)) (d0 (ix1 t))) (h1 : m1 (ix2 q t) = max (c1 (ix1 q)) (d1 (ix1 t)))
    (h2 : n2 (ix2 q t) = min (c2 (ix1 q)) (d2 (ix1 t))) (h3 : r3 (ix2 (0 : Fin 1) t) = d3 (ix1 t))
    (h4 : b3 (ix2 q t) = c3 (ix1 q)) :
    k0_pay35 (F := Ideal) c0 c1 c2 c3 d0 d1 d2 d3 aC aD m0 m1 n2 r3 b3 (ix2 q t)
      = Spec.lit 0x00000000#32 - Spec.giouOf ![c0 (ix1 q), c1 (ix1 q), c2 (ix1 q), c3 (ix1 q)]
          ![d0 (ix1 t), d1 (ix1 t), d2 (ix1 t), d3 (ix1 t)] := by
  unfold k0_pay35
  simp only [subf_apply, addf_apply, mulf_apply, divf_apply, maximumf_apply, minimumf_apply, broadcast_apply, col_apply, row_apply,
    broadcastTo_1b_ab_apply, shapeCast_a_1a_apply, hC, hD, h0, h1, h2, h3, h4]
  rfl

end Giou

section GiouCell
variable (p0 p1 p2 p3 : FVec Ideal S900 .f32) (t0 t1 t2 t3 : FVec Ideal S200 .f32) (q : Fin 900) (t : Fin 200)

/-- The GIoU payload over the two boxes' four coordinate vectors. -/
private theorem giou_cell :
    k0_pay35 (F := Ideal) (k0_pay20 p0 p2) (k0_pay21 p1 p3) (k0_pay22 p0 p2) (k0_pay23 p1 p3)
        (k0_pay24 t0 t2) (k0_pay25 t1 t3) (k0_pay26 t0 t2) (k0_pay27 t1 t3)
        (k0_pay28 p0 p1 p2 p3) (k0_pay29 t0 t1 t2 t3)
        (k0_pay30 p0 p2 t0 t2) (k0_pay31 p1 p3 t1 t3) (k0_pay32 p0 p2 t0 t2)
        (k0_pay33 t1 t3) (k0_pay34 p1 p3) (ix2 q t)
      = Spec.lit 0x00000000#32 - Spec.giouOf (Spec.corners ![p0 (ix1 q), p1 (ix1 q), p2 (ix1 q), p3 (ix1 q)])
          (Spec.corners ![t0 (ix1 t), t1 (ix1 t), t2 (ix1 t), t3 (ix1 t)]) := by
  rw [pay35_apply _ _ _ _ _ _ _ _ _ _ _ _ _ _ _ q t rfl rfl (pay30_apply _ _ _ _ q t) (pay31_apply _ _ _ _ q t)
    (pay32_apply _ _ _ _ q t) (pay33_apply _ _ t) (pay34_apply _ _ q t)]
  rfl

end GiouCell

/-! ## The weighted sum, sanitised -/

private theorem pay36_apply (C D : FVec Ideal S900x200 .f32) (q : Fin 900) (t : Fin 200) :
    k0_pay36 (F := Ideal) C D (ix2 q t) = Spec.lit 0x3F800000#32 * C (ix2 q t) + Spec.lit 0x40A00000#32 * D (ix2 q t) := rfl

private theorem pay1_apply (A B : FVec Ideal S900x200 .f32) (q : Fin 900) (t : Fin 200) :
    k0_pay1 (F := Ideal) A B (ix3 (0 : Fin 1) q t)
      = Spec.nanToNum (Spec.lit 0x49742400#32) (Spec.lit 0x49742400#32) (Spec.lit 0x49742400#32)
          (B (ix2 q t) + Spec.lit 0x40000000#32 * A (ix2 q t)) := by
  unfold k0_pay1
  simp only [shapeCast_ab_1ab_apply]
  rfl

/-- The stored payload over the boxes' coordinate vectors and the class cost, at a query and a target whose sanitised
    boxes are `u` and `v`. -/
private theorem core (p0 p1 p2 p3 : FVec Ideal S900 .f32) (n : Ideal .f32) (T : FVec Ideal S200x4 .f32) (cc : FVec Ideal S900x200 .f32)
    (u v : Fin 4 → EReal) (q : Fin 900) (t : Fin 200)
    (hu : ![p0 (ix1 q), p1 (ix1 q), p2 (ix1 q), p3 (ix1 q)] = u)
    (hv : ![k0_pay12 (F := Ideal) n T (ix1 t), k0_pay13 (F := Ideal) n T (ix1 t), k0_pay14 (F := Ideal) n T (ix1 t),
      k0_pay15 (F := Ideal) n T (ix1 t)] = v) :
    k0_pay1 (F := Ideal)
        (k0_pay35 (k0_pay20 p0 p2) (k0_pay21 p1 p3) (k0_pay22 p0 p2) (k0_pay23 p1 p3)
          (k0_pay24 (k0_pay12 n T) (k0_pay14 n T)) (k0_pay25 (k0_pay13 n T) (k0_pay15 n T))
          (k0_pay26 (k0_pay12 n T) (k0_pay14 n T)) (k0_pay27 (k0_pay13 n T) (k0_pay15 n T))
          (k0_pay28 p0 p1 p2 p3) (k0_pay29 (k0_pay12 n T) (k0_pay13 n T) (k0_pay14 n T) (k0_pay15 n T))
          (k0_pay30 p0 p2 (k0_pay12 n T) (k0_pay14 n T)) (k0_pay31 p1 p3 (k0_pay13 n T) (k0_pay15 n T))
          (k0_pay32 p0 p2 (k0_pay12 n T) (k0_pay14 n T)) (k0_pay33 (k0_pay13 n T) (k0_pay15 n T)) (k0_pay34 p1 p3))
        (k0_pay36 cc (k0_pay19 (k0_pay16 p0 p1 p2 n T) (k0_pay17 n T) (k0_pay18 p3))) (ix3 (0 : Fin 1) q t)
      = Spec.nanToNum (Spec.lit 0x49742400#32) (Spec.lit 0x49742400#32) (Spec.lit 0x49742400#32)
          ((Spec.lit 0x3F800000#32 * cc (ix2 q t) + Spec.lit 0x40A00000#32 * Spec.l1 u v)
            + Spec.lit 0x40000000#32 * (Spec.lit 0x00000000#32 - Spec.giouOf (Spec.corners u) (Spec.corners v))) := by
  subst hu hv
  rw [pay1_apply, pay36_apply, pay19_apply, pay16_apply, giou_cell]
  rfl

/-- The whole block the body leaves in the output window, at (0, q, t). -/
theorem out_cell (x0 : Vec Ideal S1x900x256 .f32) (x1 : Vec Ideal S1x900x4 .f32) (x2 : Vec Ideal S1x1x200 .i32)
    (x3 : Vec Ideal S1x200x4 .f32) (q : Fin 900) (t : Fin 200) :
    out0_4 (F := Ideal) x0 x1 x2 x3 (ix3 (0 : Fin 1) q t)
      = Spec.cost (fun q c => x0 (ix3 (0 : Fin 1) q c)) (fun q k => x1 (ix3 (0 : Fin 1) q k))
          (fun t => x2 (ix3 (0 : Fin 1) (0 : Fin 1) t)) (fun t k => x3 (ix3 (0 : Fin 1) t k)) q t := by
  have hz : (![0, 0, 0] : Fin 3 → Nat) = fun _ => 0 := by
    funext a; match a with | ⟨0, _⟩ => rfl | ⟨1, _⟩ => rfl | ⟨2, _⟩ => rfl
  have hu : ![k0_pay6 (F := Ideal) (k0_pay3 x1) (Scalar.ofBits .f32 0x00000000#32) (Scalar.ofBits .f32 0x00000000#32)
        (Scalar.ofBits .f32 0x3F800000#32) (k0_pay4 x1) (ix1 q),
      k0_pay7 (F := Ideal) (k0_pay3 x1) (Scalar.ofBits .f32 0x00000000#32) (Scalar.ofBits .f32 0x00000000#32)
        (Scalar.ofBits .f32 0x3F800000#32) (k0_pay4 x1) (ix1 q),
      k0_pay8 (F := Ideal) (k0_pay3 x1) (Scalar.ofBits .f32 0x00000000#32) (Scalar.ofBits .f32 0x00000000#32)
        (Scalar.ofBits .f32 0x3F800000#32) (k0_pay4 x1) (ix1 q),
      k0_pay9 (F := Ideal) (k0_pay3 x1) (Scalar.ofBits .f32 0x00000000#32) (Scalar.ofBits .f32 0x00000000#32)
        (Scalar.ofBits .f32 0x3F800000#32) (k0_pay4 x1) (ix1 q)]
      = Spec.sanBox (fun k => x1 (ix3 (0 : Fin 1) q k)) := by
    rw [p0_apply, p1_apply, p2_apply, p3_apply]; rfl
  have hv : ![k0_pay12 (F := Ideal) (Scalar.ofBits .f32 0x00000000#32) (k0_pay10 x3) (ix1 t),
      k0_pay13 (F := Ideal) (Scalar.ofBits .f32 0x00000000#32) (k0_pay10 x3) (ix1 t),
      k0_pay14 (F := Ideal) (Scalar.ofBits .f32 0x00000000#32) (k0_pay10 x3) (ix1 t),
      k0_pay15 (F := Ideal) (Scalar.ofBits .f32 0x00000000#32) (k0_pay10 x3) (ix1 t)]
      = Spec.sanBox (fun k => x3 (ix3 (0 : Fin 1) t k)) := by
    rw [t0_apply, t1_apply, t2_apply, t3_apply]; rfl
  unfold out0_4
  rw [View.canon_unit_zero hz]
  simp only [View.ld_unit_zero (S := S1x900x256) hz, View.ld_unit_zero (S := S1x1x200) hz,
    View.ld_unit_zero (S := S1x900x4) hz, View.ld_unit_zero (S := S1x200x4) hz]
  refine (core _ _ _ _ _ _ _ _ _ q t hu hv).trans ?_
  rw [ClassValue.class_cell]
  rfl

end Cert.KernelIdeal.PayValue

end
-- ==== Proof.KArr.lean ====
/-
  From blocks to the array: grid point b writes batch b's block, the 64 blocks tile the result, so after the run the
  result array is the cost function of the argument arrays.

  Every window's block index at grid point t is (t, 0, 0), so a block read at (0, q, k) is its array at (t, q, k). The
  staged label array is the label argument with a unit middle axis, so its block at (0, 0, u) is the label at (t, u). With
  the four input blocks read this way, what the body leaves at (0, q, u) is batch t's cost at (q, u), which is entry
  (t, q, u) of the cost array: each point writes back its block of one array, and every index (b, q, u) lies in point b's
  block.
-/
import proofs.«424823_j58110907515474_1_alg».proof.Proof.Gen.KernelIdeal.Value
import proofs.«424823_j58110907515474_1_alg».proof.Proof.KPay

noncomputable section

namespace Cert.KernelIdeal.ArrValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every window's block index at grid point `t` is (t, 0, 0). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The batch a grid point works on. -/
abbrev batch (t : Fin cfg0.N) : Fin 64 := ⟨t.val, lt_of_lt_of_eq t.isLt N_0⟩

/-- The staged label array is the label argument with a unit axis put in the middle. -/
theorem labels_entry (c : Dev nD) :
    (V m c main_v0 : S64x1x200.Idx → BitVec 32)
      = broadcastInDim S64x1x200 ![0, 2] bcast_S64x200_S64x1x200_0_2 (m ((c : Thread nD τ).loc main_arg2)) := by
  dsimp only [Gen.V, Gen.hostOps0]
  after_results

/-- So at (b, 0, u) it holds the label of batch `b` for target `u`. -/
theorem labels_apply (c : Dev nD) (b : Fin 64) (u : Fin 200) :
    (V m c main_v0 : S64x1x200.Idx → BitVec 32) (ix3 b (0 : Fin 1) u)
      = (m ((c : Thread nD τ).loc main_arg2) : S64x200.Idx → BitVec 32) (ix2 b u) := by
  rw [labels_entry]
  refine broadcastInDim_apply _ _ _ _ _ fun a => ?_
  match a with
  | ⟨0, _⟩ => rfl
  | ⟨1, _⟩ => rfl

/-- Grid point `t`'s block of the logits, read at (0, q, k), is the argument at (t, q, k). -/
theorem logits_block (c : Dev nD) (t : Fin cfg0.N) (q : Fin 900) (k : Fin 256) :
    (iblk m c 0 t : Vec Ideal S1x900x256 .f32) (ix3 (0 : Fin 1) q k)
      = (m ((c : Thread nD τ).loc main_arg0) : S64x900x256.Idx → EReal) (ix3 (batch t) q k) := by
  obtain ⟨⟨e0, e1, e2⟩, -⟩ := index_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 900 + 1 * q.val = q.val; omega
  | ⟨2, _⟩ => show win0_0.index t (2 : Fin 3) * 256 + 1 * k.val = k.val; omega

/-- Grid point `t`'s block of the predicted boxes, read at (0, q, k), is the argument at (t, q, k). -/
theorem pred_block (c : Dev nD) (t : Fin cfg0.N) (q : Fin 900) (k : Fin 4) :
    (iblk m c 1 t : Vec Ideal S1x900x4 .f32) (ix3 (0 : Fin 1) q k)
      = (m ((c : Thread nD τ).loc main_arg1) : S64x900x4.Idx → EReal) (ix3 (batch t) q k) := by
  obtain ⟨-, ⟨e0, e1, e2⟩, -⟩ := index_facts t
  unfold iblk
  rw [View.read_apply]
  show V m c main_arg1 _ = _
  rw [V_main_arg1]
  congr 1
  funext a
  apply Fin.ext
  match a with
  | ⟨0, _⟩ => show win0_1.index t (0 : Fin 3) * 1 + 1 * 0 = t.val; omega
  | ⟨1, _⟩ => show win0_1.index t (1 : Fin 3) * 900 + 1 * q.val = q.val; omega
  | ⟨2, _⟩ => show win0_1.index t (2 : Fin 3) * 4 + 1 * k.val = k.val; omega

/-- Grid point `t`'s block of the staged labels, read at (0, 0, u), is the label argument at (t, u). -/
theorem label_block (c : Dev nD) (t : Fin cfg0.N) (u : Fin 200) :
    (iblk m c 2 t : Vec Ideal S1x1x200 .i32) (ix3 (0 : Fin 1) (0 : Fin 1) u)
      = (m ((c : Thread nD τ).loc main_arg2) : S64x200.Idx → BitVec 32) (ix2 (batch t) u) := by
  obtain ⟨-, -, ⟨e0, e1, e2⟩, -⟩ := index_facts t
  rw [← labels_apply m c (batch t) u]
  unfold iblk
  rw [View.read_apply]
  show V m c main_v0 _ = _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 200 + 1 * u.val = u.val; omega

/-- Grid point `t`'s block of the target boxes, read at (0, u, k), is the argument at (t, u, k). -/
theorem target_block (c : Dev nD) (t : Fin cfg0.N) (u : Fin 200) (k : Fin 4) :
    (iblk m c 3 t : Vec Ideal S1x200x4 .f32) (ix3 (0 : Fin 1) u k)
      = (m ((c : Thread nD τ).loc main_arg3) : S64x200x4.Idx → EReal) (ix3 (batch t) u k) := by
  obtain ⟨-, -, -, ⟨e0, e1, e2⟩, -⟩ := index_facts t
  unfold iblk
  rw [View.read_apply]
  show V m c main_arg3 _ = _
  rw [V_main_arg3]
  congr 1
  funext a
  apply Fin.ext
  match a with
  | ⟨0, _⟩ => show win0_3.index t (0 : Fin 3) * 1 + 1 * 0 = t.val; omega
  | ⟨1, _⟩ => show win0_3.index t (1 : Fin 3) * 200 + 1 * u.val = u.val; omega
  | ⟨2, _⟩ => show win0_3.index t (2 : Fin 3) * 4 + 1 * k.val = k.val; omega

/-- The cost array of the four argument arrays as launched. -/
abbrev costArr (c : Dev nD) : S64x900x200.Idx → EReal :=
  Spec.G (m ((c : Thread nD τ).loc main_arg0)) (m ((c : Thread nD τ).loc main_arg1))
    (m ((c : Thread nD τ).loc main_arg2)) (m ((c : Thread nD τ).loc main_arg3))

/-- What the body leaves at (0, q, u) when run on grid point `t`'s blocks is batch `t`'s cost at (q, u). -/
theorem point_cell (c : Dev nD) (t : Fin cfg0.N) (q : Fin 900) (u : Fin 200) :
    out0_4 (F := Ideal) (iblk m c 0 t) (iblk m c 1 t) (iblk m c 2 t) (iblk m c 3 t) (ix3 (0 : Fin 1) q u)
      = costArr m c (ix3 (batch t) q u) := by
  refine (PayValue.out_cell (iblk m c 0 t) (iblk m c 1 t) (iblk m c 2 t) (iblk m c 3 t) q u).trans
    (Eq.trans ?_ (Spec.G_apply _ _ _ _ (batch t) q u).symm)
  have h0 : (fun (q : Fin 900) (k : Fin 256) => (iblk m c 0 t : Vec Ideal S1x900x256 .f32) (ix3 (0 : Fin 1) q k))
      = fun q k => (m ((c : Thread nD τ).loc main_arg0) : S64x900x256.Idx → EReal) (ix3 (batch t) q k) :=
    funext fun q => funext fun k => logits_block m c t q k
  have h1 : (fun (q : Fin 900) (k : Fin 4) => (iblk m c 1 t : Vec Ideal S1x900x4 .f32) (ix3 (0 : Fin 1) q k))
      = fun q k => (m ((c : Thread nD τ).loc main_arg1) : S64x900x4.Idx → EReal) (ix3 (batch t) q k) :=
    funext fun q => funext fun k => pred_block m c t q k
  have h2 : (fun (u : Fin 200) => (iblk m c 2 t : Vec Ideal S1x1x200 .i32) (ix3 (0 : Fin 1) (0 : Fin 1) u))
      = fun u => (m ((c : Thread nD τ).loc main_arg2) : S64x200.Idx → BitVec 32) (ix2 (batch t) u) :=
    funext fun u => label_block m c t u
  have h3 : (fun (u : Fin 200) (k : Fin 4) => (iblk m c 3 t : Vec Ideal S1x200x4 .f32) (ix3 (0 : Fin 1) u k))
      = fun u k => (m ((c : Thread nD τ).loc main_arg3) : S64x200x4.Idx → EReal) (ix3 (batch t) u k) :=
    funext fun u => funext fun k => target_block m c t u k
  rw [h0, h1, h2, h3]

/-- The part of a block that is written back, read at an index, is the block at that index. -/
theorem cut_apply (X : Vec Ideal S1x900x200 .f32) (t : Fin cfg0.N) (j : ((cfg0.win 4).xblock (grid0.coords t)).Idx) :
    (cfg0.win 4).cut (grid0.coords t) X j = X ((cfg0.win 4).xinj (grid0.coords t) j) := rfl

/-- An array read through grid point `t`'s block, at an index of the block, is the array at the index's place. -/
theorem read_blk_apply (A : S64x900x200.Idx → EReal) (t : Fin cfg0.N) (j : ((cfg0.win 4).xblock (grid0.coords t)).Idx) :
    ((cfg0.win 4).blk t).view.read (Elt Ideal) A j = A (((cfg0.win 4).blk t).view.emb j) := rfl

/-- What grid point `t` writes back is its block of the cost array. -/
theorem flushed_eq (c : Dev nD) (t : Fin cfg0.N) :
    (dats m 0 c).flushed 4 t = ((cfg0.win 4).blk t).view.read (Elt Ideal) (costArr m c) := by
  obtain ⟨-, -, -, -, ⟨e0, e1, e2⟩⟩ := index_facts t
  rw [Value.flushed4]
  funext j
  have hj0 : (j 0).val < 1 := (j 0).isLt
  have hj1 : (j 1).val < 900 := (j 1).isLt
  have hj2 : (j 2).val < 200 := (j 2).isLt
  have hx : (cfg0.win 4).xinj (grid0.coords t) j
      = ix3 (0 : Fin 1) (⟨(j 1).val, hj1⟩ : Fin 900) (⟨(j 2).val, hj2⟩ : Fin 200) := by
    funext a
    apply Fin.ext
    match a with
    | ⟨0, _⟩ => show (j 0).val = 0; omega
    | ⟨1, _⟩ => rfl
    | ⟨2, _⟩ => rfl
  have he : ((cfg0.win 4).blk t).view.emb j
      = ix3 (batch t) (⟨(j 1).val, hj1⟩ : Fin 900) (⟨(j 2).val, hj2⟩ : Fin 200) := by
    funext a
    apply Fin.ext
    match a with
    | ⟨0, _⟩ => show win0_4.index t (0 : Fin 3) * 1 + 1 * (j 0).val = t.val; omega
    | ⟨1, _⟩ => show win0_4.index t (1 : Fin 3) * 900 + 1 * (j 1).val = (j 1).val; omega
    | ⟨2, _⟩ => show win0_4.index t (2 : Fin 3) * 200 + 1 * (j 2).val = (j 2).val; omega
  refine (cut_apply _ t j).trans ?_
  refine Eq.trans ?_ (read_blk_apply (costArr m c) t j).symm
  rw [hx, he]
  exact point_cell m c t _ _

/-- An index of the result array lies in grid point `t`'s block iff each coordinate lies in the block's range on its axis. -/
theorem mem_blk (t : Fin cfg0.N) (i : S64x900x200.Idx) :
    i ∈ ((cfg0.win 4).blk t).view.set ↔ ∀ a : Fin 3, win0_4.index t a * S1x900x200.size a ≤ (i a).val
      ∧ (i a).val < win0_4.index t a * S1x900x200.size a + S1x900x200.size a := by
  show i ∈ ((View.whole main_v1).slice (win0_4.rect t)).set ↔ _
  rw [View.set_slice_whole, Rect.mem_set_unit]
  exact Iff.rfl

/-- The 64 blocks tile the result array: index (b, q, u) lies in grid point `b`'s block. -/
theorem cover (i : S64x900x200.Idx) :
    ∃ t : Fin cfg0.N, (cfg0.win 4).flush t = true ∧ i ∈ ((cfg0.win 4).blk t).view.set := by
  have h0 : (i 0).val < 64 := (i 0).isLt
  have h1 : (i 1).val < 900 := (i 1).isLt
  have h2 : (i 2).val < 200 := (i 2).isLt
  obtain ⟨t, ht⟩ : ∃ t : Fin cfg0.N, t.val = (i 0).val := ⟨⟨(i 0).val, lt_of_lt_of_eq h0 N_0.symm⟩, rfl⟩
  obtain ⟨-, -, -, -, ⟨e0, e1, e2⟩⟩ := index_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 900 ≤ (i 1).val ∧ (i 1).val < win0_4.index t (1 : Fin 3) * 900 + 900
    omega
  | ⟨2, _⟩ =>
    show win0_4.index t (2 : Fin 3) * 200 ≤ (i 2).val ∧ (i 2).val < win0_4.index t (2 : Fin 3) * 200 + 200
    omega

/-- After the run the result array is the cost function of the four argument arrays as launched. -/
theorem final (c : Dev nD) :
    (dats m 0 c).arrAt 4 cfg0.N
      = Spec.G (m ((c : Thread nD τ).loc main_arg0)) (m ((c : Thread nD τ).loc main_arg1))
          (m ((c : Thread nD τ).loc main_arg2)) (m ((c : Thread nD τ).loc main_arg3)) :=
  (dats m 0 c).arrAt_eq_of_cover 4 (costArr m c) (fun t _ => flushed_eq m c t) cover

/-- The kernel's run with the result array named as that function, the arguments unchanged. -/
theorem run : θ_run defs (onTc (τ := τ) (main (F := Ideal))) ⟨m, fun _ => 0, ρ⟩ fun r => ∀ c : Dev nD,
      r.2.mem ((c : Thread nD τ).loc main_v1)
        = Spec.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrValue

end
-- ==== Proof.RefOpsTable.lean ====
/-
  The reference's operations in program order, for any float values: one per printed statement, a call replaced by
  its callee's operations over that call's buffers (a callee's own calls likewise).  Eight consecutive stretches:
    A = %cst .. %11 (33 operations): the logits sanitised and their softmax along the class axis;
    B = %cst_5 .. %30 (65 operations): the predicted boxes sanitised and clipped, column by column, and put together again;
    C = %cst_16 .. %49 (65 operations): the target boxes sanitised and clipped, column by column, and put together again;
    D = %50 .. %53 (25 operations): the probabilities gathered at the labels, negated;
    E = %54 .. %60 (8 operations): the L1 distance of every predicted box to every target box;
    F = %61 .. %112 (60 operations): both families of boxes in corner form;
    G = %113 .. %187 (81 operations): the generalised IoU of every pair, negated;
    H = %cst_38 .. %196 (30 operations): the weighted sum of the three costs, sanitised;
  367 operations in all, from 242 statements.
-/
import proofs.«424823_j58110907515474_1_alg».proof.Proof.Gen.ReferenceIdeal
import Idealize.ShloMosaic.Lib.StableHlo.Run

noncomputable section

namespace Cert.ReferenceIdeal.Ops

open Idealize.ShloMosaic Idealize.SL.Sem Cert.ReferenceIdeal Cert.ReferenceIdeal.Gen

variable {F : FTy → Type} [FloatOps F]

/-- %cst .. %11: the logits sanitised and their softmax along the class axis. -/
abbrev lineA : List (HloOp τ sig (Elt F)) :=
  [ StableHlo.nullary main_cst (constant S_ .f32 0x00000000#32),  -- %cst
    StableHlo.nullary main_cst_0 (constant S_ .f32 0x00000000#32),  -- %cst_0
    StableHlo.nullary main_cst_1 (constant S_ .f32 0x00000000#32),  -- %cst_1
    StableHlo.TRef.binary (.of main_arg0 : StableHlo.TRef sig ⟨S64x900x256, .f32⟩) (.of main_arg0 : StableHlo.TRef sig ⟨S64x900x256, .f32⟩) main_call0.v0 (cmpf .une),  -- %0 · fn_nan_to_num %0
    StableHlo.TRef.unary (.of main_cst : StableHlo.TRef sig ⟨S_, .f32⟩) main_call0.v1 id,  -- %0 · fn_nan_to_num %1
    StableHlo.TRef.unary main_call0.v1 main_call0.call0.v0 (broadcastInDim S64x900x256 ![] bcast_S_S64x900x256),  -- %0 · fn_nan_to_num %2 · fn_where %0
    StableHlo.TRef.ternary main_call0.v0 main_call0.call0.v0 (.of main_arg0 : StableHlo.TRef sig ⟨S64x900x256, .f32⟩) main_call0.call0.v1 select,  -- %0 · fn_nan_to_num %2 · fn_where %1
    StableHlo.TRef.nullary main_call0.cst (constant S_ .f32 0x7F800000#32),  -- %0 · fn_nan_to_num %cst
    StableHlo.TRef.unary main_call0.cst main_call0.v3 (broadcastInDim S64x900x256 ![] bcast_S_S64x900x256),  -- %0 · fn_nan_to_num %3
    StableHlo.TRef.binary main_call0.call0.v1 main_call0.v3 main_call0.v4 (cmpf .oeq),  -- %0 · fn_nan_to_num %4
    StableHlo.TRef.unary (.of main_cst_1 : StableHlo.TRef sig ⟨S_, .f32⟩) main_call0.v5 id,  -- %0 · fn_nan_to_num %5
    StableHlo.TRef.unary main_call0.v5 main_call0.call1.v0 (broadcastInDim S64x900x256 ![] bcast_S_S64x900x256),  -- %0 · fn_nan_to_num %6 · fn_where_0 %0
    StableHlo.TRef.ternary main_call0.v4 main_call0.call1.v0 main_call0.call0.v1 main_call0.call1.v1 select,  -- %0 · fn_nan_to_num %6 · fn_where_0 %1
    StableHlo.TRef.nullary main_call0.cst_0 (constant S_ .f32 0xFF800000#32),  -- %0 · fn_nan_to_num %cst_0
    StableHlo.TRef.unary main_call0.cst_0 main_call0.v7 (broadcastInDim S64x900x256 ![] bcast_S_S64x900x256),  -- %0 · fn_nan_to_num %7
    StableHlo.TRef.binary main_call0.call1.v1 main_call0.v7 main_call0.v8 (cmpf .oeq),  -- %0 · fn_nan_to_num %8
    StableHlo.TRef.unary (.of main_cst_0 : StableHlo.TRef sig ⟨S_, .f32⟩) main_call0.v9 id,  -- %0 · fn_nan_to_num %9
    StableHlo.TRef.unary main_call0.v9 main_call0.call2.v0 (broadcastInDim S64x900x256 ![] bcast_S_S64x900x256),  -- %0 · fn_nan_to_num %10 · fn_where_0 %0
    StableHlo.TRef.ternary main_call0.v8 main_call0.call2.v0 main_call0.call1.v1 main_call0.call2.v1 select,  -- %0 · fn_nan_to_num %10 · fn_where_0 %1
    StableHlo.nullary main_cst_2 (constant S_ .f32 0xFF800000#32),  -- %cst_2
    StableHlo.binary main_v0 main_cst_2 main_v1 ((fun x v => Host.reduce FloatOps.maximumf x v reducesTo_S64x900x256_S64x900_d2 h_S_) : (⟨S64x900x256, .f32⟩ : BufTy).Contents (Elt F) → (⟨S_, .f32⟩ : BufTy).Contents (Elt F) → (⟨S64x900, .f32⟩ : BufTy).Contents (Elt F)),  -- %1
    StableHlo.nullary main_cst_3 (constant S_ .f32 0xFF800000#32),  -- %cst_3
    StableHlo.unary main_cst_3 main_v2 (broadcastInDim S64x900 ![] bcast_S_S64x900 : (⟨S_, .f32⟩ : BufTy).Contents (Elt F) → (⟨S64x900, .f32⟩ : BufTy).Contents (Elt F)),  -- %2
    StableHlo.binary main_v2 main_v1 main_v3 (maximumf : (⟨S64x900, .f32⟩ : BufTy).Contents (Elt F) → (⟨S64x900, .f32⟩ : BufTy).Contents (Elt F) → (⟨S64x900, .f32⟩ : BufTy).Contents (Elt F)),  -- %3
    StableHlo.unary main_v3 main_v4 (broadcastInDim S64x900x1 ![0, 1] bcast_S64x900_S64x900x1_0_1 : (⟨S64x900, .f32⟩ : BufTy).Contents (Elt F) → (⟨S64x900x1, .f32⟩ : BufTy).Contents (Elt F)),  -- %4
    StableHlo.unary main_v4 main_v5 (broadcastInDim S64x900x256 ![0, 1, 2] bcast_S64x900x1_S64x900x256_0_1_2 : (⟨S64x900x1, .f32⟩ : BufTy).Contents (Elt F) → (⟨S64x900x256, .f32⟩ : BufTy).Contents (Elt F)),  -- %5
    StableHlo.binary main_v0 main_v5 main_v6 (subf : (⟨S64x900x256, .f32⟩ : BufTy).Contents (Elt F) → (⟨S64x900x256, .f32⟩ : BufTy).Contents (Elt F) → (⟨S64x900x256, .f32⟩ : BufTy).Contents (Elt F)),  -- %6
    StableHlo.unary main_v6 main_v7 (Host.exp : (⟨S64x900x256, .f32⟩ : BufTy).Contents (Elt F) → (⟨S64x900x256, .f32⟩ : BufTy).Contents (Elt F)),  -- %7
    StableHlo.nullary main_cst_4 (constant S_ .f32 0x00000000#32),  -- %cst_4
    StableHlo.binary main_v7 main_cst_4 main_v8 ((fun x v => Host.reduceAdd x v reducesTo_S64x900x256_S64x900_d2 h_S_) : (⟨S64x900x256, .f32⟩ : BufTy).Contents (Elt F) → (⟨S_, .f32⟩ : BufTy).Contents (Elt F) → (⟨S64x900, .f32⟩ : BufTy).Contents (Elt F)),  -- %8
    StableHlo.unary main_v8 main_v9 (broadcastInDim S64x900x1 ![0, 1] bcast_S64x900_S64x900x1_0_1 : (⟨S64x900, .f32⟩ : BufTy).Contents (Elt F) → (⟨S64x900x1, .f32⟩ : BufTy).Contents (Elt F)),  -- %9
    StableHlo.unary main_v9 main_v10 (broadcastInDim S64x900x256 ![0, 1, 2] bcast_S64x900x1_S64x900x256_0_1_2 : (⟨S64x900x1, .f32⟩ : BufTy).Contents (Elt F) → (⟨S64x900x256, .f32⟩ : BufTy).Contents (Elt F)),  -- %10
    StableHlo.binary main_v7 main_v10 main_v11 (Host.divf : (⟨S64x900x256, .f32⟩ : BufTy).Contents (Elt F) → (⟨S64x900x256, .f32⟩ : BufTy).Contents (Elt F) → (⟨S64x900x256, .f32⟩ : BufTy).Contents (Elt F)) ]  -- %11

/-- %cst_5 .. %30: the predicted boxes sanitised and clipped, column by column, and put together again. -/
abbrev lineB : List (HloOp τ sig (Elt F)) :=
  [ StableHlo.nullary main_cst_5 (constant S_ .f32 0x00000000#32),  -- %cst_5
    StableHlo.nullary main_cst_6 (constant S_ .f32 0x00000000#32),  -- %cst_6
    StableHlo.nullary main_cst_7 (constant S_ .f32 0x3F800000#32),  -- %cst_7
    StableHlo.TRef.binary (.of main_arg1 : StableHlo.TRef sig ⟨S64x900x4, .f32⟩) (.of main_arg1 : StableHlo.TRef sig ⟨S64x900x4, .f32⟩) main_call1.v0 (cmpf .une),  -- %12 · fn_nan_to_num_1 %0
    StableHlo.TRef.unary (.of main_cst_5 : StableHlo.TRef sig ⟨S_, .f32⟩) main_call1.v1 id,  -- %12 · fn_nan_to_num_1 %1
    StableHlo.TRef.unary main_call1.v1 main_call1.call0.v0 (broadcastInDim S64x900x4 ![] bcast_S_S64x900x4),  -- %12 · fn_nan_to_num_1 %2 · fn_where_2 %0
    StableHlo.TRef.ternary main_call1.v0 main_call1.call0.v0 (.of main_arg1 : StableHlo.TRef sig ⟨S64x900x4, .f32⟩) main_call1.call0.v1 select,  -- %12 · fn_nan_to_num_1 %2 · fn_where_2 %1
    StableHlo.TRef.nullary main_call1.cst (constant S_ .f32 0x7F800000#32),  -- %12 · fn_nan_to_num_1 %cst
    StableHlo.TRef.unary main_call1.cst main_call1.v3 (broadcastInDim S64x900x4 ![] bcast_S_S64x900x4),  -- %12 · fn_nan_to_num_1 %3
    StableHlo.TRef.binary main_call1.call0.v1 main_call1.v3 main_call1.v4 (cmpf .oeq),  -- %12 · fn_nan_to_num_1 %4
    StableHlo.TRef.unary (.of main_cst_7 : StableHlo.TRef sig ⟨S_, .f32⟩) main_call1.v5 id,  -- %12 · fn_nan_to_num_1 %5
    StableHlo.TRef.unary main_call1.v5 main_call1.call1.v0 (broadcastInDim S64x900x4 ![] bcast_S_S64x900x4),  -- %12 · fn_nan_to_num_1 %6 · fn_where_3 %0
    StableHlo.TRef.ternary main_call1.v4 main_call1.call1.v0 main_call1.call0.v1 main_call1.call1.v1 select,  -- %12 · fn_nan_to_num_1 %6 · fn_where_3 %1
    StableHlo.TRef.nullary main_call1.cst_0 (constant S_ .f32 0xFF800000#32),  -- %12 · fn_nan_to_num_1 %cst_0
    StableHlo.TRef.unary main_call1.cst_0 main_call1.v7 (broadcastInDim S64x900x4 ![] bcast_S_S64x900x4),  -- %12 · fn_nan_to_num_1 %7
    StableHlo.TRef.binary main_call1.call1.v1 main_call1.v7 main_call1.v8 (cmpf .oeq),  -- %12 · fn_nan_to_num_1 %8
    StableHlo.TRef.unary (.of main_cst_6 : StableHlo.TRef sig ⟨S_, .f32⟩) main_call1.v9 id,  -- %12 · fn_nan_to_num_1 %9
    StableHlo.TRef.unary main_call1.v9 main_call1.call2.v0 (broadcastInDim S64x900x4 ![] bcast_S_S64x900x4),  -- %12 · fn_nan_to_num_1 %10 · fn_where_3 %0
    StableHlo.TRef.ternary main_call1.v8 main_call1.call2.v0 main_call1.call1.v1 main_call1.call2.v1 select,  -- %12 · fn_nan_to_num_1 %10 · fn_where_3 %1
    StableHlo.unary main_v12 main_v13 ((transpose S4x64x900 [2, 0, 1] · transposes_S64x900x4_S4x64x900_2_0_1) : (⟨S64x900x4, .f32⟩ : BufTy).Contents (Elt F) → (⟨S4x64x900, .f32⟩ : BufTy).Contents (Elt F)),  -- %13
    StableHlo.unary main_v13 main_v14 ((extractStridedSlice S1x64x900 ![0, 0, 0] · slices_S4x64x900_S1x64x900_0_0_0) : (⟨S4x64x900, .f32⟩ : BufTy).Contents (Elt F) → (⟨S1x64x900, .f32⟩ : BufTy).Contents (Elt F)),  -- %14
    StableHlo.reshape main_v14 main_v15 rfl shapeCasts_S1x64x900_S64x900,  -- %15
    StableHlo.unary main_v13 main_v16 ((extractStridedSlice S1x64x900 ![1, 0, 0] · slices_S4x64x900_S1x64x900_1_0_0) : (⟨S4x64x900, .f32⟩ : BufTy).Contents (Elt F) → (⟨S1x64x900, .f32⟩ : BufTy).Contents (Elt F)),  -- %16
    StableHlo.reshape main_v16 main_v17 rfl shapeCasts_S1x64x900_S64x900,  -- %17
    StableHlo.unary main_v13 main_v18 ((extractStridedSlice S1x64x900 ![2, 0, 0] · slices_S4x64x900_S1x64x900_2_0_0) : (⟨S4x64x900, .f32⟩ : BufTy).Contents (Elt F) → (⟨S1x64x900, .f32⟩ : BufTy).Contents (Elt F)),  -- %18
    StableHlo.reshape main_v18 main_v19 rfl shapeCasts_S1x64x900_S64x900,  -- %19
    StableHlo.unary main_v13 main_v20 ((extractStridedSlice S1x64x900 ![3, 0, 0] · slices_S4x64x900_S1x64x900_3_0_0) : (⟨S4x64x900, .f32⟩ : BufTy).Contents (Elt F) → (⟨S1x64x900, .f32⟩ : BufTy).Contents (Elt F)),  -- %20
    StableHlo.reshape main_v20 main_v21 rfl shapeCasts_S1x64x900_S64x900,  -- %21
    StableHlo.nullary main_cst_8 (constant S_ .f32 0x00000000#32),  -- %cst_8
    StableHlo.nullary main_cst_9 (constant S_ .f32 0x3F800000#32),  -- %cst_9
    StableHlo.TRef.unary (.of main_cst_8 : StableHlo.TRef sig ⟨S_, .f32⟩) main_call2.v0 id,  -- %22 · fn_clip %0
    StableHlo.TRef.unary main_call2.v0 main_call2.v1 (broadcastInDim S64x900 ![] bcast_S_S64x900),  -- %22 · fn_clip %1
    StableHlo.TRef.binary main_call2.v1 (.of main_v15 : StableHlo.TRef sig ⟨S64x900, .f32⟩) main_call2.v2 maximumf,  -- %22 · fn_clip %2
    StableHlo.TRef.unary (.of main_cst_9 : StableHlo.TRef sig ⟨S_, .f32⟩) main_call2.v3 id,  -- %22 · fn_clip %3
    StableHlo.TRef.unary main_call2.v3 main_call2.v4 (broadcastInDim S64x900 ![] bcast_S_S64x900),  -- %22 · fn_clip %4
    StableHlo.TRef.binary main_call2.v4 main_call2.v2 main_call2.v5 minimumf,  -- %22 · fn_clip %5
    StableHlo.nullary main_cst_10 (constant S_ .f32 0x00000000#32),  -- %cst_10
    StableHlo.nullary main_cst_11 (constant S_ .f32 0x3F800000#32),  -- %cst_11
    StableHlo.TRef.unary (.of main_cst_10 : StableHlo.TRef sig ⟨S_, .f32⟩) main_call3.v0 id,  -- %23 · fn_clip %0
    StableHlo.TRef.unary main_call3.v0 main_call3.v1 (broadcastInDim S64x900 ![] bcast_S_S64x900),  -- %23 · fn_clip %1
    StableHlo.TRef.binary main_call3.v1 (.of main_v17 : StableHlo.TRef sig ⟨S64x900, .f32⟩) main_call3.v2 maximumf,  -- %23 · fn_clip %2
    StableHlo.TRef.unary (.of main_cst_11 : StableHlo.TRef sig ⟨S_, .f32⟩) main_call3.v3 id,  -- %23 · fn_clip %3
    StableHlo.TRef.unary main_call3.v3 main_call3.v4 (broadcastInDim S64x900 ![] bcast_S_S64x900),  -- %23 · fn_clip %4
    StableHlo.TRef.binary main_call3.v4 main_call3.v2 main_call3.v5 minimumf,  -- %23 · fn_clip %5
    StableHlo.nullary main_cst_12 (constant S_ .f32 0x358637BD#32),  -- %cst_12
    StableHlo.nullary main_cst_13 (constant S_ .f32 0x3F800000#32),  -- %cst_13
    StableHlo.TRef.unary (.of main_cst_12 : StableHlo.TRef sig ⟨S_, .f32⟩) main_call4.v0 id,  -- %24 · fn_clip %0
    StableHlo.TRef.unary main_call4.v0 main_call4.v1 (broadcastInDim S64x900 ![] bcast_S_S64x900),  -- %24 · fn_clip %1
    StableHlo.TRef.binary main_call4.v1 (.of main_v19 : StableHlo.TRef sig ⟨S64x900, .f32⟩) main_call4.v2 maximumf,  -- %24 · fn_clip %2
    StableHlo.TRef.unary (.of main_cst_13 : StableHlo.TRef sig ⟨S_, .f32⟩) main_call4.v3 id,  -- %24 · fn_clip %3
    StableHlo.TRef.unary main_call4.v3 main_call4.v4 (broadcastInDim S64x900 ![] bcast_S_S64x900),  -- %24 · fn_clip %4
    StableHlo.TRef.binary main_call4.v4 main_call4.v2 main_call4.v5 minimumf,  -- %24 · fn_clip %5
    StableHlo.nullary main_cst_14 (constant S_ .f32 0x358637BD#32),  -- %cst_14
    StableHlo.nullary main_cst_15 (constant S_ .f32 0x3F800000#32),  -- %cst_15
    StableHlo.TRef.unary (.of main_cst_14 : StableHlo.TRef sig ⟨S_, .f32⟩) main_call5.v0 id,  -- %25 · fn_clip %0
    StableHlo.TRef.unary main_call5.v0 main_call5.v1 (broadcastInDim S64x900 ![] bcast_S_S64x900),  -- %25 · fn_clip %1
    StableHlo.TRef.binary main_call5.v1 (.of main_v21 : StableHlo.TRef sig ⟨S64x900, .f32⟩) main_call5.v2 maximumf,  -- %25 · fn_clip %2
    StableHlo.TRef.unary (.of main_cst_15 : StableHlo.TRef sig ⟨S_, .f32⟩) main_call5.v3 id,  -- %25 · fn_clip %3
    StableHlo.TRef.unary main_call5.v3 main_call5.v4 (broadcastInDim S64x900 ![] bcast_S_S64x900),  -- %25 · fn_clip %4
    StableHlo.TRef.binary main_call5.v4 main_call5.v2 main_call5.v5 minimumf,  -- %25 · fn_clip %5
    StableHlo.unary main_v22 main_v26 (broadcastInDim S64x900x1 ![0, 1] bcast_S64x900_S64x900x1_0_1 : (⟨S64x900, .f32⟩ : BufTy).Contents (Elt F) → (⟨S64x900x1, .f32⟩ : BufTy).Contents (Elt F)),  -- %26
    StableHlo.unary main_v23 main_v27 (broadcastInDim S64x900x1 ![0, 1] bcast_S64x900_S64x900x1_0_1 : (⟨S64x900, .f32⟩ : BufTy).Contents (Elt F) → (⟨S64x900x1, .f32⟩ : BufTy).Contents (Elt F)),  -- %27
    StableHlo.unary main_v24 main_v28 (broadcastInDim S64x900x1 ![0, 1] bcast_S64x900_S64x900x1_0_1 : (⟨S64x900, .f32⟩ : BufTy).Contents (Elt F) → (⟨S64x900x1, .f32⟩ : BufTy).Contents (Elt F)),  -- %28
    StableHlo.unary main_v25 main_v29 (broadcastInDim S64x900x1 ![0, 1] bcast_S64x900_S64x900x1_0_1 : (⟨S64x900, .f32⟩ : BufTy).Contents (Elt F) → (⟨S64x900x1, .f32⟩ : BufTy).Contents (Elt F)),  -- %29
    StableHlo.nary ![main_v26, main_v27, main_v28, main_v29] main_v30 (fun u => concatenate S64x900x4 2 [⟨S64x900x1, u 0⟩, ⟨S64x900x1, u 1⟩, ⟨S64x900x1, u 2⟩, ⟨S64x900x1, u 3⟩] concatenates_S64x900x1_S64x900x1_S64x900x1_S64x900x1_S64x900x4_d2) ]  -- %30

/-- %cst_16 .. %49: the target boxes sanitised and clipped, column by column, and put together again. -/
abbrev lineC : List (HloOp τ sig (Elt F)) :=
  [ StableHlo.nullary main_cst_16 (constant S_ .f32 0x00000000#32),  -- %cst_16
    StableHlo.nullary main_cst_17 (constant S_ .f32 0x00000000#32),  -- %cst_17
    StableHlo.nullary main_cst_18 (constant S_ .f32 0x3F800000#32),  -- %cst_18
    StableHlo.TRef.binary (.of main_arg3 : StableHlo.TRef sig ⟨S64x200x4, .f32⟩) (.of main_arg3 : StableHlo.TRef sig ⟨S64x200x4, .f32⟩) main_call6.v0 (cmpf .une),  -- %31 · fn_nan_to_num_4 %0
    StableHlo.TRef.unary (.of main_cst_16 : StableHlo.TRef sig ⟨S_, .f32⟩) main_call6.v1 id,  -- %31 · fn_nan_to_num_4 %1
    StableHlo.TRef.unary main_call6.v1 main_call6.call0.v0 (broadcastInDim S64x200x4 ![] bcast_S_S64x200x4),  -- %31 · fn_nan_to_num_4 %2 · fn_where_5 %0
    StableHlo.TRef.ternary main_call6.v0 main_call6.call0.v0 (.of main_arg3 : StableHlo.TRef sig ⟨S64x200x4, .f32⟩) main_call6.call0.v1 select,  -- %31 · fn_nan_to_num_4 %2 · fn_where_5 %1
    StableHlo.TRef.nullary main_call6.cst (constant S_ .f32 0x7F800000#32),  -- %31 · fn_nan_to_num_4 %cst
    StableHlo.TRef.unary main_call6.cst main_call6.v3 (broadcastInDim S64x200x4 ![] bcast_S_S64x200x4),  -- %31 · fn_nan_to_num_4 %3
    StableHlo.TRef.binary main_call6.call0.v1 main_call6.v3 main_call6.v4 (cmpf .oeq),  -- %31 · fn_nan_to_num_4 %4
    StableHlo.TRef.unary (.of main_cst_18 : StableHlo.TRef sig ⟨S_, .f32⟩) main_call6.v5 id,  -- %31 · fn_nan_to_num_4 %5
    StableHlo.TRef.unary main_call6.v5 main_call6.call1.v0 (broadcastInDim S64x200x4 ![] bcast_S_S64x200x4),  -- %31 · fn_nan_to_num_4 %6 · fn_where_6 %0
    StableHlo.TRef.ternary main_call6.v4 main_call6.call1.v0 main_call6.call0.v1 main_call6.call1.v1 select,  -- %31 · fn_nan_to_num_4 %6 · fn_where_6 %1
    StableHlo.TRef.nullary main_call6.cst_0 (constant S_ .f32 0xFF800000#32),  -- %31 · fn_nan_to_num_4 %cst_0
    StableHlo.TRef.unary main_call6.cst_0 main_call6.v7 (broadcastInDim S64x200x4 ![] bcast_S_S64x200x4),  -- %31 · fn_nan_to_num_4 %7
    StableHlo.TRef.binary main_call6.call1.v1 main_call6.v7 main_call6.v8 (cmpf .oeq),  -- %31 · fn_nan_to_num_4 %8
    StableHlo.TRef.unary (.of main_cst_17 : StableHlo.TRef sig ⟨S_, .f32⟩) main_call6.v9 id,  -- %31 · fn_nan_to_num_4 %9
    StableHlo.TRef.unary main_call6.v9 main_call6.call2.v0 (broadcastInDim S64x200x4 ![] bcast_S_S64x200x4),  -- %31 · fn_nan_to_num_4 %10 · fn_where_6 %0
    StableHlo.TRef.ternary main_call6.v8 main_call6.call2.v0 main_call6.call1.v1 main_call6.call2.v1 select,  -- %31 · fn_nan_to_num_4 %10 · fn_where_6 %1
    StableHlo.unary main_v31 main_v32 ((transpose S4x64x200 [2, 0, 1] · transposes_S64x200x4_S4x64x200_2_0_1) : (⟨S64x200x4, .f32⟩ : BufTy).Contents (Elt F) → (⟨S4x64x200, .f32⟩ : BufTy).Contents (Elt F)),  -- %32
    StableHlo.unary main_v32 main_v33 ((extractStridedSlice S1x64x200 ![0, 0, 0] · slices_S4x64x200_S1x64x200_0_0_0) : (⟨S4x64x200, .f32⟩ : BufTy).Contents (Elt F) → (⟨S1x64x200, .f32⟩ : BufTy).Contents (Elt F)),  -- %33
    StableHlo.reshape main_v33 main_v34 rfl shapeCasts_S1x64x200_S64x200,  -- %34
    StableHlo.unary main_v32 main_v35 ((extractStridedSlice S1x64x200 ![1, 0, 0] · slices_S4x64x200_S1x64x200_1_0_0) : (⟨S4x64x200, .f32⟩ : BufTy).Contents (Elt F) → (⟨S1x64x200, .f32⟩ : BufTy).Contents (Elt F)),  -- %35
    StableHlo.reshape main_v35 main_v36 rfl shapeCasts_S1x64x200_S64x200,  -- %36
    StableHlo.unary main_v32 main_v37 ((extractStridedSlice S1x64x200 ![2, 0, 0] · slices_S4x64x200_S1x64x200_2_0_0) : (⟨S4x64x200, .f32⟩ : BufTy).Contents (Elt F) → (⟨S1x64x200, .f32⟩ : BufTy).Contents (Elt F)),  -- %37
    StableHlo.reshape main_v37 main_v38 rfl shapeCasts_S1x64x200_S64x200,  -- %38
    StableHlo.unary main_v32 main_v39 ((extractStridedSlice S1x64x200 ![3, 0, 0] · slices_S4x64x200_S1x64x200_3_0_0) : (⟨S4x64x200, .f32⟩ : BufTy).Contents (Elt F) → (⟨S1x64x200, .f32⟩ : BufTy).Contents (Elt F)),  -- %39
    StableHlo.reshape main_v39 main_v40 rfl shapeCasts_S1x64x200_S64x200,  -- %40
    StableHlo.nullary main_cst_19 (constant S_ .f32 0x00000000#32),  -- %cst_19
    StableHlo.nullary main_cst_20 (constant S_ .f32 0x3F800000#32),  -- %cst_20
    StableHlo.TRef.unary (.of main_cst_19 : StableHlo.TRef sig ⟨S_, .f32⟩) main_call7.v0 id,  -- %41 · fn_clip_7 %0
    StableHlo.TRef.unary main_call7.v0 main_call7.v1 (broadcastInDim S64x200 ![] bcast_S_S64x200),  -- %41 · fn_clip_7 %1
    StableHlo.TRef.binary main_call7.v1 (.of main_v34 : StableHlo.TRef sig ⟨S64x200, .f32⟩) main_call7.v2 maximumf,  -- %41 · fn_clip_7 %2
    StableHlo.TRef.unary (.of main_cst_20 : StableHlo.TRef sig ⟨S_, .f32⟩) main_call7.v3 id,  -- %41 · fn_clip_7 %3
    StableHlo.TRef.unary main_call7.v3 main_call7.v4 (broadcastInDim S64x200 ![] bcast_S_S64x200),  -- %41 · fn_clip_7 %4
    StableHlo.TRef.binary main_call7.v4 main_call7.v2 main_call7.v5 minimumf,  -- %41 · fn_clip_7 %5
    StableHlo.nullary main_cst_21 (constant S_ .f32 0x00000000#32),  -- %cst_21
    StableHlo.nullary main_cst_22 (constant S_ .f32 0x3F800000#32),  -- %cst_22
    StableHlo.TRef.unary (.of main_cst_21 : StableHlo.TRef sig ⟨S_, .f32⟩) main_call8.v0 id,  -- %42 · fn_clip_7 %0
    StableHlo.TRef.unary main_call8.v0 main_call8.v1 (broadcastInDim S64x200 ![] bcast_S_S64x200),  -- %42 · fn_clip_7 %1
    StableHlo.TRef.binary main_call8.v1 (.of main_v36 : StableHlo.TRef sig ⟨S64x200, .f32⟩) main_call8.v2 maximumf,  -- %42 · fn_clip_7 %2
    StableHlo.TRef.unary (.of main_cst_22 : StableHlo.TRef sig ⟨S_, .f32⟩) main_call8.v3 id,  -- %42 · fn_clip_7 %3
    StableHlo.TRef.unary main_call8.v3 main_call8.v4 (broadcastInDim S64x200 ![] bcast_S_S64x200),  -- %42 · fn_clip_7 %4
    StableHlo.TRef.binary main_call8.v4 main_call8.v2 main_call8.v5 minimumf,  -- %42 · fn_clip_7 %5
    StableHlo.nullary main_cst_23 (constant S_ .f32 0x358637BD#32),  -- %cst_23
    StableHlo.nullary main_cst_24 (constant S_ .f32 0x3F800000#32),  -- %cst_24
    StableHlo.TRef.unary (.of main_cst_23 : StableHlo.TRef sig ⟨S_, .f32⟩) main_call9.v0 id,  -- %43 · fn_clip_7 %0
    StableHlo.TRef.unary main_call9.v0 main_call9.v1 (broadcastInDim S64x200 ![] bcast_S_S64x200),  -- %43 · fn_clip_7 %1
    StableHlo.TRef.binary main_call9.v1 (.of main_v38 : StableHlo.TRef sig ⟨S64x200, .f32⟩) main_call9.v2 maximumf,  -- %43 · fn_clip_7 %2
    StableHlo.TRef.unary (.of main_cst_24 : StableHlo.TRef sig ⟨S_, .f32⟩) main_call9.v3 id,  -- %43 · fn_clip_7 %3
    StableHlo.TRef.unary main_call9.v3 main_call9.v4 (broadcastInDim S64x200 ![] bcast_S_S64x200),  -- %43 · fn_clip_7 %4
    StableHlo.TRef.binary main_call9.v4 main_call9.v2 main_call9.v5 minimumf,  -- %43 · fn_clip_7 %5
    StableHlo.nullary main_cst_25 (constant S_ .f32 0x358637BD#32),  -- %cst_25
    StableHlo.nullary main_cst_26 (constant S_ .f32 0x3F800000#32),  -- %cst_26
    StableHlo.TRef.unary (.of main_cst_25 : StableHlo.TRef sig ⟨S_, .f32⟩) main_call10.v0 id,  -- %44 · fn_clip_7 %0
    StableHlo.TRef.unary main_call10.v0 main_call10.v1 (broadcastInDim S64x200 ![] bcast_S_S64x200),  -- %44 · fn_clip_7 %1
    StableHlo.TRef.binary main_call10.v1 (.of main_v40 : StableHlo.TRef sig ⟨S64x200, .f32⟩) main_call10.v2 maximumf,  -- %44 · fn_clip_7 %2
    StableHlo.TRef.unary (.of main_cst_26 : StableHlo.TRef sig ⟨S_, .f32⟩) main_call10.v3 id,  -- %44 · fn_clip_7 %3
    StableHlo.TRef.unary main_call10.v3 main_call10.v4 (broadcastInDim S64x200 ![] bcast_S_S64x200),  -- %44 · fn_clip_7 %4
    StableHlo.TRef.binary main_call10.v4 main_call10.v2 main_call10.v5 minimumf,  -- %44 · fn_clip_7 %5
    StableHlo.unary main_v41 main_v45 (broadcastInDim S64x200x1 ![0, 1] bcast_S64x200_S64x200x1_0_1 : (⟨S64x200, .f32⟩ : BufTy).Contents (Elt F) → (⟨S64x200x1, .f32⟩ : BufTy).Contents (Elt F)),  -- %45
    StableHlo.unary main_v42 main_v46 (broadcastInDim S64x200x1 ![0, 1] bcast_S64x200_S64x200x1_0_1 : (⟨S64x200, .f32⟩ : BufTy).Contents (Elt F) → (⟨S64x200x1, .f32⟩ : BufTy).Contents (Elt F)),  -- %46
    StableHlo.unary main_v43 main_v47 (broadcastInDim S64x200x1 ![0, 1] bcast_S64x200_S64x200x1_0_1 : (⟨S64x200, .f32⟩ : BufTy).Contents (Elt F) → (⟨S64x200x1, .f32⟩ : BufTy).Contents (Elt F)),  -- %47
    StableHlo.unary main_v44 main_v48 (broadcastInDim S64x200x1 ![0, 1] bcast_S64x200_S64x200x1_0_1 : (⟨S64x200, .f32⟩ : BufTy).Contents (Elt F) → (⟨S64x200x1, .f32⟩ : BufTy).Contents (Elt F)),  -- %48
    StableHlo.nary ![main_v45, main_v46, main_v47, main_v48] main_v49 (fun u => concatenate S64x200x4 2 [⟨S64x200x1, u 0⟩, ⟨S64x200x1, u 1⟩, ⟨S64x200x1, u 2⟩, ⟨S64x200x1, u 3⟩] concatenates_S64x200x1_S64x200x1_S64x200x1_S64x200x1_S64x200x4_d2) ]  -- %49

/-- %50 .. %53: the probabilities gathered at the labels, negated. -/
abbrev lineD : List (HloOp τ sig (Elt F)) :=
  [ StableHlo.unary main_arg2 main_v50 (broadcastInDim S64x1x200 ![0, 2] bcast_S64x200_S64x1x200_0_2 : (⟨S64x200, .i32⟩ : BufTy).Contents (Elt F) → (⟨S64x1x200, .i32⟩ : BufTy).Contents (Elt F)),  -- %50
    StableHlo.unary main_v50 main_v51 (broadcastInDim S64x900x200 ![0, 1, 2] bcast_S64x1x200_S64x900x200_0_1_2 : (⟨S64x1x200, .i32⟩ : BufTy).Contents (Elt F) → (⟨S64x900x200, .i32⟩ : BufTy).Contents (Elt F)),  -- %51
    StableHlo.TRef.nullary main_call11.c (constantI S_ 32 0#32),  -- %52 · fn_take_along_axis %c
    StableHlo.TRef.unary main_call11.c main_call11.v0 (broadcastInDim S64x900x200 ![] bcast_S_S64x900x200),  -- %52 · fn_take_along_axis %0
    StableHlo.TRef.binary (.of main_v51 : StableHlo.TRef sig ⟨S64x900x200, .i32⟩) main_call11.v0 main_call11.v1 (cmpi .slt),  -- %52 · fn_take_along_axis %1
    StableHlo.TRef.nullary main_call11.c_0 (constantI S_ 32 256#32),  -- %52 · fn_take_along_axis %c_0
    StableHlo.TRef.unary main_call11.c_0 main_call11.v2 (broadcastInDim S64x900x200 ![] bcast_S_S64x900x200),  -- %52 · fn_take_along_axis %2
    StableHlo.TRef.binary (.of main_v51 : StableHlo.TRef sig ⟨S64x900x200, .i32⟩) main_call11.v2 main_call11.v3 addi,  -- %52 · fn_take_along_axis %3
    StableHlo.TRef.ternary main_call11.v1 main_call11.v3 (.of main_v51 : StableHlo.TRef sig ⟨S64x900x200, .i32⟩) main_call11.v4 select,  -- %52 · fn_take_along_axis %4
    StableHlo.TRef.reshape main_call11.v4 main_call11.v5 rfl shapeCasts_S64x900x200_S64x900x200x1,  -- %52 · fn_take_along_axis %5
    StableHlo.TRef.nullary main_call11.c_1 (constantI S1 32 255#32),  -- %52 · fn_take_along_axis %c_1
    StableHlo.TRef.nullary main_call11.c_2 (constantI S_ 32 0#32),  -- %52 · fn_take_along_axis %c_2
    StableHlo.TRef.unary main_call11.c_2 main_call11.v6 (broadcastInDim S64x900x200x1 ![] bcast_S_S64x900x200x1),  -- %52 · fn_take_along_axis %6
    StableHlo.TRef.binary main_call11.v5 main_call11.v6 main_call11.v7 (cmpi .sge),  -- %52 · fn_take_along_axis %7
    StableHlo.TRef.unary main_call11.c_1 main_call11.v8 (broadcastInDim S1x1x1x1 ![3] bcast_S1_S1x1x1x1_3),  -- %52 · fn_take_along_axis %8
    StableHlo.TRef.unary main_call11.v8 main_call11.v9 (broadcastInDim S64x900x200x1 ![0, 1, 2, 3] bcast_S1x1x1x1_S64x900x200x1_0_1_2_3),  -- %52 · fn_take_along_axis %9
    StableHlo.TRef.binary main_call11.v5 main_call11.v9 main_call11.v10 (cmpi .sle),  -- %52 · fn_take_along_axis %10
    StableHlo.TRef.binary main_call11.v7 main_call11.v10 main_call11.v11 andi,  -- %52 · fn_take_along_axis %11
    StableHlo.TRef.nullary main_call11.c_3 (constantI S_ 1 1#1),  -- %52 · fn_take_along_axis %c_3
    StableHlo.TRef.binary main_call11.v11 main_call11.c_3 main_call11.v12 (fun x v => Host.reduce IntOp.andi x v reducesTo_S64x900x200x1_S64x900x200_d3 h_S_),  -- %52 · fn_take_along_axis %12
    StableHlo.TRef.binary (.of main_v11 : StableHlo.TRef sig ⟨S64x900x256, .f32⟩) main_call11.v5 main_call11.v13 (fun x i => Host.gather gather_S64x900x256_S64x900x200x1_S64x900x200_n_2_01_01_2_3_111 x i),  -- %52 · fn_take_along_axis %13
    StableHlo.TRef.nullary main_call11.cst (constant S_ .f32 0x7FC00000#32),  -- %52 · fn_take_along_axis %cst
    StableHlo.TRef.unary main_call11.cst main_call11.v14 (broadcastInDim S64x900x200 ![] bcast_S_S64x900x200),  -- %52 · fn_take_along_axis %14
    StableHlo.TRef.ternary main_call11.v12 main_call11.v13 main_call11.v14 main_call11.v15 select,  -- %52 · fn_take_along_axis %15
    StableHlo.unary main_v52 main_v53 (Host.negf : (⟨S64x900x200, .f32⟩ : BufTy).Contents (Elt F) → (⟨S64x900x200, .f32⟩ : BufTy).Contents (Elt F)) ]  -- %53

/-- %54 .. %60: the L1 distance of every predicted box to every target box. -/
abbrev lineE : List (HloOp τ sig (Elt F)) :=
  [ StableHlo.unary main_v30 main_v54 (broadcastInDim S64x900x1x4 ![0, 1, 3] bcast_S64x900x4_S64x900x1x4_0_1_3 : (⟨S64x900x4, .f32⟩ : BufTy).Contents (Elt F) → (⟨S64x900x1x4, .f32⟩ : BufTy).Contents (Elt F)),  -- %54
    StableHlo.unary main_v49 main_v55 (broadcastInDim S64x1x200x4 ![0, 2, 3] bcast_S64x200x4_S64x1x200x4_0_2_3 : (⟨S64x200x4, .f32⟩ : BufTy).Contents (Elt F) → (⟨S64x1x200x4, .f32⟩ : BufTy).Contents (Elt F)),  -- %55
    StableHlo.unary main_v54 main_v56 (broadcastInDim S64x900x200x4 ![0, 1, 2, 3] bcast_S64x900x1x4_S64x900x200x4_0_1_2_3 : (⟨S64x900x1x4, .f32⟩ : BufTy).Contents (Elt F) → (⟨S64x900x200x4, .f32⟩ : BufTy).Contents (Elt F)),  -- %56
    StableHlo.unary main_v55 main_v57 (broadcastInDim S64x900x200x4 ![0, 1, 2, 3] bcast_S64x1x200x4_S64x900x200x4_0_1_2_3 : (⟨S64x1x200x4, .f32⟩ : BufTy).Contents (Elt F) → (⟨S64x900x200x4, .f32⟩ : BufTy).Contents (Elt F)),  -- %57
    StableHlo.binary main_v56 main_v57 main_v58 (subf : (⟨S64x900x200x4, .f32⟩ : BufTy).Contents (Elt F) → (⟨S64x900x200x4, .f32⟩ : BufTy).Contents (Elt F) → (⟨S64x900x200x4, .f32⟩ : BufTy).Contents (Elt F)),  -- %58
    StableHlo.unary main_v58 main_v59 (Host.absf : (⟨S64x900x200x4, .f32⟩ : BufTy).Contents (Elt F) → (⟨S64x900x200x4, .f32⟩ : BufTy).Contents (Elt F)),  -- %59
    StableHlo.nullary main_cst_27 (constant S_ .f32 0x00000000#32),  -- %cst_27
    StableHlo.binary main_v59 main_cst_27 main_v60 ((fun x v => Host.reduceAdd x v reducesTo_S64x900x200x4_S64x900x200_d3 h_S_) : (⟨S64x900x200x4, .f32⟩ : BufTy).Contents (Elt F) → (⟨S_, .f32⟩ : BufTy).Contents (Elt F) → (⟨S64x900x200, .f32⟩ : BufTy).Contents (Elt F)) ]  -- %60

/-- %61 .. %112: both families of boxes in corner form. -/
abbrev lineF : List (HloOp τ sig (Elt F)) :=
  [ StableHlo.unary main_v30 main_v61 ((transpose S4x64x900 [2, 0, 1] · transposes_S64x900x4_S4x64x900_2_0_1) : (⟨S64x900x4, .f32⟩ : BufTy).Contents (Elt F) → (⟨S4x64x900, .f32⟩ : BufTy).Contents (Elt F)),  -- %61
    StableHlo.unary main_v61 main_v62 ((extractStridedSlice S1x64x900 ![0, 0, 0] · slices_S4x64x900_S1x64x900_0_0_0) : (⟨S4x64x900, .f32⟩ : BufTy).Contents (Elt F) → (⟨S1x64x900, .f32⟩ : BufTy).Contents (Elt F)),  -- %62
    StableHlo.reshape main_v62 main_v63 rfl shapeCasts_S1x64x900_S64x900,  -- %63
    StableHlo.unary main_v61 main_v64 ((extractStridedSlice S1x64x900 ![1, 0, 0] · slices_S4x64x900_S1x64x900_1_0_0) : (⟨S4x64x900, .f32⟩ : BufTy).Contents (Elt F) → (⟨S1x64x900, .f32⟩ : BufTy).Contents (Elt F)),  -- %64
    StableHlo.reshape main_v64 main_v65 rfl shapeCasts_S1x64x900_S64x900,  -- %65
    StableHlo.unary main_v61 main_v66 ((extractStridedSlice S1x64x900 ![2, 0, 0] · slices_S4x64x900_S1x64x900_2_0_0) : (⟨S4x64x900, .f32⟩ : BufTy).Contents (Elt F) → (⟨S1x64x900, .f32⟩ : BufTy).Contents (Elt F)),  -- %66
    StableHlo.reshape main_v66 main_v67 rfl shapeCasts_S1x64x900_S64x900,  -- %67
    StableHlo.unary main_v61 main_v68 ((extractStridedSlice S1x64x900 ![3, 0, 0] · slices_S4x64x900_S1x64x900_3_0_0) : (⟨S4x64x900, .f32⟩ : BufTy).Contents (Elt F) → (⟨S1x64x900, .f32⟩ : BufTy).Contents (Elt F)),  -- %68
    StableHlo.reshape main_v68 main_v69 rfl shapeCasts_S1x64x900_S64x900,  -- %69
    StableHlo.nullary main_cst_28 (constant S_ .f32 0x3F000000#32),  -- %cst_28
    StableHlo.unary main_cst_28 main_v70 (broadcastInDim S64x900 ![] bcast_S_S64x900 : (⟨S_, .f32⟩ : BufTy).Contents (Elt F) → (⟨S64x900, .f32⟩ : BufTy).Contents (Elt F)),  -- %70
    StableHlo.binary main_v70 main_v67 main_v71 (mulf : (⟨S64x900, .f32⟩ : BufTy).Contents (Elt F) → (⟨S64x900, .f32⟩ : BufTy).Contents (Elt F) → (⟨S64x900, .f32⟩ : BufTy).Contents (Elt F)),  -- %71
    StableHlo.binary main_v63 main_v71 main_v72 (subf : (⟨S64x900, .f32⟩ : BufTy).Contents (Elt F) → (⟨S64x900, .f32⟩ : BufTy).Contents (Elt F) → (⟨S64x900, .f32⟩ : BufTy).Contents (Elt F)),  -- %72
    StableHlo.nullary main_cst_29 (constant S_ .f32 0x3F000000#32),  -- %cst_29
    StableHlo.unary main_cst_29 main_v73 (broadcastInDim S64x900 ![] bcast_S_S64x900 : (⟨S_, .f32⟩ : BufTy).Contents (Elt F) → (⟨S64x900, .f32⟩ : BufTy).Contents (Elt F)),  -- %73
    StableHlo.binary main_v73 main_v69 main_v74 (mulf : (⟨S64x900, .f32⟩ : BufTy).Contents (Elt F) → (⟨S64x900, .f32⟩ : BufTy).Contents (Elt F) → (⟨S64x900, .f32⟩ : BufTy).Contents (Elt F)),  -- %74
    StableHlo.binary main_v65 main_v74 main_v75 (subf : (⟨S64x900, .f32⟩ : BufTy).Contents (Elt F) → (⟨S64x900, .f32⟩ : BufTy).Contents (Elt F) → (⟨S64x900, .f32⟩ : BufTy).Contents (Elt F)),  -- %75
    StableHlo.nullary main_cst_30 (constant S_ .f32 0x3F000000#32),  -- %cst_30
    StableHlo.unary main_cst_30 main_v76 (broadcastInDim S64x900 ![] bcast_S_S64x900 : (⟨S_, .f32⟩ : BufTy).Contents (Elt F) → (⟨S64x900, .f32⟩ : BufTy).Contents (Elt F)),  -- %76
    StableHlo.binary main_v76 main_v67 main_v77 (mulf : (⟨S64x900, .f32⟩ : BufTy).Contents (Elt F) → (⟨S64x900, .f32⟩ : BufTy).Contents (Elt F) → (⟨S64x900, .f32⟩ : BufTy).Contents (Elt F)),  -- %77
    StableHlo.binary main_v63 main_v77 main_v78 (addf : (⟨S64x900, .f32⟩ : BufTy).Contents (Elt F) → (⟨S64x900, .f32⟩ : BufTy).Contents (Elt F) → (⟨S64x900, .f32⟩ : BufTy).Contents (Elt F)),  -- %78
    StableHlo.nullary main_cst_31 (constant S_ .f32 0x3F000000#32),  -- %cst_31
    StableHlo.unary main_cst_31 main_v79 (broadcastInDim S64x900 ![] bcast_S_S64x900 : (⟨S_, .f32⟩ : BufTy).Contents (Elt F) → (⟨S64x900, .f32⟩ : BufTy).Contents (Elt F)),  -- %79
    StableHlo.binary main_v79 main_v69 main_v80 (mulf : (⟨S64x900, .f32⟩ : BufTy).Contents (Elt F) → (⟨S64x900, .f32⟩ : BufTy).Contents (Elt F) → (⟨S64x900, .f32⟩ : BufTy).Contents (Elt F)),  -- %80
    StableHlo.binary main_v65 main_v80 main_v81 (addf : (⟨S64x900, .f32⟩ : BufTy).Contents (Elt F) → (⟨S64x900, .f32⟩ : BufTy).Contents (Elt F) → (⟨S64x900, .f32⟩ : BufTy).Contents (Elt F)),  -- %81
    StableHlo.unary main_v72 main_v82 (broadcastInDim S64x900x1 ![0, 1] bcast_S64x900_S64x900x1_0_1 : (⟨S64x900, .f32⟩ : BufTy).Contents (Elt F) → (⟨S64x900x1, .f32⟩ : BufTy).Contents (Elt F)),  -- %82
    StableHlo.unary main_v75 main_v83 (broadcastInDim S64x900x1 ![0, 1] bcast_S64x900_S64x900x1_0_1 : (⟨S64x900, .f32⟩ : BufTy).Contents (Elt F) → (⟨S64x900x1, .f32⟩ : BufTy).Contents (Elt F)),  -- %83
    StableHlo.unary main_v78 main_v84 (broadcastInDim S64x900x1 ![0, 1] bcast_S64x900_S64x900x1_0_1 : (⟨S64x900, .f32⟩ : BufTy).Contents (Elt F) → (⟨S64x900x1, .f32⟩ : BufTy).Contents (Elt F)),  -- %84
    StableHlo.unary main_v81 main_v85 (broadcastInDim S64x900x1 ![0, 1] bcast_S64x900_S64x900x1_0_1 : (⟨S64x900, .f32⟩ : BufTy).Contents (Elt F) → (⟨S64x900x1, .f32⟩ : BufTy).Contents (Elt F)),  -- %85
    StableHlo.nary ![main_v82, main_v83, main_v84, main_v85] main_v86 (fun u => concatenate S64x900x4 2 [⟨S64x900x1, u 0⟩, ⟨S64x900x1, u 1⟩, ⟨S64x900x1, u 2⟩, ⟨S64x900x1, u 3⟩] concatenates_S64x900x1_S64x900x1_S64x900x1_S64x900x1_S64x900x4_d2),  -- %86
    StableHlo.unary main_v49 main_v87 ((transpose S4x64x200 [2, 0, 1] · transposes_S64x200x4_S4x64x200_2_0_1) : (⟨S64x200x4, .f32⟩ : BufTy).Contents (Elt F) → (⟨S4x64x200, .f32⟩ : BufTy).Contents (Elt F)),  -- %87
    StableHlo.unary main_v87 main_v88 ((extractStridedSlice S1x64x200 ![0, 0, 0] · slices_S4x64x200_S1x64x200_0_0_0) : (⟨S4x64x200, .f32⟩ : BufTy).Contents (Elt F) → (⟨S1x64x200, .f32⟩ : BufTy).Contents (Elt F)),  -- %88
    StableHlo.reshape main_v88 main_v89 rfl shapeCasts_S1x64x200_S64x200,  -- %89
    StableHlo.unary main_v87 main_v90 ((extractStridedSlice S1x64x200 ![1, 0, 0] · slices_S4x64x200_S1x64x200_1_0_0) : (⟨S4x64x200, .f32⟩ : BufTy).Contents (Elt F) → (⟨S1x64x200, .f32⟩ : BufTy).Contents (Elt F)),  -- %90
    StableHlo.reshape main_v90 main_v91 rfl shapeCasts_S1x64x200_S64x200,  -- %91
    StableHlo.unary main_v87 main_v92 ((extractStridedSlice S1x64x200 ![2, 0, 0] · slices_S4x64x200_S1x64x200_2_0_0) : (⟨S4x64x200, .f32⟩ : BufTy).Contents (Elt F) → (⟨S1x64x200, .f32⟩ : BufTy).Contents (Elt F)),  -- %92
    StableHlo.reshape main_v92 main_v93 rfl shapeCasts_S1x64x200_S64x200,  -- %93
    StableHlo.unary main_v87 main_v94 ((extractStridedSlice S1x64x200 ![3, 0, 0] · slices_S4x64x200_S1x64x200_3_0_0) : (⟨S4x64x200, .f32⟩ : BufTy).Contents (Elt F) → (⟨S1x64x200, .f32⟩ : BufTy).Contents (Elt F)),  -- %94
    StableHlo.reshape main_v94 main_v95 rfl shapeCasts_S1x64x200_S64x200,  -- %95
    StableHlo.nullary main_cst_32 (constant S_ .f32 0x3F000000#32),  -- %cst_32
    StableHlo.unary main_cst_32 main_v96 (broadcastInDim S64x200 ![] bcast_S_S64x200 : (⟨S_, .f32⟩ : BufTy).Contents (Elt F) → (⟨S64x200, .f32⟩ : BufTy).Contents (Elt F)),  -- %96
    StableHlo.binary main_v96 main_v93 main_v97 (mulf : (⟨S64x200, .f32⟩ : BufTy).Contents (Elt F) → (⟨S64x200, .f32⟩ : BufTy).Contents (Elt F) → (⟨S64x200, .f32⟩ : BufTy).Contents (Elt F)),  -- %97
    StableHlo.binary main_v89 main_v97 main_v98 (subf : (⟨S64x200, .f32⟩ : BufTy).Contents (Elt F) → (⟨S64x200, .f32⟩ : BufTy).Contents (Elt F) → (⟨S64x200, .f32⟩ : BufTy).Contents (Elt F)),  -- %98
    StableHlo.nullary main_cst_33 (constant S_ .f32 0x3F000000#32),  -- %cst_33
    StableHlo.unary main_cst_33 main_v99 (broadcastInDim S64x200 ![] bcast_S_S64x200 : (⟨S_, .f32⟩ : BufTy).Contents (Elt F) → (⟨S64x200, .f32⟩ : BufTy).Contents (Elt F)),  -- %99
    StableHlo.binary main_v99 main_v95 main_v100 (mulf : (⟨S64x200, .f32⟩ : BufTy).Contents (Elt F) → (⟨S64x200, .f32⟩ : BufTy).Contents (Elt F) → (⟨S64x200, .f32⟩ : BufTy).Contents (Elt F)),  -- %100
    StableHlo.binary main_v91 main_v100 main_v101 (subf : (⟨S64x200, .f32⟩ : BufTy).Contents (Elt F) → (⟨S64x200, .f32⟩ : BufTy).Contents (Elt F) → (⟨S64x200, .f32⟩ : BufTy).Contents (Elt F)),  -- %101
    StableHlo.nullary main_cst_34 (constant S_ .f32 0x3F000000#32),  -- %cst_34
    StableHlo.unary main_cst_34 main_v102 (broadcastInDim S64x200 ![] bcast_S_S64x200 : (⟨S_, .f32⟩ : BufTy).Contents (Elt F) → (⟨S64x200, .f32⟩ : BufTy).Contents (Elt F)),  -- %102
    StableHlo.binary main_v102 main_v93 main_v103 (mulf : (⟨S64x200, .f32⟩ : BufTy).Contents (Elt F) → (⟨S64x200, .f32⟩ : BufTy).Contents (Elt F) → (⟨S64x200, .f32⟩ : BufTy).Contents (Elt F)),  -- %103
    StableHlo.binary main_v89 main_v103 main_v104 (addf : (⟨S64x200, .f32⟩ : BufTy).Contents (Elt F) → (⟨S64x200, .f32⟩ : BufTy).Contents (Elt F) → (⟨S64x200, .f32⟩ : BufTy).Contents (Elt F)),  -- %104
    StableHlo.nullary main_cst_35 (constant S_ .f32 0x3F000000#32),  -- %cst_35
    StableHlo.unary main_cst_35 main_v105 (broadcastInDim S64x200 ![] bcast_S_S64x200 : (⟨S_, .f32⟩ : BufTy).Contents (Elt F) → (⟨S64x200, .f32⟩ : BufTy).Contents (Elt F)),  -- %105
    StableHlo.binary main_v105 main_v95 main_v106 (mulf : (⟨S64x200, .f32⟩ : BufTy).Contents (Elt F) → (⟨S64x200, .f32⟩ : BufTy).Contents (Elt F) → (⟨S64x200, .f32⟩ : BufTy).Contents (Elt F)),  -- %106
    StableHlo.binary main_v91 main_v106 main_v107 (addf : (⟨S64x200, .f32⟩ : BufTy).Contents (Elt F) → (⟨S64x200, .f32⟩ : BufTy).Contents (Elt F) → (⟨S64x200, .f32⟩ : BufTy).Contents (Elt F)),  -- %107
    StableHlo.unary main_v98 main_v108 (broadcastInDim S64x200x1 ![0, 1] bcast_S64x200_S64x200x1_0_1 : (⟨S64x200, .f32⟩ : BufTy).Contents (Elt F) → (⟨S64x200x1, .f32⟩ : BufTy).Contents (Elt F)),  -- %108
    StableHlo.unary main_v101 main_v109 (broadcastInDim S64x200x1 ![0, 1] bcast_S64x200_S64x200x1_0_1 : (⟨S64x200, .f32⟩ : BufTy).Contents (Elt F) → (⟨S64x200x1, .f32⟩ : BufTy).Contents (Elt F)),  -- %109
    StableHlo.unary main_v104 main_v110 (broadcastInDim S64x200x1 ![0, 1] bcast_S64x200_S64x200x1_0_1 : (⟨S64x200, .f32⟩ : BufTy).Contents (Elt F) → (⟨S64x200x1, .f32⟩ : BufTy).Contents (Elt F)),  -- %110
    StableHlo.unary main_v107 main_v111 (broadcastInDim S64x200x1 ![0, 1] bcast_S64x200_S64x200x1_0_1 : (⟨S64x200, .f32⟩ : BufTy).Contents (Elt F) → (⟨S64x200x1, .f32⟩ : BufTy).Contents (Elt F)),  -- %111
    StableHlo.nary ![main_v108, main_v109, main_v110, main_v111] main_v112 (fun u => concatenate S64x200x4 2 [⟨S64x200x1, u 0⟩, ⟨S64x200x1, u 1⟩, ⟨S64x200x1, u 2⟩, ⟨S64x200x1, u 3⟩] concatenates_S64x200x1_S64x200x1_S64x200x1_S64x200x1_S64x200x4_d2) ]  -- %112

/-- %113 .. %187: the generalised IoU of every pair, negated. -/
abbrev lineG : List (HloOp τ sig (Elt F)) :=
  [ StableHlo.unary main_v86 main_v113 ((extractStridedSlice S64x900x1 ![0, 0, 2] · slices_S64x900x4_S64x900x1_0_0_2) : (⟨S64x900x4, .f32⟩ : BufTy).Contents (Elt F) → (⟨S64x900x1, .f32⟩ : BufTy).Contents (Elt F)),  -- %113
    StableHlo.reshape main_v113 main_v114 rfl shapeCasts_S64x900x1_S64x900,  -- %114
    StableHlo.unary main_v86 main_v115 ((extractStridedSlice S64x900x1 ![0, 0, 0] · slices_S64x900x4_S64x900x1_0_0_0) : (⟨S64x900x4, .f32⟩ : BufTy).Contents (Elt F) → (⟨S64x900x1, .f32⟩ : BufTy).Contents (Elt F)),  -- %115
    StableHlo.reshape main_v115 main_v116 rfl shapeCasts_S64x900x1_S64x900,  -- %116
    StableHlo.binary main_v114 main_v116 main_v117 (subf : (⟨S64x900, .f32⟩ : BufTy).Contents (Elt F) → (⟨S64x900, .f32⟩ : BufTy).Contents (Elt F) → (⟨S64x900, .f32⟩ : BufTy).Contents (Elt F)),  -- %117
    StableHlo.unary main_v86 main_v118 ((extractStridedSlice S64x900x1 ![0, 0, 3] · slices_S64x900x4_S64x900x1_0_0_3) : (⟨S64x900x4, .f32⟩ : BufTy).Contents (Elt F) → (⟨S64x900x1, .f32⟩ : BufTy).Contents (Elt F)),  -- %118
    StableHlo.reshape main_v118 main_v119 rfl shapeCasts_S64x900x1_S64x900,  -- %119
    StableHlo.unary main_v86 main_v120 ((extractStridedSlice S64x900x1 ![0, 0, 1] · slices_S64x900x4_S64x900x1_0_0_1) : (⟨S64x900x4, .f32⟩ : BufTy).Contents (Elt F) → (⟨S64x900x1, .f32⟩ : BufTy).Contents (Elt F)),  -- %120
    StableHlo.reshape main_v120 main_v121 rfl shapeCasts_S64x900x1_S64x900,  -- %121
    StableHlo.binary main_v119 main_v121 main_v122 (subf : (⟨S64x900, .f32⟩ : BufTy).Contents (Elt F) → (⟨S64x900, .f32⟩ : BufTy).Contents (Elt F) → (⟨S64x900, .f32⟩ : BufTy).Contents (Elt F)),  -- %122
    StableHlo.binary main_v117 main_v122 main_v123 (mulf : (⟨S64x900, .f32⟩ : BufTy).Contents (Elt F) → (⟨S64x900, .f32⟩ : BufTy).Contents (Elt F) → (⟨S64x900, .f32⟩ : BufTy).Contents (Elt F)),  -- %123
    StableHlo.unary main_v112 main_v124 ((extractStridedSlice S64x200x1 ![0, 0, 2] · slices_S64x200x4_S64x200x1_0_0_2) : (⟨S64x200x4, .f32⟩ : BufTy).Contents (Elt F) → (⟨S64x200x1, .f32⟩ : BufTy).Contents (Elt F)),  -- %124
    StableHlo.reshape main_v124 main_v125 rfl shapeCasts_S64x200x1_S64x200,  -- %125
    StableHlo.unary main_v112 main_v126 ((extractStridedSlice S64x200x1 ![0, 0, 0] · slices_S64x200x4_S64x200x1_0_0_0) : (⟨S64x200x4, .f32⟩ : BufTy).Contents (Elt F) → (⟨S64x200x1, .f32⟩ : BufTy).Contents (Elt F)),  -- %126
    StableHlo.reshape main_v126 main_v127 rfl shapeCasts_S64x200x1_S64x200,  -- %127
    StableHlo.binary main_v125 main_v127 main_v128 (subf : (⟨S64x200, .f32⟩ : BufTy).Contents (Elt F) → (⟨S64x200, .f32⟩ : BufTy).Contents (Elt F) → (⟨S64x200, .f32⟩ : BufTy).Contents (Elt F)),  -- %128
    StableHlo.unary main_v112 main_v129 ((extractStridedSlice S64x200x1 ![0, 0, 3] · slices_S64x200x4_S64x200x1_0_0_3) : (⟨S64x200x4, .f32⟩ : BufTy).Contents (Elt F) → (⟨S64x200x1, .f32⟩ : BufTy).Contents (Elt F)),  -- %129
    StableHlo.reshape main_v129 main_v130 rfl shapeCasts_S64x200x1_S64x200,  -- %130
    StableHlo.unary main_v112 main_v131 ((extractStridedSlice S64x200x1 ![0, 0, 1] · slices_S64x200x4_S64x200x1_0_0_1) : (⟨S64x200x4, .f32⟩ : BufTy).Contents (Elt F) → (⟨S64x200x1, .f32⟩ : BufTy).Contents (Elt F)),  -- %131
    StableHlo.reshape main_v131 main_v132 rfl shapeCasts_S64x200x1_S64x200,  -- %132
    StableHlo.binary main_v130 main_v132 main_v133 (subf : (⟨S64x200, .f32⟩ : BufTy).Contents (Elt F) → (⟨S64x200, .f32⟩ : BufTy).Contents (Elt F) → (⟨S64x200, .f32⟩ : BufTy).Contents (Elt F)),  -- %133
    StableHlo.binary main_v128 main_v133 main_v134 (mulf : (⟨S64x200, .f32⟩ : BufTy).Contents (Elt F) → (⟨S64x200, .f32⟩ : BufTy).Contents (Elt F) → (⟨S64x200, .f32⟩ : BufTy).Contents (Elt F)),  -- %134
    StableHlo.unary main_v86 main_v135 ((extractStridedSlice S64x900x2 ![0, 0, 0] · slices_S64x900x4_S64x900x2_0_0_0) : (⟨S64x900x4, .f32⟩ : BufTy).Contents (Elt F) → (⟨S64x900x2, .f32⟩ : BufTy).Contents (Elt F)),  -- %135
    StableHlo.unary main_v135 main_v136 (broadcastInDim S64x900x1x2 ![0, 1, 3] bcast_S64x900x2_S64x900x1x2_0_1_3 : (⟨S64x900x2, .f32⟩ : BufTy).Contents (Elt F) → (⟨S64x900x1x2, .f32⟩ : BufTy).Contents (Elt F)),  -- %136
    StableHlo.unary main_v112 main_v137 ((extractStridedSlice S64x200x2 ![0, 0, 0] · slices_S64x200x4_S64x200x2_0_0_0) : (⟨S64x200x4, .f32⟩ : BufTy).Contents (Elt F) → (⟨S64x200x2, .f32⟩ : BufTy).Contents (Elt F)),  -- %137
    StableHlo.unary main_v137 main_v138 (broadcastInDim S64x1x200x2 ![0, 2, 3] bcast_S64x200x2_S64x1x200x2_0_2_3 : (⟨S64x200x2, .f32⟩ : BufTy).Contents (Elt F) → (⟨S64x1x200x2, .f32⟩ : BufTy).Contents (Elt F)),  -- %138
    StableHlo.unary main_v136 main_v139 (broadcastInDim S64x900x200x2 ![0, 1, 2, 3] bcast_S64x900x1x2_S64x900x200x2_0_1_2_3 : (⟨S64x900x1x2, .f32⟩ : BufTy).Contents (Elt F) → (⟨S64x900x200x2, .f32⟩ : BufTy).Contents (Elt F)),  -- %139
    StableHlo.unary main_v138 main_v140 (broadcastInDim S64x900x200x2 ![0, 1, 2, 3] bcast_S64x1x200x2_S64x900x200x2_0_1_2_3 : (⟨S64x1x200x2, .f32⟩ : BufTy).Contents (Elt F) → (⟨S64x900x200x2, .f32⟩ : BufTy).Contents (Elt F)),  -- %140
    StableHlo.binary main_v139 main_v140 main_v141 (maximumf : (⟨S64x900x200x2, .f32⟩ : BufTy).Contents (Elt F) → (⟨S64x900x200x2, .f32⟩ : BufTy).Contents (Elt F) → (⟨S64x900x200x2, .f32⟩ : BufTy).Contents (Elt F)),  -- %141
    StableHlo.unary main_v86 main_v142 ((extractStridedSlice S64x900x2 ![0, 0, 2] · slices_S64x900x4_S64x900x2_0_0_2) : (⟨S64x900x4, .f32⟩ : BufTy).Contents (Elt F) → (⟨S64x900x2, .f32⟩ : BufTy).Contents (Elt F)),  -- %142
    StableHlo.unary main_v142 main_v143 (broadcastInDim S64x900x1x2 ![0, 1, 3] bcast_S64x900x2_S64x900x1x2_0_1_3 : (⟨S64x900x2, .f32⟩ : BufTy).Contents (Elt F) → (⟨S64x900x1x2, .f32⟩ : BufTy).Contents (Elt F)),  -- %143
    StableHlo.unary main_v112 main_v144 ((extractStridedSlice S64x200x2 ![0, 0, 2] · slices_S64x200x4_S64x200x2_0_0_2) : (⟨S64x200x4, .f32⟩ : BufTy).Contents (Elt F) → (⟨S64x200x2, .f32⟩ : BufTy).Contents (Elt F)),  -- %144
    StableHlo.unary main_v144 main_v145 (broadcastInDim S64x1x200x2 ![0, 2, 3] bcast_S64x200x2_S64x1x200x2_0_2_3 : (⟨S64x200x2, .f32⟩ : BufTy).Contents (Elt F) → (⟨S64x1x200x2, .f32⟩ : BufTy).Contents (Elt F)),  -- %145
    StableHlo.unary main_v143 main_v146 (broadcastInDim S64x900x200x2 ![0, 1, 2, 3] bcast_S64x900x1x2_S64x900x200x2_0_1_2_3 : (⟨S64x900x1x2, .f32⟩ : BufTy).Contents (Elt F) → (⟨S64x900x200x2, .f32⟩ : BufTy).Contents (Elt F)),  -- %146
    StableHlo.unary main_v145 main_v147 (broadcastInDim S64x900x200x2 ![0, 1, 2, 3] bcast_S64x1x200x2_S64x900x200x2_0_1_2_3 : (⟨S64x1x200x2, .f32⟩ : BufTy).Contents (Elt F) → (⟨S64x900x200x2, .f32⟩ : BufTy).Contents (Elt F)),  -- %147
    StableHlo.binary main_v146 main_v147 main_v148 (minimumf : (⟨S64x900x200x2, .f32⟩ : BufTy).Contents (Elt F) → (⟨S64x900x200x2, .f32⟩ : BufTy).Contents (Elt F) → (⟨S64x900x200x2, .f32⟩ : BufTy).Contents (Elt F)),  -- %148
    StableHlo.binary main_v148 main_v141 main_v149 (subf : (⟨S64x900x200x2, .f32⟩ : BufTy).Contents (Elt F) → (⟨S64x900x200x2, .f32⟩ : BufTy).Contents (Elt F) → (⟨S64x900x200x2, .f32⟩ : BufTy).Contents (Elt F)),  -- %149
    StableHlo.nullary main_cst_36 (constant S_ .f32 0x00000000#32),  -- %cst_36
    StableHlo.TRef.unary (.of main_cst_36 : StableHlo.TRef sig ⟨S_, .f32⟩) main_call12.v0 id,  -- %150 · fn_clip_8 %0
    StableHlo.TRef.unary main_call12.v0 main_call12.v1 (broadcastInDim S64x900x200x2 ![] bcast_S_S64x900x200x2),  -- %150 · fn_clip_8 %1
    StableHlo.TRef.binary main_call12.v1 (.of main_v149 : StableHlo.TRef sig ⟨S64x900x200x2, .f32⟩) main_call12.v2 maximumf,  -- %150 · fn_clip_8 %2
    StableHlo.unary main_v150 main_v151 ((extractStridedSlice S64x900x200x1 ![0, 0, 0, 0] · slices_S64x900x200x2_S64x900x200x1_0_0_0_0) : (⟨S64x900x200x2, .f32⟩ : BufTy).Contents (Elt F) → (⟨S64x900x200x1, .f32⟩ : BufTy).Contents (Elt F)),  -- %151
    StableHlo.reshape main_v151 main_v152 rfl shapeCasts_S64x900x200x1_S64x900x200,  -- %152
    StableHlo.unary main_v150 main_v153 ((extractStridedSlice S64x900x200x1 ![0, 0, 0, 1] · slices_S64x900x200x2_S64x900x200x1_0_0_0_1) : (⟨S64x900x200x2, .f32⟩ : BufTy).Contents (Elt F) → (⟨S64x900x200x1, .f32⟩ : BufTy).Contents (Elt F)),  -- %153
    StableHlo.reshape main_v153 main_v154 rfl shapeCasts_S64x900x200x1_S64x900x200,  -- %154
    StableHlo.binary main_v152 main_v154 main_v155 (mulf : (⟨S64x900x200, .f32⟩ : BufTy).Contents (Elt F) → (⟨S64x900x200, .f32⟩ : BufTy).Contents (Elt F) → (⟨S64x900x200, .f32⟩ : BufTy).Contents (Elt F)),  -- %155
    StableHlo.unary main_v123 main_v156 (broadcastInDim S64x900x1 ![0, 1] bcast_S64x900_S64x900x1_0_1 : (⟨S64x900, .f32⟩ : BufTy).Contents (Elt F) → (⟨S64x900x1, .f32⟩ : BufTy).Contents (Elt F)),  -- %156
    StableHlo.unary main_v134 main_v157 (broadcastInDim S64x1x200 ![0, 2] bcast_S64x200_S64x1x200_0_2 : (⟨S64x200, .f32⟩ : BufTy).Contents (Elt F) → (⟨S64x1x200, .f32⟩ : BufTy).Contents (Elt F)),  -- %157
    StableHlo.unary main_v156 main_v158 (broadcastInDim S64x900x200 ![0, 1, 2] bcast_S64x900x1_S64x900x200_0_1_2 : (⟨S64x900x1, .f32⟩ : BufTy).Contents (Elt F) → (⟨S64x900x200, .f32⟩ : BufTy).Contents (Elt F)),  -- %158
    StableHlo.unary main_v157 main_v159 (broadcastInDim S64x900x200 ![0, 1, 2] bcast_S64x1x200_S64x900x200_0_1_2 : (⟨S64x1x200, .f32⟩ : BufTy).Contents (Elt F) → (⟨S64x900x200, .f32⟩ : BufTy).Contents (Elt F)),  -- %159
    StableHlo.binary main_v158 main_v159 main_v160 (addf : (⟨S64x900x200, .f32⟩ : BufTy).Contents (Elt F) → (⟨S64x900x200, .f32⟩ : BufTy).Contents (Elt F) → (⟨S64x900x200, .f32⟩ : BufTy).Contents (Elt F)),  -- %160
    StableHlo.binary main_v160 main_v155 main_v161 (subf : (⟨S64x900x200, .f32⟩ : BufTy).Contents (Elt F) → (⟨S64x900x200, .f32⟩ : BufTy).Contents (Elt F) → (⟨S64x900x200, .f32⟩ : BufTy).Contents (Elt F)),  -- %161
    StableHlo.binary main_v155 main_v161 main_v162 (Host.divf : (⟨S64x900x200, .f32⟩ : BufTy).Contents (Elt F) → (⟨S64x900x200, .f32⟩ : BufTy).Contents (Elt F) → (⟨S64x900x200, .f32⟩ : BufTy).Contents (Elt F)),  -- %162
    StableHlo.unary main_v86 main_v163 ((extractStridedSlice S64x900x2 ![0, 0, 0] · slices_S64x900x4_S64x900x2_0_0_0) : (⟨S64x900x4, .f32⟩ : BufTy).Contents (Elt F) → (⟨S64x900x2, .f32⟩ : BufTy).Contents (Elt F)),  -- %163
    StableHlo.unary main_v163 main_v164 (broadcastInDim S64x900x1x2 ![0, 1, 3] bcast_S64x900x2_S64x900x1x2_0_1_3 : (⟨S64x900x2, .f32⟩ : BufTy).Contents (Elt F) → (⟨S64x900x1x2, .f32⟩ : BufTy).Contents (Elt F)),  -- %164
    StableHlo.unary main_v112 main_v165 ((extractStridedSlice S64x200x2 ![0, 0, 0] · slices_S64x200x4_S64x200x2_0_0_0) : (⟨S64x200x4, .f32⟩ : BufTy).Contents (Elt F) → (⟨S64x200x2, .f32⟩ : BufTy).Contents (Elt F)),  -- %165
    StableHlo.unary main_v165 main_v166 (broadcastInDim S64x1x200x2 ![0, 2, 3] bcast_S64x200x2_S64x1x200x2_0_2_3 : (⟨S64x200x2, .f32⟩ : BufTy).Contents (Elt F) → (⟨S64x1x200x2, .f32⟩ : BufTy).Contents (Elt F)),  -- %166
    StableHlo.unary main_v164 main_v167 (broadcastInDim S64x900x200x2 ![0, 1, 2, 3] bcast_S64x900x1x2_S64x900x200x2_0_1_2_3 : (⟨S64x900x1x2, .f32⟩ : BufTy).Contents (Elt F) → (⟨S64x900x200x2, .f32⟩ : BufTy).Contents (Elt F)),  -- %167
    StableHlo.unary main_v166 main_v168 (broadcastInDim S64x900x200x2 ![0, 1, 2, 3] bcast_S64x1x200x2_S64x900x200x2_0_1_2_3 : (⟨S64x1x200x2, .f32⟩ : BufTy).Contents (Elt F) → (⟨S64x900x200x2, .f32⟩ : BufTy).Contents (Elt F)),  -- %168
    StableHlo.binary main_v167 main_v168 main_v169 (minimumf : (⟨S64x900x200x2, .f32⟩ : BufTy).Contents (Elt F) → (⟨S64x900x200x2, .f32⟩ : BufTy).Contents (Elt F) → (⟨S64x900x200x2, .f32⟩ : BufTy).Contents (Elt F)),  -- %169
    StableHlo.unary main_v86 main_v170 ((extractStridedSlice S64x900x2 ![0, 0, 2] · slices_S64x900x4_S64x900x2_0_0_2) : (⟨S64x900x4, .f32⟩ : BufTy).Contents (Elt F) → (⟨S64x900x2, .f32⟩ : BufTy).Contents (Elt F)),  -- %170
    StableHlo.unary main_v170 main_v171 (broadcastInDim S64x900x1x2 ![0, 1, 3] bcast_S64x900x2_S64x900x1x2_0_1_3 : (⟨S64x900x2, .f32⟩ : BufTy).Contents (Elt F) → (⟨S64x900x1x2, .f32⟩ : BufTy).Contents (Elt F)),  -- %171
    StableHlo.unary main_v112 main_v172 ((extractStridedSlice S64x200x2 ![0, 0, 2] · slices_S64x200x4_S64x200x2_0_0_2) : (⟨S64x200x4, .f32⟩ : BufTy).Contents (Elt F) → (⟨S64x200x2, .f32⟩ : BufTy).Contents (Elt F)),  -- %172
    StableHlo.unary main_v172 main_v173 (broadcastInDim S64x1x200x2 ![0, 2, 3] bcast_S64x200x2_S64x1x200x2_0_2_3 : (⟨S64x200x2, .f32⟩ : BufTy).Contents (Elt F) → (⟨S64x1x200x2, .f32⟩ : BufTy).Contents (Elt F)),  -- %173
    StableHlo.unary main_v171 main_v174 (broadcastInDim S64x900x200x2 ![0, 1, 2, 3] bcast_S64x900x1x2_S64x900x200x2_0_1_2_3 : (⟨S64x900x1x2, .f32⟩ : BufTy).Contents (Elt F) → (⟨S64x900x200x2, .f32⟩ : BufTy).Contents (Elt F)),  -- %174
    StableHlo.unary main_v173 main_v175 (broadcastInDim S64x900x200x2 ![0, 1, 2, 3] bcast_S64x1x200x2_S64x900x200x2_0_1_2_3 : (⟨S64x1x200x2, .f32⟩ : BufTy).Contents (Elt F) → (⟨S64x900x200x2, .f32⟩ : BufTy).Contents (Elt F)),  -- %175
    StableHlo.binary main_v174 main_v175 main_v176 (maximumf : (⟨S64x900x200x2, .f32⟩ : BufTy).Contents (Elt F) → (⟨S64x900x200x2, .f32⟩ : BufTy).Contents (Elt F) → (⟨S64x900x200x2, .f32⟩ : BufTy).Contents (Elt F)),  -- %176
    StableHlo.binary main_v176 main_v169 main_v177 (subf : (⟨S64x900x200x2, .f32⟩ : BufTy).Contents (Elt F) → (⟨S64x900x200x2, .f32⟩ : BufTy).Contents (Elt F) → (⟨S64x900x200x2, .f32⟩ : BufTy).Contents (Elt F)),  -- %177
    StableHlo.nullary main_cst_37 (constant S_ .f32 0x00000000#32),  -- %cst_37
    StableHlo.TRef.unary (.of main_cst_37 : StableHlo.TRef sig ⟨S_, .f32⟩) main_call13.v0 id,  -- %178 · fn_clip_8 %0
    StableHlo.TRef.unary main_call13.v0 main_call13.v1 (broadcastInDim S64x900x200x2 ![] bcast_S_S64x900x200x2),  -- %178 · fn_clip_8 %1
    StableHlo.TRef.binary main_call13.v1 (.of main_v177 : StableHlo.TRef sig ⟨S64x900x200x2, .f32⟩) main_call13.v2 maximumf,  -- %178 · fn_clip_8 %2
    StableHlo.unary main_v178 main_v179 ((extractStridedSlice S64x900x200x1 ![0, 0, 0, 0] · slices_S64x900x200x2_S64x900x200x1_0_0_0_0) : (⟨S64x900x200x2, .f32⟩ : BufTy).Contents (Elt F) → (⟨S64x900x200x1, .f32⟩ : BufTy).Contents (Elt F)),  -- %179
    StableHlo.reshape main_v179 main_v180 rfl shapeCasts_S64x900x200x1_S64x900x200,  -- %180
    StableHlo.unary main_v178 main_v181 ((extractStridedSlice S64x900x200x1 ![0, 0, 0, 1] · slices_S64x900x200x2_S64x900x200x1_0_0_0_1) : (⟨S64x900x200x2, .f32⟩ : BufTy).Contents (Elt F) → (⟨S64x900x200x1, .f32⟩ : BufTy).Contents (Elt F)),  -- %181
    StableHlo.reshape main_v181 main_v182 rfl shapeCasts_S64x900x200x1_S64x900x200,  -- %182
    StableHlo.binary main_v180 main_v182 main_v183 (mulf : (⟨S64x900x200, .f32⟩ : BufTy).Contents (Elt F) → (⟨S64x900x200, .f32⟩ : BufTy).Contents (Elt F) → (⟨S64x900x200, .f32⟩ : BufTy).Contents (Elt F)),  -- %183
    StableHlo.binary main_v183 main_v161 main_v184 (subf : (⟨S64x900x200, .f32⟩ : BufTy).Contents (Elt F) → (⟨S64x900x200, .f32⟩ : BufTy).Contents (Elt F) → (⟨S64x900x200, .f32⟩ : BufTy).Contents (Elt F)),  -- %184
    StableHlo.binary main_v184 main_v183 main_v185 (Host.divf : (⟨S64x900x200, .f32⟩ : BufTy).Contents (Elt F) → (⟨S64x900x200, .f32⟩ : BufTy).Contents (Elt F) → (⟨S64x900x200, .f32⟩ : BufTy).Contents (Elt F)),  -- %185
    StableHlo.binary main_v162 main_v185 main_v186 (subf : (⟨S64x900x200, .f32⟩ : BufTy).Contents (Elt F) → (⟨S64x900x200, .f32⟩ : BufTy).Contents (Elt F) → (⟨S64x900x200, .f32⟩ : BufTy).Contents (Elt F)),  -- %186
    StableHlo.unary main_v186 main_v187 (Host.negf : (⟨S64x900x200, .f32⟩ : BufTy).Contents (Elt F) → (⟨S64x900x200, .f32⟩ : BufTy).Contents (Elt F)) ]  -- %187

/-- %cst_38 .. %196: the weighted sum of the three costs, sanitised. -/
abbrev lineH : List (HloOp τ sig (Elt F)) :=
  [ StableHlo.nullary main_cst_38 (constant S_ .f32 0x3F800000#32),  -- %cst_38
    StableHlo.unary main_cst_38 main_v188 (broadcastInDim S64x900x200 ![] bcast_S_S64x900x200 : (⟨S_, .f32⟩ : BufTy).Contents (Elt F) → (⟨S64x900x200, .f32⟩ : BufTy).Contents (Elt F)),  -- %188
    StableHlo.binary main_v188 main_v53 main_v189 (mulf : (⟨S64x900x200, .f32⟩ : BufTy).Contents (Elt F) → (⟨S64x900x200, .f32⟩ : BufTy).Contents (Elt F) → (⟨S64x900x200, .f32⟩ : BufTy).Contents (Elt F)),  -- %189
    StableHlo.nullary main_cst_39 (constant S_ .f32 0x40A00000#32),  -- %cst_39
    StableHlo.unary main_cst_39 main_v190 (broadcastInDim S64x900x200 ![] bcast_S_S64x900x200 : (⟨S_, .f32⟩ : BufTy).Contents (Elt F) → (⟨S64x900x200, .f32⟩ : BufTy).Contents (Elt F)),  -- %190
    StableHlo.binary main_v190 main_v60 main_v191 (mulf : (⟨S64x900x200, .f32⟩ : BufTy).Contents (Elt F) → (⟨S64x900x200, .f32⟩ : BufTy).Contents (Elt F) → (⟨S64x900x200, .f32⟩ : BufTy).Contents (Elt F)),  -- %191
    StableHlo.binary main_v189 main_v191 main_v192 (addf : (⟨S64x900x200, .f32⟩ : BufTy).Contents (Elt F) → (⟨S64x900x200, .f32⟩ : BufTy).Contents (Elt F) → (⟨S64x900x200, .f32⟩ : BufTy).Contents (Elt F)),  -- %192
    StableHlo.nullary main_cst_40 (constant S_ .f32 0x40000000#32),  -- %cst_40
    StableHlo.unary main_cst_40 main_v193 (broadcastInDim S64x900x200 ![] bcast_S_S64x900x200 : (⟨S_, .f32⟩ : BufTy).Contents (Elt F) → (⟨S64x900x200, .f32⟩ : BufTy).Contents (Elt F)),  -- %193
    StableHlo.binary main_v193 main_v187 main_v194 (mulf : (⟨S64x900x200, .f32⟩ : BufTy).Contents (Elt F) → (⟨S64x900x200, .f32⟩ : BufTy).Contents (Elt F) → (⟨S64x900x200, .f32⟩ : BufTy).Contents (Elt F)),  -- %194
    StableHlo.binary main_v192 main_v194 main_v195 (addf : (⟨S64x900x200, .f32⟩ : BufTy).Contents (Elt F) → (⟨S64x900x200, .f32⟩ : BufTy).Contents (Elt F) → (⟨S64x900x200, .f32⟩ : BufTy).Contents (Elt F)),  -- %195
    StableHlo.nullary main_cst_41 (constant S_ .f32 0x49742400#32),  -- %cst_41
    StableHlo.nullary main_cst_42 (constant S_ .f32 0x49742400#32),  -- %cst_42
    StableHlo.nullary main_cst_43 (constant S_ .f32 0x49742400#32),  -- %cst_43
    StableHlo.TRef.binary (.of main_v195 : StableHlo.TRef sig ⟨S64x900x200, .f32⟩) (.of main_v195 : StableHlo.TRef sig ⟨S64x900x200, .f32⟩) main_call14.v0 (cmpf .une),  -- %196 · fn_nan_to_num_9 %0
    StableHlo.TRef.unary (.of main_cst_41 : StableHlo.TRef sig ⟨S_, .f32⟩) main_call14.v1 id,  -- %196 · fn_nan_to_num_9 %1
    StableHlo.TRef.unary main_call14.v1 main_call14.call0.v0 (broadcastInDim S64x900x200 ![] bcast_S_S64x900x200),  -- %196 · fn_nan_to_num_9 %2 · fn_where_10 %0
    StableHlo.TRef.ternary main_call14.v0 main_call14.call0.v0 (.of main_v195 : StableHlo.TRef sig ⟨S64x900x200, .f32⟩) main_call14.call0.v1 select,  -- %196 · fn_nan_to_num_9 %2 · fn_where_10 %1
    StableHlo.TRef.nullary main_call14.cst (constant S_ .f32 0x7F800000#32),  -- %196 · fn_nan_to_num_9 %cst
    StableHlo.TRef.unary main_call14.cst main_call14.v3 (broadcastInDim S64x900x200 ![] bcast_S_S64x900x200),  -- %196 · fn_nan_to_num_9 %3
    StableHlo.TRef.binary main_call14.call0.v1 main_call14.v3 main_call14.v4 (cmpf .oeq),  -- %196 · fn_nan_to_num_9 %4
    StableHlo.TRef.unary (.of main_cst_43 : StableHlo.TRef sig ⟨S_, .f32⟩) main_call14.v5 id,  -- %196 · fn_nan_to_num_9 %5
    StableHlo.TRef.unary main_call14.v5 main_call14.call1.v0 (broadcastInDim S64x900x200 ![] bcast_S_S64x900x200),  -- %196 · fn_nan_to_num_9 %6 · fn_where_10 %0
    StableHlo.TRef.ternary main_call14.v4 main_call14.call1.v0 main_call14.call0.v1 main_call14.call1.v1 select,  -- %196 · fn_nan_to_num_9 %6 · fn_where_10 %1
    StableHlo.TRef.nullary main_call14.cst_0 (constant S_ .f32 0xFF800000#32),  -- %196 · fn_nan_to_num_9 %cst_0
    StableHlo.TRef.unary main_call14.cst_0 main_call14.v7 (broadcastInDim S64x900x200 ![] bcast_S_S64x900x200),  -- %196 · fn_nan_to_num_9 %7
    StableHlo.TRef.binary main_call14.call1.v1 main_call14.v7 main_call14.v8 (cmpf .oeq),  -- %196 · fn_nan_to_num_9 %8
    StableHlo.TRef.unary (.of main_cst_42 : StableHlo.TRef sig ⟨S_, .f32⟩) main_call14.v9 id,  -- %196 · fn_nan_to_num_9 %9
    StableHlo.TRef.unary main_call14.v9 main_call14.call2.v0 (broadcastInDim S64x900x200 ![] bcast_S_S64x900x200),  -- %196 · fn_nan_to_num_9 %10 · fn_where_10 %0
    StableHlo.TRef.ternary main_call14.v8 main_call14.call2.v0 main_call14.call1.v1 main_call14.call2.v1 select ]  -- %196 · fn_nan_to_num_9 %10 · fn_where_10 %1

end Cert.ReferenceIdeal.Ops

end
-- ==== Proof.RefOps.lean ====
/-
  The reference's run.  @main is the straight line of its operations, each call replaced by its callee's operations, so
  every run of it ends with each buffer at the fold of those operations over the launch contents.  The line is eight
  consecutive stretches; the fold over a concatenation is the folds in turn; and a buffer that a later stretch reads
  is written by no stretch between the one that produces it and the one that reads it (every operation writes a buffer
  of its own).
-/
import proofs.«424823_j58110907515474_1_alg».proof.Proof.RefOpsTable
import Idealize.ShloMosaic.PureOps.Ideal

noncomputable section

namespace Cert.ReferenceIdeal.Ops

open Idealize.ShloMosaic Idealize.ShloMosaic.TcCoe Idealize.SL.Sem Cert.ReferenceIdeal Cert.ReferenceIdeal.Gen

/-! ## The eight stretches at the extended reals, and the whole line -/

abbrev segA : List (HloOp τ sig (Elt Ideal)) := lineA (F := Ideal)
abbrev segB : List (HloOp τ sig (Elt Ideal)) := lineB (F := Ideal)
abbrev segC : List (HloOp τ sig (Elt Ideal)) := lineC (F := Ideal)
abbrev segD : List (HloOp τ sig (Elt Ideal)) := lineD (F := Ideal)
abbrev segE : List (HloOp τ sig (Elt Ideal)) := lineE (F := Ideal)
abbrev segF : List (HloOp τ sig (Elt Ideal)) := lineF (F := Ideal)
abbrev segG : List (HloOp τ sig (Elt Ideal)) := lineG (F := Ideal)
abbrev segH : List (HloOp τ sig (Elt Ideal)) := lineH (F := Ideal)

/-- @main's operations in order: the eight stretches one after the other. -/
abbrev ops : List (HloOp τ sig (Elt Ideal)) := segA ++ segB ++ segC ++ segD ++ segE ++ segF ++ segG ++ segH

/-- The fold over a concatenation is the fold over the first list, then over the second from there: by induction on the
    first list, a step of either fold being the head operation's result. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-! ## @main is that line -/

-- three hundred and sixty-seven sequencing steps re-associated to the right, one level of recursion per step
set_option maxRecDepth 100000 in
set_option maxHeartbeats 4000000 in
/-- @main is the line: its five windows in order, each callee's body in place of its call, are one right-nested sequence
    of single operations once sequencing is re-associated; so is the line of a concatenation, stretch by stretch. -/
theorem main_eq (c : Dev nD) : main (F := Ideal) c = StableHlo.seq ops := by
  simp only [main, main_part0, main_part1, main_part2, main_part3, main_part4, fn_where.body, fn_where_0.body, fn_nan_to_num.body, fn_where_2.body, fn_where_3.body, fn_nan_to_num_1.body, fn_clip.body, fn_where_5.body, fn_where_6.body, fn_nan_to_num_4.body, fn_clip_7.body, fn_take_along_axis.body, fn_clip_8.body, fn_where_10.body, fn_nan_to_num_9.body,
    StableHlo.seq_append, StableHlo.seq, bind_assoc, pure_bind]

/-! ## The side conditions of a run -/

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
private theorem forall_app {p : HloOp τ sig (Elt Ideal) → Prop} {l₁ l₂ : List (HloOp τ sig (Elt Ideal))}
    (h₁ : l₁.Forall p) (h₂ : l₂.Forall p) : (l₁ ++ l₂).Forall p := List.forall_append.mpr ⟨h₁, h₂⟩

/-- Every operation of a stretch touches TensorCore buffers only: operation by operation, each builder's own fact. -/
local macro "bufs_sub" : tactic => `(tactic| (
  simp only [segA, segB, segC, segD, segE, segF, segG, segH, lineA, lineB, lineC, lineD, lineE, lineF, lineG, lineH,
    List.Forall, StableHlo.nullary_bufs_sub, StableHlo.unary_bufs_sub, StableHlo.binary_bufs_sub, StableHlo.ternary_bufs_sub,
    StableHlo.reshape_bufs_sub, StableHlo.nary_bufs_sub, and_self]))

theorem segA_sub : segA.Forall (fun op => op.bufs ⊆ StableHlo.tcRefs τ sig) := by bufs_sub
theorem segB_sub : segB.Forall (fun op => op.bufs ⊆ StableHlo.tcRefs τ sig) := by bufs_sub
theorem segC_sub : segC.Forall (fun op => op.bufs ⊆ StableHlo.tcRefs τ sig) := by bufs_sub
theorem segD_sub : segD.Forall (fun op => op.bufs ⊆ StableHlo.tcRefs τ sig) := by bufs_sub
theorem segE_sub : segE.Forall (fun op => op.bufs ⊆ StableHlo.tcRefs τ sig) := by bufs_sub
theorem segF_sub : segF.Forall (fun op => op.bufs ⊆ StableHlo.tcRefs τ sig) := by bufs_sub
theorem segG_sub : segG.Forall (fun op => op.bufs ⊆ StableHlo.tcRefs τ sig) := by bufs_sub
theorem segH_sub : segH.Forall (fun op => op.bufs ⊆ StableHlo.tcRefs τ sig) := by bufs_sub

theorem ops_sub : ops.Forall fun op => op.bufs ⊆ StableHlo.tcRefs τ sig :=
  forall_app (forall_app (forall_app (forall_app (forall_app (forall_app (forall_app segA_sub segB_sub) segC_sub) segD_sub) segE_sub)
    segF_sub) segG_sub) segH_sub

/-- Every operation of a stretch determines its results (none leaves a buffer without contents): by computation. -/
local macro "no_fresh" : tactic => `(tactic| (
  simp only [segA, segB, segC, segD, segE, segF, segG, segH, lineA, lineB, lineC, lineD, lineE, lineF, lineG, lineH, List.Forall]
  repeat' constructor))

theorem segA_fresh : segA.Forall (fun op => op.fresh = ∅) := by no_fresh
theorem segB_fresh : segB.Forall (fun op => op.fresh = ∅) := by no_fresh
theorem segC_fresh : segC.Forall (fun op => op.fresh = ∅) := by no_fresh
theorem segD_fresh : segD.Forall (fun op => op.fresh = ∅) := by no_fresh
theorem segE_fresh : segE.Forall (fun op => op.fresh = ∅) := by no_fresh
theorem segF_fresh : segF.Forall (fun op => op.fresh = ∅) := by no_fresh
theorem segG_fresh : segG.Forall (fun op => op.fresh = ∅) := by no_fresh
theorem segH_fresh : segH.Forall (fun op => op.fresh = ∅) := by no_fresh

theorem ops_fresh : ∀ op ∈ ops, op.fresh = ∅ :=
  List.forall_iff_forall_mem.mp
    (forall_app (forall_app (forall_app (forall_app (forall_app (forall_app (forall_app segA_fresh segB_fresh) segC_fresh) segD_fresh)
      segE_fresh) segF_fresh) segG_fresh) segH_fresh)

/-! ## The run -/

/-- At the compiled mesh, from any memory with zero counters: every weakly fair execution of @main on the TensorCores
    terminates, and every final state has each TensorCore buffer at the operations' fold over the launch contents. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = StableHlo.after ops (StableHlo.launchContents m d) (b : DevRef τ sig) :=
  StableHlo.run_seq scopedRefs_eq scopedSems_eq defs main (fun _ => ops) main_eq (fun _ => ops_sub) m ρ (fun _ => ops_fresh)

/-! ## What a stretch leaves as it found it

Every operation writes exactly its own result buffer, and the result buffers are pairwise different references; so a
stretch leaves untouched any buffer that is not the result of one of its operations.  Stated for each buffer that a
later stretch reads across this one. -/

/-- The buffer is no operation's result: each operation's written set is the singleton of its result buffer, a
    reference different from the one asked about. -/
local macro "keeps" : tactic => `(tactic| (
  refine StableHlo.after_of_forall_not_mem _ _ (List.forall_iff_forall_mem.mp ?_)
  simp only [segA, segB, segC, segD, segE, segF, segG, segH, lineA, lineB, lineC, lineD, lineE, lineF, lineG, lineH,
    List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

theorem segA_keeps_arg1 (V : Valuation τ sig (Elt Ideal)) :
    StableHlo.after segA V (main_arg1 : DevRef τ sig) = V (main_arg1 : DevRef τ sig) := by keeps
theorem segA_keeps_arg2 (V : Valuation τ sig (Elt Ideal)) :
    StableHlo.after segA V (main_arg2 : DevRef τ sig) = V (main_arg2 : DevRef τ sig) := by keeps
theorem segA_keeps_arg3 (V : Valuation τ sig (Elt Ideal)) :
    StableHlo.after segA V (main_arg3 : DevRef τ sig) = V (main_arg3 : DevRef τ sig) := by keeps
theorem segB_keeps_arg2 (V : Valuation τ sig (Elt Ideal)) :
    StableHlo.after segB V (main_arg2 : DevRef τ sig) = V (main_arg2 : DevRef τ sig) := by keeps
theorem segB_keeps_arg3 (V : Valuation τ sig (Elt Ideal)) :
    StableHlo.after segB V (main_arg3 : DevRef τ sig) = V (main_arg3 : DevRef τ sig) := by keeps
theorem segB_keeps_v11 (V : Valuation τ sig (Elt Ideal)) :
    StableHlo.after segB V (main_v11 : DevRef τ sig) = V (main_v11 : DevRef τ sig) := by keeps
theorem segC_keeps_arg2 (V : Valuation τ sig (Elt Ideal)) :
    StableHlo.after segC V (main_arg2 : DevRef τ sig) = V (main_arg2 : DevRef τ sig) := by keeps
theorem segC_keeps_v11 (V : Valuation τ sig (Elt Ideal)) :
    StableHlo.after segC V (main_v11 : DevRef τ sig) = V (main_v11 : DevRef τ sig) := by keeps
theorem segC_keeps_v30 (V : Valuation τ sig (Elt Ideal)) :
    StableHlo.after segC V (main_v30 : DevRef τ sig) = V (main_v30 : DevRef τ sig) := by keeps
theorem segD_keeps_v30 (V : Valuation τ sig (Elt Ideal)) :
    StableHlo.after segD V (main_v30 : DevRef τ sig) = V (main_v30 : DevRef τ sig) := by keeps
theorem segD_keeps_v49 (V : Valuation τ sig (Elt Ideal)) :
    StableHlo.after segD V (main_v49 : DevRef τ sig) = V (main_v49 : DevRef τ sig) := by keeps
theorem segE_keeps_v30 (V : Valuation τ sig (Elt Ideal)) :
    StableHlo.after segE V (main_v30 : DevRef τ sig) = V (main_v30 : DevRef τ sig) := by keeps
theorem segE_keeps_v49 (V : Valuation τ sig (Elt Ideal)) :
    StableHlo.after segE V (main_v49 : DevRef τ sig) = V (main_v49 : DevRef τ sig) := by keeps
theorem segE_keeps_v53 (V : Valuation τ sig (Elt Ideal)) :
    StableHlo.after segE V (main_v53 : DevRef τ sig) = V (main_v53 : DevRef τ sig) := by keeps
theorem segF_keeps_v53 (V : Valuation τ sig (Elt Ideal)) :
    StableHlo.after segF V (main_v53 : DevRef τ sig) = V (main_v53 : DevRef τ sig) := by keeps
theorem segF_keeps_v60 (V : Valuation τ sig (Elt Ideal)) :
    StableHlo.after segF V (main_v60 : DevRef τ sig) = V (main_v60 : DevRef τ sig) := by keeps
theorem segG_keeps_v53 (V : Valuation τ sig (Elt Ideal)) :
    StableHlo.after segG V (main_v53 : DevRef τ sig) = V (main_v53 : DevRef τ sig) := by keeps
theorem segG_keeps_v60 (V : Valuation τ sig (Elt Ideal)) :
    StableHlo.after segG V (main_v60 : DevRef τ sig) = V (main_v60 : DevRef τ sig) := by keeps

end Cert.ReferenceIdeal.Ops

end
-- ==== Proof.RefKeeps.lean ====
/-
  No operation of the reference writes an argument buffer: every operation writes exactly its own result buffer, and no
  result buffer is an argument.  So each of the eight stretches, folded over any buffer contents, leaves each of the four
  argument buffers as it found it.  (The cases a later stretch reads an argument across are stated beside the stretches;
  here are the remaining ones, wanted for the arguments' contents after the whole line.)
-/
import proofs.«424823_j58110907515474_1_alg».proof.Proof.RefOps

noncomputable section

namespace Cert.ReferenceIdeal.Ops

open Idealize.ShloMosaic Idealize.ShloMosaic.TcCoe Idealize.SL.Sem Cert.ReferenceIdeal Cert.ReferenceIdeal.Gen

/-- The buffer is no operation's result: each operation's written set is the singleton of its result buffer, a
    reference different from the one asked about. -/
local macro "keeps" : tactic => `(tactic| (
  refine StableHlo.after_of_forall_not_mem _ _ (List.forall_iff_forall_mem.mp ?_)
  simp only [segA, segB, segC, segD, segE, segF, segG, segH, lineA, lineB, lineC, lineD, lineE, lineF, lineG, lineH,
    List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

theorem segA_keeps_arg0 (V : Valuation τ sig (Elt Ideal)) :
    StableHlo.after segA V (main_arg0 : DevRef τ sig) = V (main_arg0 : DevRef τ sig) := by keeps
theorem segB_keeps_arg0 (V : Valuation τ sig (Elt Ideal)) :
    StableHlo.after segB V (main_arg0 : DevRef τ sig) = V (main_arg0 : DevRef τ sig) := by keeps
theorem segB_keeps_arg1 (V : Valuation τ sig (Elt Ideal)) :
    StableHlo.after segB V (main_arg1 : DevRef τ sig) = V (main_arg1 : DevRef τ sig) := by keeps
theorem segC_keeps_arg0 (V : Valuation τ sig (Elt Ideal)) :
    StableHlo.after segC V (main_arg0 : DevRef τ sig) = V (main_arg0 : DevRef τ sig) := by keeps
theorem segC_keeps_arg1 (V : Valuation τ sig (Elt Ideal)) :
    StableHlo.after segC V (main_arg1 : DevRef τ sig) = V (main_arg1 : DevRef τ sig) := by keeps
theorem segC_keeps_arg3 (V : Valuation τ sig (Elt Ideal)) :
    StableHlo.after segC V (main_arg3 : DevRef τ sig) = V (main_arg3 : DevRef τ sig) := by keeps
theorem segD_keeps_arg0 (V : Valuation τ sig (Elt Ideal)) :
    StableHlo.after segD V (main_arg0 : DevRef τ sig) = V (main_arg0 : DevRef τ sig) := by keeps
theorem segD_keeps_arg1 (V : Valuation τ sig (Elt Ideal)) :
    StableHlo.after segD V (main_arg1 : DevRef τ sig) = V (main_arg1 : DevRef τ sig) := by keeps
theorem segD_keeps_arg2 (V : Valuation τ sig (Elt Ideal)) :
    StableHlo.after segD V (main_arg2 : DevRef τ sig) = V (main_arg2 : DevRef τ sig) := by keeps
theorem segD_keeps_arg3 (V : Valuation τ sig (Elt Ideal)) :
    StableHlo.after segD V (main_arg3 : DevRef τ sig) = V (main_arg3 : DevRef τ sig) := by keeps
theorem segE_keeps_arg0 (V : Valuation τ sig (Elt Ideal)) :
    StableHlo.after segE V (main_arg0 : DevRef τ sig) = V (main_arg0 : DevRef τ sig) := by keeps
theorem segE_keeps_arg1 (V : Valuation τ sig (Elt Ideal)) :
    StableHlo.after segE V (main_arg1 : DevRef τ sig) = V (main_arg1 : DevRef τ sig) := by keeps
theorem segE_keeps_arg2 (V : Valuation τ sig (Elt Ideal)) :
    StableHlo.after segE V (main_arg2 : DevRef τ sig) = V (main_arg2 : DevRef τ sig) := by keeps
theorem segE_keeps_arg3 (V : Valuation τ sig (Elt Ideal)) :
    StableHlo.after segE V (main_arg3 : DevRef τ sig) = V (main_arg3 : DevRef τ sig) := by keeps
theorem segF_keeps_arg0 (V : Valuation τ sig (Elt Ideal)) :
    StableHlo.after segF V (main_arg0 : DevRef τ sig) = V (main_arg0 : DevRef τ sig) := by keeps
theorem segF_keeps_arg1 (V : Valuation τ sig (Elt Ideal)) :
    StableHlo.after segF V (main_arg1 : DevRef τ sig) = V (main_arg1 : DevRef τ sig) := by keeps
theorem segF_keeps_arg2 (V : Valuation τ sig (Elt Ideal)) :
    StableHlo.after segF V (main_arg2 : DevRef τ sig) = V (main_arg2 : DevRef τ sig) := by keeps
theorem segF_keeps_arg3 (V : Valuation τ sig (Elt Ideal)) :
    StableHlo.after segF V (main_arg3 : DevRef τ sig) = V (main_arg3 : DevRef τ sig) := by keeps
theorem segG_keeps_arg0 (V : Valuation τ sig (Elt Ideal)) :
    StableHlo.after segG V (main_arg0 : DevRef τ sig) = V (main_arg0 : DevRef τ sig) := by keeps
theorem segG_keeps_arg1 (V : Valuation τ sig (Elt Ideal)) :
    StableHlo.after segG V (main_arg1 : DevRef τ sig) = V (main_arg1 : DevRef τ sig) := by keeps
theorem segG_keeps_arg2 (V : Valuation τ sig (Elt Ideal)) :
    StableHlo.after segG V (main_arg2 : DevRef τ sig) = V (main_arg2 : DevRef τ sig) := by keeps
theorem segG_keeps_arg3 (V : Valuation τ sig (Elt Ideal)) :
    StableHlo.after segG V (main_arg3 : DevRef τ sig) = V (main_arg3 : DevRef τ sig) := by keeps
theorem segH_keeps_arg0 (V : Valuation τ sig (Elt Ideal)) :
    StableHlo.after segH V (main_arg0 : DevRef τ sig) = V (main_arg0 : DevRef τ sig) := by keeps
theorem segH_keeps_arg1 (V : Valuation τ sig (Elt Ideal)) :
    StableHlo.after segH V (main_arg1 : DevRef τ sig) = V (main_arg1 : DevRef τ sig) := by keeps
theorem segH_keeps_arg2 (V : Valuation τ sig (Elt Ideal)) :
    StableHlo.after segH V (main_arg2 : DevRef τ sig) = V (main_arg2 : DevRef τ sig) := by keeps
theorem segH_keeps_arg3 (V : Valuation τ sig (Elt Ideal)) :
    StableHlo.after segH V (main_arg3 : DevRef τ sig) = V (main_arg3 : DevRef τ sig) := by keeps

end Cert.ReferenceIdeal.Ops

end
-- ==== Proof.LibGatherAxis2.lean ====
/-
  A gather along the last axis of a rank-3 array, the two leading axes batching: the operation an
  index-along-an-axis read of a [B, Q, N] array at a [B, Q, T] array of positions lowers to.

  The operand is [B, Q, N], the start indices are [B, Q, T, 1] (the index vector on the trailing unit axis), the result is
  [B, Q, T]; operand axes 0 and 1 are batching axes paired with start-indices axes 0 and 1, operand axis 2 is collapsed and
  is the one axis the start index names, every slice size is one and there is no offset axis. Result element (b, q, t) is
  the operand at (b, q, i) where i is the start index at (b, q, t, 0) read as a signed integer and clamped into [0, N - 1].
-/
import Idealize.ShloMosaic.Lib.ValueIdx

noncomputable section

namespace Cert.Lib.GatherAxis2

open Idealize.ShloMosaic Idealize.ShloMosaic.ValueIdx

variable {α : Type}

/-- The dimension numbers of a gather along the last axis of a [B, Q, N] operand at [B, Q, T, 1] start indices, result
    [B, Q, T]: no offset axis, axis 2 collapsed and indexed, axes 0 and 1 batching on both sides, the index vector on
    axis 3, all slice sizes one. Their conditions `wf` are decided on a program's literal shapes. -/
abbrev axis2Dims (B Q N T : Nat)
    (wf : GatherDims.WF ⟨3, ![B, Q, N]⟩ ⟨4, ![B, Q, T, 1]⟩ ⟨3, ![B, Q, T]⟩ [] [2] [0, 1] [2] [0, 1] 3 ![1, 1, 1]) :
    GatherDims ⟨3, ![B, Q, N]⟩ ⟨4, ![B, Q, T, 1]⟩ ⟨3, ![B, Q, T]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT (b, q, t): the operand at (b, q, i), where i is the start index at (b, q, t, 0) read signed and
    clamped into [0, N - 1]. -/
theorem gather_axis2_apply {B Q N T w : Nat} (hN : 0 < N)
    (wf : GatherDims.WF ⟨3, ![B, Q, N]⟩ ⟨4, ![B, Q, T, 1]⟩ ⟨3, ![B, Q, T]⟩ [] [2] [0, 1] [2] [0, 1] 3 ![1, 1, 1])
    (x : (⟨3, ![B, Q, N]⟩ : Shape).Idx → α) (idx : IVec ⟨4, ![B, Q, T, 1]⟩ w) (b : Fin B) (q : Fin Q) (t : Fin T) :
    Host.gather (axis2Dims B Q N T wf) x idx (ix3 b q t)
      = x (ix3 b q (⟨min (idx (ix4 b q t (0 : Fin 1))).toInt.toNat (N - 1), by omega⟩ : Fin N)) := by
  unfold Host.gather
  congr 1
  funext a
  refine Fin.ext ?_
  show (axis2Dims B Q N T wf).start (ix3 b q t) idx a + (axis2Dims B Q N T wf).batchCoord (ix3 b q t) a
      + (axis2Dims B Q N T wf).offCoord (ix3 b q t) a = _
  match a with
  | ⟨0, h0⟩ =>
    have hb : (⟨0, h0⟩ : Fin 3) ∈ (axis2Dims B Q N T wf).operandBatchingDims := List.mem_cons_self
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, h1⟩ =>
    have hb : (⟨1, h1⟩ : Fin 3) ∈ (axis2Dims B Q N T wf).operandBatchingDims := List.mem_cons_of_mem _ List.mem_cons_self
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨2, h2⟩ =>
    have hc : (⟨2, h2⟩ : Fin 3) ∈ (axis2Dims B Q N T wf).collapsedSliceDims := List.mem_singleton.mpr rfl
    have hm : (⟨2, h2⟩ : Fin 3) ∈ (axis2Dims B Q N T wf).startIndexMap := List.mem_singleton.mpr rfl
    have hnb : (⟨2, h2⟩ : Fin 3) ∉ (axis2Dims B Q N T wf).operandBatchingDims := by
      intro h
      rcases List.mem_cons.1 h with e | h'
      · exact absurd (congrArg Fin.val e) (show (2 : Nat) ≠ 0 by decide)
      · rcases List.mem_cons.1 h' with e | h''
        · exact absurd (congrArg Fin.val e) (show (2 : Nat) ≠ 1 by decide)
        · exact absurd h'' List.not_mem_nil
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (axis2Dims B Q N T wf).siIdx (ix3 b q t) ⟨List.idxOf (⟨2, h2⟩ : Fin 3) (axis2Dims B Q N T wf).startIndexMap,
        List.idxOf_lt_length_iff.2 hm⟩ = ix4 b q t (0 : Fin 1) := by
      funext c; refine Fin.ext ?_
      match c with
      | ⟨0, _⟩ => rfl
      | ⟨1, _⟩ => rfl
      | ⟨2, _⟩ => rfl
      | ⟨3, _⟩ => rfl
    rw [hsi]
    rfl

end Cert.Lib.GatherAxis2

end
-- ==== Proof.RefSoft.lean ====
/-
  The reference's class term, in two stages, each one function of arrays read at an entry.

  Stage A is the softmax of the sanitised logits: every logit has NaN, +∞ and −∞ replaced by 0; each row of 256 is shifted
  by its maximum (a maximum taken from −∞, and taken once more against −∞, which changes nothing), the exponential is
  applied, and each entry is divided by its row's sum of exponentials (a sum taken from 0).
  Stage D reads, for every query q and target t of a batch, the softmax column named by target t's label, and negates it:
  the labels are laid out over [64, 900, 200]; a negative position would be moved up by 256, positions outside [0, 255] would
  read a NaN fill; a label in [0, 256) is neither, so the entry is the softmax at (b, q, label), negated.
  Last, the sum over the 256 classes of probability times one-hot entry has one nonzero term, the label's, so 0 minus that
  sum is the negated probability of the label's class.
-/
import proofs.«424823_j58110907515474_1_alg».proof.ReferenceIdeal
import proofs.«424823_j58110907515474_1_alg».proof.Proof.Gen.ReferenceIdeal
import proofs.«424823_j58110907515474_1_alg».proof.Proof.Spec
import proofs.«424823_j58110907515474_1_alg».proof.Proof.LibGatherAxis2
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.Soft

open Cert.ReferenceIdeal Cert.ReferenceIdeal.Facts₀ Idealize.ShloMosaic Idealize.ShloMosaic.ValueIdx
open scoped BigOperators

/-! ## Stage A: the softmax of the sanitised logits -/

/-- The logits with NaN, +∞ and −∞ each replaced by 0: three selects in order. -/
def san (a0 : FVec Ideal S64x900x256 .f32) : FVec Ideal S64x900x256 .f32 :=
  have cst : FVec Ideal S_ .f32 := constant S_ .f32 0x00000000#32
  have cst_0 : FVec Ideal S_ .f32 := constant S_ .f32 0x00000000#32
  have cst_1 : FVec Ideal S_ .f32 := constant S_ .f32 0x00000000#32
  have n0 : IVec S64x900x256 1 := cmpf .une a0 a0
  have n1 : FVec Ideal S_ .f32 := id cst
  have w0 : FVec Ideal S64x900x256 .f32 := broadcastInDim S64x900x256 ![] bcast_S_S64x900x256 n1
  have n2 : FVec Ideal S64x900x256 .f32 := select n0 w0 a0
  have ncst : FVec Ideal S_ .f32 := constant S_ .f32 0x7F800000#32
  have n3 : FVec Ideal S64x900x256 .f32 := broadcastInDim S64x900x256 ![] bcast_S_S64x900x256 ncst
  have n4 : IVec S64x900x256 1 := cmpf .oeq n2 n3
  have n5 : FVec Ideal S_ .f32 := id cst_1
  have w1 : FVec Ideal S64x900x256 .f32 := broadcastInDim S64x900x256 ![] bcast_S_S64x900x256 n5
  have n6 : FVec Ideal S64x900x256 .f32 := select n4 w1 n2
  have ncst_0 : FVec Ideal S_ .f32 := constant S_ .f32 0xFF800000#32
  have n7 : FVec Ideal S64x900x256 .f32 := broadcastInDim S64x900x256 ![] bcast_S_S64x900x256 ncst_0
  have n8 : IVec S64x900x256 1 := cmpf .oeq n6 n7
  have n9 : FVec Ideal S_ .f32 := id cst_0
  have w2 : FVec Ideal S64x900x256 .f32 := broadcastInDim S64x900x256 ![] bcast_S_S64x900x256 n9
  select n8 w2 n6

/-- Each row's maximum, from −∞, then once more against −∞. -/
def rowMax (v0 : FVec Ideal S64x900x256 .f32) : FVec Ideal S64x900 .f32 :=
  have cst_2 : FVec Ideal S_ .f32 := constant S_ .f32 0xFF800000#32
  have v1 : FVec Ideal S64x900 .f32 := Host.reduce FloatOps.maximumf v0 cst_2 reducesTo_S64x900x256_S64x900_d2 h_S_
  have cst_3 : FVec Ideal S_ .f32 := constant S_ .f32 0xFF800000#32
  have v2 : FVec Ideal S64x900 .f32 := broadcastInDim S64x900 ![] bcast_S_S64x900 cst_3
  maximumf v2 v1

/-- The exponentials of the entries shifted by their row's maximum. -/
def expo (v0 : FVec Ideal S64x900x256 .f32) : FVec Ideal S64x900x256 .f32 :=
  have v3 : FVec Ideal S64x900 .f32 := rowMax v0
  have v4 : FVec Ideal S64x900x1 .f32 := broadcastInDim S64x900x1 ![0, 1] bcast_S64x900_S64x900x1_0_1 v3
  have v5 : FVec Ideal S64x900x256 .f32 := broadcastInDim S64x900x256 ![0, 1, 2] bcast_S64x900x1_S64x900x256_0_1_2 v4
  have v6 : FVec Ideal S64x900x256 .f32 := subf v0 v5
  Host.exp v6

/-- Stage A: the softmax of the sanitised logits. -/
def fA (a0 : FVec Ideal S64x900x256 .f32) : FVec Ideal S64x900x256 .f32 :=
  have v0 : FVec Ideal S64x900x256 .f32 := san a0
  have v7 : FVec Ideal S64x900x256 .f32 := expo v0
  have cst_4 : FVec Ideal S_ .f32 := constant S_ .f32 0x00000000#32
  have v8 : FVec Ideal S64x900 .f32 := Host.reduceAdd v7 cst_4 reducesTo_S64x900x256_S64x900_d2 h_S_
  have v9 : FVec Ideal S64x900x1 .f32 := broadcastInDim S64x900x1 ![0, 1] bcast_S64x900_S64x900x1_0_1 v8
  have v10 : FVec Ideal S64x900x256 .f32 := broadcastInDim S64x900x256 ![0, 1, 2] bcast_S64x900x1_S64x900x256_0_1_2 v9
  Host.divf v7 v10

/-- A sanitised logit is the three selects of the specification applied to the logit. -/
theorem san_apply (a0 : FVec Ideal S64x900x256 .f32) (i : S64x900x256.Idx) :
    san a0 i = Spec.nanToNum (Spec.lit 0x00000000#32) (Spec.lit 0x00000000#32) (Spec.lit 0x00000000#32) (a0 i) := by
  rw [← Spec.nanToNumU_eq]
  rfl

/-- The row (b, q) of a [64, 900] array with class c put back is (b, q, c). -/
private theorem lift_ix2 (h : S64x900x256.Reduces [2] S64x900) (b : Fin 64) (q : Fin 900) (k : Fin (S64x900x256.size 2)) :
    h.lift (ix2 b q) k = ix3 b q (⟨k.val, k.isLt⟩ : Fin 256) := by
  funext c; apply Fin.ext
  fin_cases c <;> rfl

/-- The maximum against −∞ is the identity. -/
private theorem max_negInf (y : EReal) : max (Ideal.ofBits .f32 0xFF800000#32) y = y := by
  simp [Ideal.ofBits, Ideal.ieee]

/-- A row's maximum is the fold of `max` from −∞ over its 256 entries. -/
theorem rowMax_apply (v0 : FVec Ideal S64x900x256 .f32) (b : Fin 64) (q : Fin 900) :
    rowMax v0 (ix2 b q)
      = (Finset.univ : Finset (Fin 256)).fold max (Spec.lit 0xFF800000#32) (fun c => v0 (ix3 b q c)) := by
  have hR : S64x900x256.Reduces [2] S64x900 := by decide
  simp only [rowMax]
  rw [maximumf_apply, broadcastInDim_apply _ _ _ (ix2 b q) ix0 (fun a => a.elim0), constant_apply, max_negInf]
  rw [Host.reduce_eq_fold_single FloatOps.maximumf v0 _ reducesTo_S64x900x256_S64x900_d2 hR h_S_]
  have hf : (v0 ∘ hR.lift (ix2 b q)) = fun k : Fin 256 => v0 (ix3 b q k) := funext fun k => congrArg v0 (lift_ix2 hR b q k)
  rw [hf, constant_apply]
  rfl
/-- An exponential is that of the entry less its row's maximum. -/
theorem expo_apply (v0 : FVec Ideal S64x900x256 .f32) (b : Fin 64) (q : Fin 900) (c : Fin 256) :
    expo v0 (ix3 b q c) = Ideal.exp (v0 (ix3 b q c) - rowMax v0 (ix2 b q)) := by
  simp only [expo, Host.exp, Ideal.hostUnary_exp_def, subf_apply]
  rw [broadcastInDim_apply _ _ _ (ix3 b q c) (ix3 b q (0 : Fin 1)) (fun a => by fin_cases a <;> rfl),
    broadcastInDim_apply _ _ _ (ix3 b q (0 : Fin 1)) (ix2 b q) (fun a => by fin_cases a <;> rfl)]
/-- Stage A at (b, q, c) is the specification's probability of class c for row q of batch b. -/
theorem fA_apply (a0 : FVec Ideal S64x900x256 .f32) (b : Fin 64) (q : Fin 900) (c : Fin 256) :
    fA a0 (ix3 b q c) = Spec.prob (fun q c => a0 (ix3 b q c)) q c := by
  have hR : S64x900x256.Reduces [2] S64x900 := by decide
  have hmax : rowMax (san a0) (ix2 b q) = Spec.rmax (fun q c => a0 (ix3 b q c)) q := by
    rw [rowMax_apply]
    unfold Spec.rmax Spec.slog
    exact congrArg (fun f => Finset.fold max (Spec.lit 0xFF800000#32) f (Finset.univ : Finset (Fin 256)))
      (funext fun c => san_apply a0 (ix3 b q c))
  have hex : ∀ c : Fin 256, expo (san a0) (ix3 b q c) = Spec.ex (fun q c => a0 (ix3 b q c)) q c := fun c => by
    rw [expo_apply, hmax, san_apply]; rfl
  have hsum : Host.reduceAdd (expo (san a0)) (constant (F := Ideal) S_ .f32 0x00000000#32) reducesTo_S64x900x256_S64x900_d2 h_S_ (ix2 b q)
      = Spec.rsum (fun q c => a0 (ix3 b q c)) q := by
    simp only [Host.reduceAdd, Ideal.hostReduceAdd_def, constant_apply]
    rw [Ideal.hostReduceAdd_single _ hR, Ideal.ofBits_zero_f32, zero_add]
    unfold Spec.rsum
    exact Finset.sum_congr rfl fun k _ => by rw [lift_ix2 hR b q k]; exact hex _
  simp only [fA, Host.divf, Ideal.hostDivf_def]
  rw [broadcastInDim_apply _ _ _ (ix3 b q c) (ix3 b q (0 : Fin 1)) (fun a => by fin_cases a <;> rfl),
    broadcastInDim_apply _ _ _ (ix3 b q (0 : Fin 1)) (ix2 b q) (fun a => by fin_cases a <;> rfl)]
  rw [hsum, hex]
  rfl

/-! ## Stage D: the label's column, negated -/

/-- The positions to read, over [64, 900, 200, 1]: target t's label at every query, moved up by 256 were it negative. -/
def labPos (lab : IVec S64x200 32) : IVec S64x900x200x1 32 :=
  have v50 : IVec S64x1x200 32 := broadcastInDim S64x1x200 ![0, 2] bcast_S64x200_S64x1x200_0_2 lab
  have v51 : IVec S64x900x200 32 := broadcastInDim S64x900x200 ![0, 1, 2] bcast_S64x1x200_S64x900x200_0_1_2 v50
  have c : IVec S_ 32 := constantI S_ 32 0#32
  have t0 : IVec S64x900x200 32 := broadcastInDim S64x900x200 ![] bcast_S_S64x900x200 c
  have t1 : IVec S64x900x200 1 := cmpi .slt v51 t0
  have c_0 : IVec S_ 32 := constantI S_ 32 256#32
  have t2 : IVec S64x900x200 32 := broadcastInDim S64x900x200 ![] bcast_S_S64x900x200 c_0
  have t3 : IVec S64x900x200 32 := addi v51 t2
  have t4 : IVec S64x900x200 32 := select t1 t3 v51
  shapeCast S64x900x200x1 t4 shapeCasts_S64x900x200_S64x900x200x1

/-- The mask of positions inside [0, 255], over [64, 900, 200]: both bounds tested, the two bits combined, and the
    conjunction taken along the trailing unit axis from the bit 1. -/
def inRange (t5 : IVec S64x900x200x1 32) : IVec S64x900x200 1 :=
  have c_1 : IVec S1 32 := constantI S1 32 255#32
  have c_2 : IVec S_ 32 := constantI S_ 32 0#32
  have t6 : IVec S64x900x200x1 32 := broadcastInDim S64x900x200x1 ![] bcast_S_S64x900x200x1 c_2
  have t7 : IVec S64x900x200x1 1 := cmpi .sge t5 t6
  have t8 : IVec S1x1x1x1 32 := broadcastInDim S1x1x1x1 ![3] bcast_S1_S1x1x1x1_3 c_1
  have t9 : IVec S64x900x200x1 32 := broadcastInDim S64x900x200x1 ![0, 1, 2, 3] bcast_S1x1x1x1_S64x900x200x1_0_1_2_3 t8
  have t10 : IVec S64x900x200x1 1 := cmpi .sle t5 t9
  have t11 : IVec S64x900x200x1 1 := andi t7 t10
  have c_3 : IVec S_ 1 := constantI S_ 1 1#1
  Host.reduce IntOp.andi t11 c_3 reducesTo_S64x900x200x1_S64x900x200_d3 h_S_

/-- Stage D: the softmax read along its class axis at the labels' positions (a NaN fill outside [0, 255]), negated. -/
def fD (p : FVec Ideal S64x900x256 .f32) (lab : IVec S64x200 32) : FVec Ideal S64x900x200 .f32 :=
  have t5 : IVec S64x900x200x1 32 := labPos lab
  have t12 : IVec S64x900x200 1 := inRange t5
  have t13 : FVec Ideal S64x900x200 .f32 := Host.gather gather_S64x900x256_S64x900x200x1_S64x900x200_n_2_01_01_2_3_111 p t5
  have cst : FVec Ideal S_ .f32 := constant S_ .f32 0x7FC00000#32
  have t14 : FVec Ideal S64x900x200 .f32 := broadcastInDim S64x900x200 ![] bcast_S_S64x900x200 cst
  have v52 : FVec Ideal S64x900x200 .f32 := select t12 t13 t14
  Host.negf v52

/-- A label in [0, 256) is not negative, so its position is the label itself. -/
private theorem pos_of_label (l : BitVec 32) (h : l.toNat < 256) :
    Scalar.select (IntOp.cmpi .slt l 0#32) (IntOp.addi l 256#32) l = l := by
  have hn : ¬ IntOp.cmpi .slt l 0#32 = 1#1 := fun e => by
    have := (StableHlo.Predicate.slt_iff_toNat (a := l) (b := 0#32) (by omega) (by decide)).1 e
    simp at this
  unfold Scalar.select
  exact if_neg hn

/-- A position in [0, 256) passes both bound tests. -/
private theorem inRange_of_label (l : BitVec 32) (h : l.toNat < 256) :
    IntOp.andi (IntOp.andi (IntOp.cmpi .sge l 0#32) (IntOp.cmpi .sle l 255#32)) 1#1 = 1#1 := by
  rw [(StableHlo.Predicate.sge_iff_toNat (a := l) (b := 0#32) (by omega) (by decide)).2 (by simp),
    (StableHlo.Predicate.sle_iff_toNat (a := l) (b := 255#32) (by omega) (by decide)).2
      (by show l.toNat ≤ 255; omega)]
  rfl

/-- The labels laid out over [64, 900, 200] read, at (b, q, t), target t's label in batch b. -/
private theorem bcastLab_apply (lab : IVec S64x200 32) (b : Fin 64) (q : Fin 900) (t : Fin 200) :
    broadcastInDim S64x900x200 ![0, 1, 2] bcast_S64x1x200_S64x900x200_0_1_2
        (broadcastInDim S64x1x200 ![0, 2] bcast_S64x200_S64x1x200_0_2 lab) (ix3 b q t) = lab (ix2 b t) := by
  rw [broadcastInDim_apply _ _ _ (ix3 b q t) (ix3 b (0 : Fin 1) t) (fun a => by fin_cases a <;> rfl),
    broadcastInDim_apply _ _ _ (ix3 b (0 : Fin 1) t) (ix2 b t) (fun a => by fin_cases a <;> rfl)]

/-- For labels in [0, 256) the position at (b, q, t, 0) is target t's label in batch b. -/
theorem labPos_apply (lab : IVec S64x200 32) (hlab : ∀ i, (lab i).toNat < 256) (b : Fin 64) (q : Fin 900) (t : Fin 200) :
    labPos lab (ix4 b q t (0 : Fin 1)) = lab (ix2 b t) := by
  simp only [labPos]
  rw [shapeCast_apply _ _ (ix4 b q t (0 : Fin 1)) (ix3 b q t) (by
    rw [Shape.rowMajor_val_four, Shape.rowMajor_val_three]
    show ((b.val * 900 + q.val) * 200 + t.val) = (((b.val * 900 + q.val) * 200 + t.val) * 1 + 0)
    omega)]
  rw [select_apply]
  simp only [cmpi, addi]
  rw [bcastLab_apply, broadcastInDim_apply _ _ _ (ix3 b q t) ix0 (fun a => a.elim0),
    broadcastInDim_apply _ _ _ (ix3 b q t) ix0 (fun a => a.elim0)]
  simp only [constantI]
  exact pos_of_label _ (hlab _)

/-- The query-target pair (b, q, t) with the unit coordinate put back is (b, q, t, 0). -/
private theorem lift_ix3 (h : S64x900x200x1.Reduces [3] S64x900x200) (b : Fin 64) (q : Fin 900) (t : Fin 200)
    (k : Fin (S64x900x200x1.size 3)) : h.lift (ix3 b q t) k = ix4 b q t (⟨k.val, k.isLt⟩ : Fin 1) := by
  funext c; apply Fin.ext
  fin_cases c <;> rfl

/-- A fold over the one-element range is one application. -/
private theorem fold_fin_one (f : Fin 1 → BitVec 1) (i : BitVec 1) :
    (Finset.univ : Finset (Fin 1)).fold IntOp.andi i f = IntOp.andi (f 0) i := by
  rw [show (Finset.univ : Finset (Fin 1)) = {0} from rfl, Finset.fold_singleton]

/-- Where the position at (b, q, t, 0) is in [0, 256) the mask at (b, q, t) is set. -/
theorem inRange_apply (t5 : IVec S64x900x200x1 32) (b : Fin 64) (q : Fin 900) (t : Fin 200)
    (h : (t5 (ix4 b q t (0 : Fin 1))).toNat < 256) : inRange t5 (ix3 b q t) = 1#1 := by
  have hR : S64x900x200x1.Reduces [3] S64x900x200 := by decide
  simp only [inRange]
  rw [Host.reduce_eq_fold_single IntOp.andi _ _ reducesTo_S64x900x200x1_S64x900x200_d3 hR h_S_]
  have hf : ((andi (cmpi .sge t5 (broadcastInDim S64x900x200x1 ![] bcast_S_S64x900x200x1 (constantI S_ 32 0#32)))
        (cmpi .sle t5 (broadcastInDim S64x900x200x1 ![0, 1, 2, 3] bcast_S1x1x1x1_S64x900x200x1_0_1_2_3
          (broadcastInDim S1x1x1x1 ![3] bcast_S1_S1x1x1x1_3 (constantI S1 32 255#32))))) ∘ hR.lift (ix3 b q t))
      = fun k : Fin 1 => IntOp.andi (IntOp.cmpi .sge (t5 (ix4 b q t k)) 0#32) (IntOp.cmpi .sle (t5 (ix4 b q t k)) 255#32) :=
    funext fun k => by
      show andi _ _ (hR.lift (ix3 b q t) k) = _
      rw [lift_ix3 hR b q t k]
      rfl
  rw [hf]
  refine (fold_fin_one _ _).trans ?_
  exact inRange_of_label _ h

/-- Stage D at (b, q, t), for labels in [0, 256): the softmax at (b, q, label of target t), negated. -/
theorem fD_apply (p : FVec Ideal S64x900x256 .f32) (lab : IVec S64x200 32) (hlab : ∀ i, (lab i).toNat < 256)
    (b : Fin 64) (q : Fin 900) (t : Fin 200) :
    fD p lab (ix3 b q t) = -(p (ix3 b q (⟨(lab (ix2 b t)).toNat, hlab _⟩ : Fin 256))) := by
  have hpos := labPos_apply lab hlab b q t
  simp only [fD, Host.negf, Ideal.hostNegf_def, Ideal.negf_def, select_apply]
  rw [inRange_apply _ b q t (by rw [hpos]; exact hlab _), select_one,
    show gather_S64x900x256_S64x900x200x1_S64x900x200_n_2_01_01_2_3_111
      = Cert.Lib.GatherAxis2.axis2Dims 64 900 256 200 gather_S64x900x256_S64x900x200x1_S64x900x200_n_2_01_01_2_3_111_wf from rfl,
    Cert.Lib.GatherAxis2.gather_axis2_apply (by decide) _ p _ b q t]
  refine congrArg (fun i : Fin 256 => -(p (ix3 b q i))) (Fin.ext ?_)
  show min (labPos lab (ix4 b q t (0 : Fin 1))).toInt.toNat (256 - 1) = (lab (ix2 b t)).toNat
  rw [hpos, StableHlo.Predicate.toInt_eq_toNat_of_lt (by have := hlab (ix2 b t); omega), Int.toNat_natCast]
  have := hlab (ix2 b t)
  omega

/-! ## The one-hot sum -/

/-- The one-hot entry of the label's own class is 1. -/
private theorem hot_self (l : BitVec 32) (h : l.toNat < 256) : Spec.hot ⟨l.toNat, h⟩ l = 1 := by
  have e : BitVec.ofNat 32 l.toNat = l := BitVec.eq_of_toNat_eq (by rw [BitVec.toNat_ofNat]; exact Nat.mod_eq_of_lt l.isLt)
  unfold Spec.hot
  rw [e, StableHlo.Predicate.cmpi_eq_iff.2 rfl]
  show (((((1#1 : BitVec 1).setWidth 32).toInt : ℝ)) : EReal) = 1
  rw [show ((1#1 : BitVec 1).setWidth 32).toInt = 1 from by decide]
  simp

/-- The one-hot entry of any other class is 0. -/
private theorem hot_ne (c : Fin 256) (l : BitVec 32) (hc : c.val ≠ l.toNat) : Spec.hot c l = 0 := by
  have hn : ¬ IntOp.cmpi .eq (BitVec.ofNat 32 c.val) l = 1#1 := fun e => hc (by
    have := congrArg BitVec.toNat (StableHlo.Predicate.cmpi_eq_iff.1 e)
    rw [BitVec.toNat_ofNat, Nat.mod_eq_of_lt (by have := c.isLt; omega)] at this
    exact this)
  unfold Spec.hot
  rw [eq_zero_of_ne_one hn]
  show (((((0#1 : BitVec 1).setWidth 32).toInt : ℝ)) : EReal) = 0
  rw [show ((0#1 : BitVec 1).setWidth 32).toInt = 0 from by decide]
  simp

/-- Zero less the sum over the classes of probability times one-hot entry is the negated probability of the label's
    class: the sum has one nonzero term. -/
theorem costClass_eq (P : Fin 256 → EReal) (l : BitVec 32) (h : l.toNat < 256) :
    Spec.lit 0x00000000#32 - ∑ c : Fin 256, P c * Spec.hot c l = -(P ⟨l.toNat, h⟩) := by
  rw [Finset.sum_eq_single (⟨l.toNat, h⟩ : Fin 256)
    (fun c _ hc => by rw [hot_ne c l (fun e => hc (Fin.ext e)), mul_zero])
    (fun hm => absurd (Finset.mem_univ _) hm),
    hot_self l h, mul_one]
  show Ideal.ofBits .f32 0x00000000#32 - P ⟨l.toNat, h⟩ = _
  rw [Ideal.ofBits_zero_f32, sub_eq_add_neg, zero_add]

end Cert.ReferenceIdeal.Soft

end
-- ==== Proof.RefSoftA.lean ====
/-
  The softmax stage is what the first stretch of the reference's operations leaves in the buffer the program names for
  it: folding the thirty-three operations over any buffer contents, the buffer of the probabilities holds the softmax of
  the sanitised logits found in the first argument's buffer.
-/
import proofs.«424823_j58110907515474_1_alg».proof.Proof.RefOps
import proofs.«424823_j58110907515474_1_alg».proof.Proof.RefSoft
import Idealize.ShloMosaic.Lib.StableHlo.Run

noncomputable section

namespace Cert.ReferenceIdeal.Soft

open Cert.ReferenceIdeal Cert.ReferenceIdeal.Facts₀ Idealize.ShloMosaic Idealize.ShloMosaic.TcCoe Idealize.SL.Sem

/-- After the operations of the first stretch the probabilities stand in the buffer the program names. -/
theorem after_segA (W : Valuation τ sig (Elt Ideal)) :
    StableHlo.after Ops.segA W (main_v11 : DevRef τ sig) = fA (W (main_arg0 : DevRef τ sig)) := by
  after_results_simp
  rfl

end Cert.ReferenceIdeal.Soft

end
-- ==== Proof.RefSoftD.lean ====
/-
  The class stage is what the fourth stretch of the reference's operations leaves in the buffer the program names for
  it: folding the twenty-five operations over any buffer contents, the buffer of the class costs holds the probabilities
  found in their buffer, read at the labels found in the third argument's buffer, negated.
-/
import proofs.«424823_j58110907515474_1_alg».proof.Proof.RefOps
import proofs.«424823_j58110907515474_1_alg».proof.Proof.RefSoft
import Idealize.ShloMosaic.Lib.StableHlo.Run

noncomputable section

namespace Cert.ReferenceIdeal.Soft

open Cert.ReferenceIdeal Cert.ReferenceIdeal.Facts₀ Idealize.ShloMosaic Idealize.ShloMosaic.TcCoe Idealize.SL.Sem

/-! ## The transport between a buffer's type and its value's type is the identity

The operations of the outlined callee read and write their buffers through the transport between the type a buffer has
in the signature and the type of the tensor value it holds.  The two types are equal, so a value written and read back is
the value; and at a buffer whose entry in the signature is that very type the transport is the identity. -/

/-- Contents moved to a buffer's own type and back are the contents: along an equation of types and along its inverse. -/
private theorem ofBuf_toBuf {T : BufTy} (x : StableHlo.TRef sig T) (v : T.Contents (Elt Ideal)) :
    x.ofBuf (x.toBuf v) = v := by
  obtain ⟨r, h, hd, hs⟩ := x
  subst h
  rfl

/-- The buffer of the labels laid out over [64, 900, 200] has the type of its value. -/
private theorem ofBuf_v51 (h hd hs) (u : main_v51.ty.Contents (Elt Ideal)) :
    (StableHlo.TRef.of (T := ⟨S64x900x200, .i32⟩) main_v51 h hd hs).ofBuf u = u := rfl

/-- The buffer of the probabilities has the type of its value. -/
private theorem ofBuf_v11 (h hd hs) (u : main_v11.ty.Contents (Elt Ideal)) :
    (StableHlo.TRef.of (T := ⟨S64x900x256, .f32⟩) main_v11 h hd hs).ofBuf u = u := rfl

/-- The buffer of the callee's result, which is the caller's buffer of %52, has the type of its value. -/
private theorem toBuf_v52 (h hd hs) (u : (⟨S64x900x200, .f32⟩ : BufTy).Contents (Elt Ideal)) :
    (StableHlo.TRef.of (T := ⟨S64x900x200, .f32⟩) main_v52 h hd hs).toBuf u = u := rfl

/-- The buffer of the positions over [64, 900, 200, 1] has the type of its value. -/
private theorem ofBuf_pos (h hd hs) (u : main_call11_v5.ty.Contents (Elt Ideal)) :
    (StableHlo.TRef.of (T := ⟨S64x900x200x1, .i32⟩) main_call11_v5 h hd hs).ofBuf u = u := rfl

/-- The buffer of the positions over [64, 900, 200], before the reshape, has the type of its value. -/
private theorem toBuf_pos (h hd hs) (u : (⟨S64x900x200, .i32⟩ : BufTy).Contents (Elt Ideal)) :
    (StableHlo.TRef.of (T := ⟨S64x900x200, .i32⟩) main_call11_v4 h hd hs).toBuf u = u := rfl

/-! ## The stretch -/

/-- After the operations of the fourth stretch the class costs stand in the buffer the program names. -/
theorem after_segD (W : Valuation τ sig (Elt Ideal)) :
    StableHlo.after Ops.segD W (main_v53 : DevRef τ sig)
      = fD (W (main_v11 : DevRef τ sig)) (W (main_arg2 : DevRef τ sig)) := by
  -- Each operation's result, read at its own buffer, is its function of its operands' contents, and at any other buffer
  -- what was there: the buffer of %53 holds the negation of the callee's last select, composed down to the two buffers
  -- the stretch reads.
  after_results_simp
  -- Every transport in that composition is the identity.
  simp only [ofBuf_toBuf, ofBuf_v51, ofBuf_v11, toBuf_v52, ofBuf_pos, toBuf_pos]
  -- The stage function is the same composition: its positions, named once there, written out at their three uses (the
  -- two range tests and the gather).
  simp only [fD, labPos, inRange]
  rfl

end Cert.ReferenceIdeal.Soft

end
-- ==== Proof.RefBox.lean ====
/-
  The two box arrays sanitised, and their pairwise L1 distance.

  A box entry is sanitised by three selects (the test for "not a number" never holds of an extended real; then +∞ is
  replaced by 1 and −∞ by 0); the four columns of the sanitised array are then taken apart (a transpose that brings the
  column axis to the front, a unit slice per column, the unit axis dropped), the centre columns clipped into [0, 1] and
  the extent columns into [ε, 1], and the four columns put back side by side. Read at (b, q, k) the result is column k
  of the sanitised box of row (b, q). The L1 distance of two such arrays at (b, q, t) is the sum over the four columns
  of the absolute differences, added from the left starting at zero.

  Each of the three arrays is also what the reference's operations of that stretch, folded over any buffer contents,
  leave in the buffer the program names for it.
-/
import proofs.«424823_j58110907515474_1_alg».proof.Proof.Gen.ReferenceIdeal
import proofs.«424823_j58110907515474_1_alg».proof.Proof.RefOps
import proofs.«424823_j58110907515474_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StableHlo.Run

noncomputable section

namespace Cert.ReferenceIdeal.Box

open Cert.ReferenceIdeal Cert.ReferenceIdeal.Facts₀ Idealize.ShloMosaic Idealize.ShloMosaic.ValueIdx Idealize.SL.Sem
open scoped BigOperators

/-! ## The callees as functions of arrays -/

/-- A scalar where the condition holds, the array elsewhere. -/
def whereV {s : Shape} (h : S_.BroadcastsInDim s (![] : Fin 0 → Fin s.rank)) (arg0 : IVec s 1) (arg1 : FVec Ideal S_ .f32)
    (arg2 : FVec Ideal s .f32) : FVec Ideal s .f32 :=
  have v0 : FVec Ideal s .f32 := broadcastInDim s ![] h arg1
  select arg0 v0 arg2

/-- The three selects: not-a-number replaced by `arg1`, then +∞ by `arg3`, then −∞ by `arg2`. -/
def nanToNumV {s : Shape} (h : S_.BroadcastsInDim s (![] : Fin 0 → Fin s.rank)) (arg0 : FVec Ideal s .f32)
    (arg1 arg2 arg3 : FVec Ideal S_ .f32) : FVec Ideal s .f32 :=
  have v0 : IVec s 1 := cmpf .une arg0 arg0
  have v1 : FVec Ideal S_ .f32 := id arg1
  have v2 : FVec Ideal s .f32 := whereV h v0 v1 arg0
  have cst : FVec Ideal S_ .f32 := constant S_ .f32 0x7F800000#32
  have v3 : FVec Ideal s .f32 := broadcastInDim s ![] h cst
  have v4 : IVec s 1 := cmpf .oeq v2 v3
  have v5 : FVec Ideal S_ .f32 := id arg3
  have v6 : FVec Ideal s .f32 := whereV h v4 v5 v2
  have cst_0 : FVec Ideal S_ .f32 := constant S_ .f32 0xFF800000#32
  have v7 : FVec Ideal s .f32 := broadcastInDim s ![] h cst_0
  have v8 : IVec s 1 := cmpf .oeq v6 v7
  have v9 : FVec Ideal S_ .f32 := id arg2
  whereV h v8 v9 v6

/-- Clipping: the larger of the array and the lower bound, then the smaller of that and the upper bound. -/
def clipV {s : Shape} (h : S_.BroadcastsInDim s (![] : Fin 0 → Fin s.rank)) (arg0 : FVec Ideal s .f32)
    (arg1 arg2 : FVec Ideal S_ .f32) : FVec Ideal s .f32 :=
  have v0 : FVec Ideal S_ .f32 := id arg1
  have v1 : FVec Ideal s .f32 := broadcastInDim s ![] h v0
  have v2 : FVec Ideal s .f32 := maximumf v1 arg0
  have v3 : FVec Ideal S_ .f32 := id arg2
  have v4 : FVec Ideal s .f32 := broadcastInDim s ![] h v3
  minimumf v4 v2

/-! ## The three stages -/

/-- The predicted boxes with +∞ replaced by 1 and −∞ by 0. -/
def sanB (a1 : FVec Ideal S64x900x4 .f32) : FVec Ideal S64x900x4 .f32 :=
  have cst_5 : FVec Ideal S_ .f32 := constant S_ .f32 0x00000000#32
  have cst_6 : FVec Ideal S_ .f32 := constant S_ .f32 0x00000000#32
  have cst_7 : FVec Ideal S_ .f32 := constant S_ .f32 0x3F800000#32
  nanToNumV bcast_S_S64x900x4 a1 cst_5 cst_6 cst_7

/-- Column `o` of a sanitised array clipped into [lo, hi], as an array with a trailing unit axis: the column axis brought
    to the front, the unit slice at `o`, the unit axis dropped, the clip, the unit axis put back last. -/
def colB (o : Nat) (hsl : S4x64x900.Slices ![o, 0, 0] S1x64x900) (lo hi : BitVec 32) (x : FVec Ideal S64x900x4 .f32) :
    FVec Ideal S64x900x1 .f32 :=
  have t : FVec Ideal S4x64x900 .f32 := transpose S4x64x900 [2, 0, 1] x transposes_S64x900x4_S4x64x900_2_0_1
  have s : FVec Ideal S1x64x900 .f32 := extractStridedSlice S1x64x900 ![o, 0, 0] t hsl
  have r : FVec Ideal S64x900 .f32 := shapeCast S64x900 s shapeCasts_S1x64x900_S64x900
  have clo : FVec Ideal S_ .f32 := constant S_ .f32 lo
  have chi : FVec Ideal S_ .f32 := constant S_ .f32 hi
  have c : FVec Ideal S64x900 .f32 := clipV bcast_S_S64x900 r clo chi
  broadcastInDim S64x900x1 ![0, 1] bcast_S64x900_S64x900x1_0_1 c

/-- The predicted boxes sanitised: the four clipped columns side by side. -/
def fB (a1 : FVec Ideal S64x900x4 .f32) : FVec Ideal S64x900x4 .f32 :=
  have x : FVec Ideal S64x900x4 .f32 := sanB a1
  concatenate S64x900x4 2
    [⟨S64x900x1, colB 0 slices_S4x64x900_S1x64x900_0_0_0 0x00000000#32 0x3F800000#32 x⟩,
     ⟨S64x900x1, colB 1 slices_S4x64x900_S1x64x900_1_0_0 0x00000000#32 0x3F800000#32 x⟩,
     ⟨S64x900x1, colB 2 slices_S4x64x900_S1x64x900_2_0_0 0x358637BD#32 0x3F800000#32 x⟩,
     ⟨S64x900x1, colB 3 slices_S4x64x900_S1x64x900_3_0_0 0x358637BD#32 0x3F800000#32 x⟩]
    concatenates_S64x900x1_S64x900x1_S64x900x1_S64x900x1_S64x900x4_d2

/-- The target boxes with +∞ replaced by 1 and −∞ by 0. -/
def sanC (a3 : FVec Ideal S64x200x4 .f32) : FVec Ideal S64x200x4 .f32 :=
  have cst_16 : FVec Ideal S_ .f32 := constant S_ .f32 0x00000000#32
  have cst_17 : FVec Ideal S_ .f32 := constant S_ .f32 0x00000000#32
  have cst_18 : FVec Ideal S_ .f32 := constant S_ .f32 0x3F800000#32
  nanToNumV bcast_S_S64x200x4 a3 cst_16 cst_17 cst_18

/-- Column `o` of a sanitised array clipped into [lo, hi], as an array with a trailing unit axis: the column axis brought
    to the front, the unit slice at `o`, the unit axis dropped, the clip, the unit axis put back last. -/
def colC (o : Nat) (hsl : S4x64x200.Slices ![o, 0, 0] S1x64x200) (lo hi : BitVec 32) (x : FVec Ideal S64x200x4 .f32) :
    FVec Ideal S64x200x1 .f32 :=
  have t : FVec Ideal S4x64x200 .f32 := transpose S4x64x200 [2, 0, 1] x transposes_S64x200x4_S4x64x200_2_0_1
  have s : FVec Ideal S1x64x200 .f32 := extractStridedSlice S1x64x200 ![o, 0, 0] t hsl
  have r : FVec Ideal S64x200 .f32 := shapeCast S64x200 s shapeCasts_S1x64x200_S64x200
  have clo : FVec Ideal S_ .f32 := constant S_ .f32 lo
  have chi : FVec Ideal S_ .f32 := constant S_ .f32 hi
  have c : FVec Ideal S64x200 .f32 := clipV bcast_S_S64x200 r clo chi
  broadcastInDim S64x200x1 ![0, 1] bcast_S64x200_S64x200x1_0_1 c

/-- The target boxes sanitised: the four clipped columns side by side. -/
def fC (a3 : FVec Ideal S64x200x4 .f32) : FVec Ideal S64x200x4 .f32 :=
  have x : FVec Ideal S64x200x4 .f32 := sanC a3
  concatenate S64x200x4 2
    [⟨S64x200x1, colC 0 slices_S4x64x200_S1x64x200_0_0_0 0x00000000#32 0x3F800000#32 x⟩,
     ⟨S64x200x1, colC 1 slices_S4x64x200_S1x64x200_1_0_0 0x00000000#32 0x3F800000#32 x⟩,
     ⟨S64x200x1, colC 2 slices_S4x64x200_S1x64x200_2_0_0 0x358637BD#32 0x3F800000#32 x⟩,
     ⟨S64x200x1, colC 3 slices_S4x64x200_S1x64x200_3_0_0 0x358637BD#32 0x3F800000#32 x⟩]
    concatenates_S64x200x1_S64x200x1_S64x200x1_S64x200x1_S64x200x4_d2

/-- The L1 distance of every predicted box to every target box of its batch. -/
def fE (ob : FVec Ideal S64x900x4 .f32) (tbx : FVec Ideal S64x200x4 .f32) : FVec Ideal S64x900x200 .f32 :=
  have v54 : FVec Ideal S64x900x1x4 .f32 := broadcastInDim S64x900x1x4 ![0, 1, 3] bcast_S64x900x4_S64x900x1x4_0_1_3 ob
  have v55 : FVec Ideal S64x1x200x4 .f32 := broadcastInDim S64x1x200x4 ![0, 2, 3] bcast_S64x200x4_S64x1x200x4_0_2_3 tbx
  have v56 : FVec Ideal S64x900x200x4 .f32 := broadcastInDim S64x900x200x4 ![0, 1, 2, 3] bcast_S64x900x1x4_S64x900x200x4_0_1_2_3 v54
  have v57 : FVec Ideal S64x900x200x4 .f32 := broadcastInDim S64x900x200x4 ![0, 1, 2, 3] bcast_S64x1x200x4_S64x900x200x4_0_1_2_3 v55
  have v58 : FVec Ideal S64x900x200x4 .f32 := subf v56 v57
  have v59 : FVec Ideal S64x900x200x4 .f32 := Host.absf v58
  have cst_27 : FVec Ideal S_ .f32 := constant S_ .f32 0x00000000#32
  Host.reduceAdd v59 cst_27 reducesTo_S64x900x200x4_S64x900x200_d3 h_S_

/-! ## The callees read at an index -/

/-- The test "unordered or not equal" of an extended real against itself is the test "ordered and not equal". -/
private theorem nanToNumU_eq (a p n x : EReal) : Spec.nanToNumU a p n x = Spec.nanToNum a p n x := rfl

/-- The three selects at an index are the scalar three selects of the entry. -/
theorem nanToNumV_apply {s : Shape} (h : S_.BroadcastsInDim s (![] : Fin 0 → Fin s.rank)) (x : FVec Ideal s .f32)
    (a n p : BitVec 32) (i : s.Idx) :
    nanToNumV h x (constant S_ .f32 a) (constant S_ .f32 n) (constant S_ .f32 p) i
      = Spec.nanToNum (Spec.lit a) (Spec.lit p) (Spec.lit n) (x i) := by
  rw [← nanToNumU_eq]
  unfold nanToNumV whereV Spec.nanToNumU
  simp only [select_apply, cmpf_apply, broadcastInDim_scalar_apply, constant_apply, id_eq]
  rfl

/-- Clipping at an index clips the entry. -/
theorem clipV_apply {s : Shape} (h : S_.BroadcastsInDim s (![] : Fin 0 → Fin s.rank)) (x : FVec Ideal s .f32)
    (lo hi : BitVec 32) (i : s.Idx) :
    clipV h x (constant S_ .f32 lo) (constant S_ .f32 hi) i = Spec.clip (Spec.lit lo) (Spec.lit hi) (x i) := by
  unfold clipV Spec.clip
  simp only [minimumf_apply, maximumf_apply, broadcastInDim_scalar_apply, constant_apply, id_eq]

/-! ## The layout operations read at an index -/

section Layout
variable {α : Type} {n : Nat}

/-- Column `o` of a [64, n, 4] array, taken by bringing the column axis to the front, cutting the unit slice at `o` and
    dropping the unit axis, reads at (b, q) the array at (b, q, o). -/
theorem column_apply (o : Nat) (ho : o < 4) (X : (⟨3, ![64, n, 4]⟩ : Shape).Idx → α)
    (htr : (⟨3, ![64, n, 4]⟩ : Shape).Transposes [2, 0, 1] ⟨3, ![4, 64, n]⟩)
    (hsl : (⟨3, ![4, 64, n]⟩ : Shape).Slices ![o, 0, 0] ⟨3, ![1, 64, n]⟩)
    (hsc : (⟨3, ![1, 64, n]⟩ : Shape).ShapeCasts ⟨2, ![64, n]⟩) (b : Fin 64) (q : Fin n) :
    shapeCast ⟨2, ![64, n]⟩ (extractStridedSlice ⟨3, ![1, 64, n]⟩ ![o, 0, 0] (transpose ⟨3, ![4, 64, n]⟩ [2, 0, 1] X htr) hsl) hsc
        (ix2 b q)
      = X (ix3 b q (⟨o, ho⟩ : Fin 4)) := by
  rw [shapeCast_1ab_ab_apply]
  refine (extractStridedSlice_apply _ _ hsl _ (ix3 (⟨o, ho⟩ : Fin 4) b q) fun ax => ?_).trans ?_
  · match ax with
    | ⟨0, _⟩ => rfl
    | ⟨1, _⟩ => exact (Nat.zero_add _).symm
    | ⟨2, _⟩ => exact (Nat.zero_add _).symm
  · exact transpose_apply _ X htr _ (ix3 b q (⟨o, ho⟩ : Fin 4)) fun c =>
      match c with | ⟨0, _⟩ => rfl | ⟨1, _⟩ => rfl | ⟨2, _⟩ => rfl

/-- A [64, n] array given a trailing unit axis reads at (b, q, 0) the array at (b, q). -/
theorem unitAxis_apply (x : (⟨2, ![64, n]⟩ : Shape).Idx → α)
    (h : (⟨2, ![64, n]⟩ : Shape).BroadcastsInDim ⟨3, ![64, n, 1]⟩ (![0, 1] : Fin 2 → Fin 3)) (b : Fin 64) (q : Fin n) (u : Fin 1) :
    broadcastInDim ⟨3, ![64, n, 1]⟩ ![0, 1] h x (ix3 b q u) = x (ix2 b q) := by
  refine broadcastInDim_apply _ h x _ (ix2 b q) fun ax => ?_
  match ax with
  | ⟨0, _⟩ => rfl
  | ⟨1, _⟩ =>
    show q.val = if n = 1 then 0 else q.val
    split
    · have := q.isLt; omega
    · rfl

/-- One of four by its position. -/
@[reducible] def pick4 {β : Type} (y0 y1 y2 y3 : β) : Fin 4 → β
  | ⟨0, _⟩ => y0
  | ⟨1, _⟩ => y1
  | ⟨2, _⟩ => y2
  | ⟨3, _⟩ => y3

/-- Four unit-width columns put side by side read at (b, q, k) column `k` at (b, q, 0). -/
theorem columns_apply (x0 x1 x2 x3 : (⟨3, ![64, n, 1]⟩ : Shape).Idx → α)
    (h : Shape.Concatenates [⟨3, ![64, n, 1]⟩, ⟨3, ![64, n, 1]⟩, ⟨3, ![64, n, 1]⟩, ⟨3, ![64, n, 1]⟩] ⟨3, ![64, n, 4]⟩ 2)
    (b : Fin 64) (q : Fin n) (k : Fin 4) :
    concatenate ⟨3, ![64, n, 4]⟩ 2 [⟨⟨3, ![64, n, 1]⟩, x0⟩, ⟨⟨3, ![64, n, 1]⟩, x1⟩, ⟨⟨3, ![64, n, 1]⟩, x2⟩, ⟨⟨3, ![64, n, 1]⟩, x3⟩] h (ix3 b q k)
      = pick4 x0 x1 x2 x3 k (ix3 b q (0 : Fin 1)) := by
  have hi : ∀ c : Fin 3, c.cast (rfl : (3 : Nat) = 3) ≠ (2 : Fin 3) →
      ((ix3 b q (0 : Fin 1) : (⟨3, ![64, n, 1]⟩ : Shape).Idx) c).val = ((ix3 b q k : (⟨3, ![64, n, 4]⟩ : Shape).Idx) (c.cast rfl)).val := fun c =>
    match c with
    | ⟨0, _⟩ => fun _ => rfl
    | ⟨1, _⟩ => fun _ => rfl
    | ⟨2, _⟩ => fun hc => absurd rfl hc
  match k with
  | ⟨0, _⟩ =>
    exact concatenate_apply_piece 2 [⟨⟨3, ![64, n, 1]⟩, x0⟩, ⟨⟨3, ![64, n, 1]⟩, x1⟩, ⟨⟨3, ![64, n, 1]⟩, x2⟩, ⟨⟨3, ![64, n, 1]⟩, x3⟩] h _
      0 (by simp) _ x0 rfl rfl 0 rfl _ hi rfl
  | ⟨1, _⟩ =>
    exact concatenate_apply_piece 2 [⟨⟨3, ![64, n, 1]⟩, x0⟩, ⟨⟨3, ![64, n, 1]⟩, x1⟩, ⟨⟨3, ![64, n, 1]⟩, x2⟩, ⟨⟨3, ![64, n, 1]⟩, x3⟩] h _
      1 (by simp) _ x1 rfl rfl 1 rfl _ hi rfl
  | ⟨2, _⟩ =>
    exact concatenate_apply_piece 2 [⟨⟨3, ![64, n, 1]⟩, x0⟩, ⟨⟨3, ![64, n, 1]⟩, x1⟩, ⟨⟨3, ![64, n, 1]⟩, x2⟩, ⟨⟨3, ![64, n, 1]⟩, x3⟩] h _
      2 (by simp) _ x2 rfl rfl 2 rfl _ hi rfl
  | ⟨3, _⟩ =>
    exact concatenate_apply_piece 2 [⟨⟨3, ![64, n, 1]⟩, x0⟩, ⟨⟨3, ![64, n, 1]⟩, x1⟩, ⟨⟨3, ![64, n, 1]⟩, x2⟩, ⟨⟨3, ![64, n, 1]⟩, x3⟩] h _
      3 (by simp) _ x3 rfl rfl 3 rfl _ hi rfl

end Layout

/-! ## The two sanitised arrays read at an index -/

theorem fB_apply (a1 : FVec Ideal S64x900x4 .f32) (b : Fin 64) (q : Fin 900) (k : Fin 4) :
    fB a1 (ix3 b q k) = Spec.sanBox (fun k => a1 (ix3 b q k)) k := by
  unfold fB colB sanB
  dsimp only
  rw [columns_apply]
  match k with
  | ⟨0, _⟩ =>
    dsimp only [pick4]
    rw [unitAxis_apply, clipV_apply, column_apply 0 (by decide), nanToNumV_apply]
    rfl
  | ⟨1, _⟩ =>
    dsimp only [pick4]
    rw [unitAxis_apply, clipV_apply, column_apply 1 (by decide), nanToNumV_apply]
    rfl
  | ⟨2, _⟩ =>
    dsimp only [pick4]
    rw [unitAxis_apply, clipV_apply, column_apply 2 (by decide), nanToNumV_apply]
    rfl
  | ⟨3, _⟩ =>
    dsimp only [pick4]
    rw [unitAxis_apply, clipV_apply, column_apply 3 (by decide), nanToNumV_apply]
    rfl

theorem fC_apply (a3 : FVec Ideal S64x200x4 .f32) (b : Fin 64) (t : Fin 200) (k : Fin 4) :
    fC a3 (ix3 b t k) = Spec.sanBox (fun k => a3 (ix3 b t k)) k := by
  unfold fC colC sanC
  dsimp only
  rw [columns_apply]
  match k with
  | ⟨0, _⟩ =>
    dsimp only [pick4]
    rw [unitAxis_apply, clipV_apply, column_apply 0 (by decide), nanToNumV_apply]
    rfl
  | ⟨1, _⟩ =>
    dsimp only [pick4]
    rw [unitAxis_apply, clipV_apply, column_apply 1 (by decide), nanToNumV_apply]
    rfl
  | ⟨2, _⟩ =>
    dsimp only [pick4]
    rw [unitAxis_apply, clipV_apply, column_apply 2 (by decide), nanToNumV_apply]
    rfl
  | ⟨3, _⟩ =>
    dsimp only [pick4]
    rw [unitAxis_apply, clipV_apply, column_apply 3 (by decide), nanToNumV_apply]
    rfl

/-! ## The L1 stage read at an index -/

/-- The predicted boxes laid over the target axis read at (b, q, t, k) the box of row (b, q) at k. -/
private theorem overTargets_apply (ob : FVec Ideal S64x900x4 .f32) (b : Fin 64) (q : Fin 900) (t : Fin 200) (k : Fin 4) :
    broadcastInDim S64x900x200x4 ![0, 1, 2, 3] bcast_S64x900x1x4_S64x900x200x4_0_1_2_3
        (broadcastInDim S64x900x1x4 ![0, 1, 3] bcast_S64x900x4_S64x900x1x4_0_1_3 ob) (ix4 b q t k)
      = ob (ix3 b q k) := by
  refine (broadcastInDim_apply _ _ _ _ (ix4 b q (0 : Fin 1) k) fun ax => ?_).trans
    (broadcastInDim_apply _ _ _ _ (ix3 b q k) fun ax => ?_)
  · match ax with
    | ⟨0, _⟩ => rfl
    | ⟨1, _⟩ => rfl
    | ⟨2, _⟩ => rfl
    | ⟨3, _⟩ => rfl
  · match ax with
    | ⟨0, _⟩ => rfl
    | ⟨1, _⟩ => rfl
    | ⟨2, _⟩ => rfl

/-- The target boxes laid over the query axis read at (b, q, t, k) the box of row (b, t) at k. -/
private theorem overQueries_apply (tbx : FVec Ideal S64x200x4 .f32) (b : Fin 64) (q : Fin 900) (t : Fin 200) (k : Fin 4) :
    broadcastInDim S64x900x200x4 ![0, 1, 2, 3] bcast_S64x1x200x4_S64x900x200x4_0_1_2_3
        (broadcastInDim S64x1x200x4 ![0, 2, 3] bcast_S64x200x4_S64x1x200x4_0_2_3 tbx) (ix4 b q t k)
      = tbx (ix3 b t k) := by
  refine (broadcastInDim_apply _ _ _ _ (ix4 b (0 : Fin 1) t k) fun ax => ?_).trans
    (broadcastInDim_apply _ _ _ _ (ix3 b t k) fun ax => ?_)
  · match ax with
    | ⟨0, _⟩ => rfl
    | ⟨1, _⟩ => rfl
    | ⟨2, _⟩ => rfl
    | ⟨3, _⟩ => rfl
  · match ax with
    | ⟨0, _⟩ => rfl
    | ⟨1, _⟩ => rfl
    | ⟨2, _⟩ => rfl

private theorem reduces_d3 : S64x900x200x4.Reduces [3] S64x900x200 := by decide

/-- The index (b, q, t) with the column coordinate put back in last place. -/
private theorem lift_d3 (b : Fin 64) (q : Fin 900) (t : Fin 200) (k : Fin 4) :
    reduces_d3.lift (ix3 b q t) k = ix4 b q t k := by
  funext c
  match c with
  | ⟨0, _⟩ => exact Fin.ext rfl
  | ⟨1, _⟩ => exact Fin.ext rfl
  | ⟨2, _⟩ => exact Fin.ext rfl
  | ⟨3, _⟩ => exact Fin.ext rfl

/-- The absolute value of an array at an index is the absolute value of the entry. -/
private theorem hostAbsf_apply {s : Shape} (x : FVec Ideal s .f32) (i : s.Idx) : Host.absf x i = Spec.absE (x i) := rfl

theorem fE_apply (ob : FVec Ideal S64x900x4 .f32) (tbx : FVec Ideal S64x200x4 .f32) (b : Fin 64) (q : Fin 900) (t : Fin 200) :
    fE ob tbx (ix3 b q t) = Spec.l1 (fun k => ob (ix3 b q k)) (fun k => tbx (ix3 b t k)) := by
  unfold fE
  dsimp only
  rw [hostReduceAdd_apply, Ideal.hostReduceAdd_single _ reduces_d3]
  show _ + ∑ k : Fin 4, _ = _
  rw [Fin.sum_univ_four, constant_apply, Ideal.ofBits_zero_f32, zero_add]
  simp only [lift_d3, hostAbsf_apply, subf_apply]
  rw [overTargets_apply, overTargets_apply, overTargets_apply, overTargets_apply,
    overQueries_apply, overQueries_apply, overQueries_apply, overQueries_apply]
  rfl

/-! ## The stages are what the program's operations leave in its buffers -/

/-- Each operation's result read at its own buffer is its function of its operands' contents, and at any other buffer what
    was there. -/
local macro "results" : tactic =>
  `(tactic| (simp (disch := decide) only [StableHlo.after_cons, StableHlo.after_nil, List.take_succ_cons, List.take_zero, Ops.segB, Ops.segC, Ops.segE,
      Ops.lineB, Ops.lineC, Ops.lineE,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne', StableHlo.nary_result_ne']))

private theorem takeB_0 (W : Valuation τ sig (Elt Ideal)) :
    StableHlo.after (List.take 64 Ops.segB) W (Proc.devRef .tc main_v26)
      = colB 0 slices_S4x64x900_S1x64x900_0_0_0 0x00000000#32 0x3F800000#32 (sanB (W (Proc.devRef .tc main_arg1))) := by
  results
  rfl

private theorem takeB_1 (W : Valuation τ sig (Elt Ideal)) :
    StableHlo.after (List.take 64 Ops.segB) W (Proc.devRef .tc main_v27)
      = colB 1 slices_S4x64x900_S1x64x900_1_0_0 0x00000000#32 0x3F800000#32 (sanB (W (Proc.devRef .tc main_arg1))) := by
  results
  rfl

private theorem takeB_2 (W : Valuation τ sig (Elt Ideal)) :
    StableHlo.after (List.take 64 Ops.segB) W (Proc.devRef .tc main_v28)
      = colB 2 slices_S4x64x900_S1x64x900_2_0_0 0x358637BD#32 0x3F800000#32 (sanB (W (Proc.devRef .tc main_arg1))) := by
  results
  rfl

private theorem takeB_3 (W : Valuation τ sig (Elt Ideal)) :
    StableHlo.after (List.take 64 Ops.segB) W (Proc.devRef .tc main_v29)
      = colB 3 slices_S4x64x900_S1x64x900_3_0_0 0x358637BD#32 0x3F800000#32 (sanB (W (Proc.devRef .tc main_arg1))) := by
  results
  rfl

/-- After the operations of this stretch the sanitised predicted boxes stand in the buffer the program names. -/
theorem after_segB (W : Valuation τ sig (Elt Ideal)) :
    StableHlo.after Ops.segB W (Proc.devRef .tc main_v30) = fB (W (Proc.devRef .tc main_arg1)) := by
  have hd : List.drop 64 Ops.segB = [_] := rfl
  rw [← List.take_append_drop 64 Ops.segB, Ops.after_append, hd, StableHlo.after_cons, StableHlo.after_nil, StableHlo.nary4_result,
    takeB_0, takeB_1, takeB_2, takeB_3]
  rfl

private theorem takeC_0 (W : Valuation τ sig (Elt Ideal)) :
    StableHlo.after (List.take 64 Ops.segC) W (Proc.devRef .tc main_v45)
      = colC 0 slices_S4x64x200_S1x64x200_0_0_0 0x00000000#32 0x3F800000#32 (sanC (W (Proc.devRef .tc main_arg3))) := by
  results
  rfl

private theorem takeC_1 (W : Valuation τ sig (Elt Ideal)) :
    StableHlo.after (List.take 64 Ops.segC) W (Proc.devRef .tc main_v46)
      = colC 1 slices_S4x64x200_S1x64x200_1_0_0 0x00000000#32 0x3F800000#32 (sanC (W (Proc.devRef .tc main_arg3))) := by
  results
  rfl

private theorem takeC_2 (W : Valuation τ sig (Elt Ideal)) :
    StableHlo.after (List.take 64 Ops.segC) W (Proc.devRef .tc main_v47)
      = colC 2 slices_S4x64x200_S1x64x200_2_0_0 0x358637BD#32 0x3F800000#32 (sanC (W (Proc.devRef .tc main_arg3))) := by
  results
  rfl

private theorem takeC_3 (W : Valuation τ sig (Elt Ideal)) :
    StableHlo.after (List.take 64 Ops.segC) W (Proc.devRef .tc main_v48)
      = colC 3 slices_S4x64x200_S1x64x200_3_0_0 0x358637BD#32 0x3F800000#32 (sanC (W (Proc.devRef .tc main_arg3))) := by
  results
  rfl

/-- After the operations of this stretch the sanitised target boxes stand in the buffer the program names. -/
theorem after_segC (W : Valuation τ sig (Elt Ideal)) :
    StableHlo.after Ops.segC W (Proc.devRef .tc main_v49) = fC (W (Proc.devRef .tc main_arg3)) := by
  have hd : List.drop 64 Ops.segC = [_] := rfl
  rw [← List.take_append_drop 64 Ops.segC, Ops.after_append, hd, StableHlo.after_cons, StableHlo.after_nil, StableHlo.nary4_result,
    takeC_0, takeC_1, takeC_2, takeC_3]
  rfl

/-- After the operations of this stretch the L1 distances stand in the buffer the program names. -/
theorem after_segE (W : Valuation τ sig (Elt Ideal)) :
    StableHlo.after Ops.segE W (Proc.devRef .tc main_v60)
      = fE (W (Proc.devRef .tc main_v30)) (W (Proc.devRef .tc main_v49)) := by
  results
  rfl

end Cert.ReferenceIdeal.Box

end
-- ==== Proof.RefCorner.lean ====
/-
  The corner form of a sanitised (cx, cy, w, h) box array, as the reference computes it, and the weighted sum of the
  three costs with its sanitising.
-/
import proofs.«424823_j58110907515474_1_alg».proof.Proof.Gen.ReferenceIdeal
import proofs.«424823_j58110907515474_1_alg».proof.Proof.Spec
import proofs.«424823_j58110907515474_1_alg».proof.Proof.RefOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Corner

open Cert.ReferenceIdeal Cert.ReferenceIdeal.Gen Idealize.ShloMosaic Idealize.ShloMosaic.ValueIdx

/-! ### Layout operations of the segment read at an index -/

section Reads
variable {α : Type} {B N : ℕ}

/-- The transpose that brings the box axis to the front reads, at (c, b, q), the operand at (b, q, c). -/
theorem transpose_201_apply (x : (⟨3, ![B, N, 4]⟩ : Shape).Idx → α)
    (h : (⟨3, ![B, N, 4]⟩ : Shape).Transposes [2, 0, 1] ⟨3, ![4, B, N]⟩) (c : Fin 4) (b : Fin B) (q : Fin N) :
    transpose ⟨3, ![4, B, N]⟩ [2, 0, 1] x h (ix3 c b q) = x (ix3 b q c) :=
  transpose_apply _ x h _ _ fun a => match a with | ⟨0, _⟩ => rfl | ⟨1, _⟩ => rfl | ⟨2, _⟩ => rfl

/-- One plane of the leading axis, cut out as a [1, B, N] array. -/
theorem plane_apply (o : ℕ) (x : (⟨3, ![4, B, N]⟩ : Shape).Idx → α)
    (h : (⟨3, ![4, B, N]⟩ : Shape).Slices ![o, 0, 0] ⟨3, ![1, B, N]⟩) (c : Fin 4) (hc : c.val = o) (b : Fin B) (q : Fin N) :
    extractStridedSlice ⟨3, ![1, B, N]⟩ ![o, 0, 0] x h (ix3 (0 : Fin 1) b q) = x (ix3 c b q) :=
  extractStridedSlice_apply _ _ _ _ _ fun a => by
    match a with
    | ⟨0, _⟩ => exact hc.trans (Nat.add_zero o).symm
    | ⟨1, _⟩ => exact (Nat.zero_add _).symm
    | ⟨2, _⟩ => exact (Nat.zero_add _).symm

/-- A [B, N] array given a trailing unit axis reads, at (b, q, z), the operand at (b, q). -/
theorem addLast_apply (hB : B ≠ 1) (hN : N ≠ 1) (x : (⟨2, ![B, N]⟩ : Shape).Idx → α)
    (h : (⟨2, ![B, N]⟩ : Shape).BroadcastsInDim ⟨3, ![B, N, 1]⟩ (![0, 1] : Fin 2 → Fin 3)) (b : Fin B) (q : Fin N) (z : Fin 1) :
    broadcastInDim ⟨3, ![B, N, 1]⟩ (![0, 1] : Fin 2 → Fin 3) h x (ix3 b q z) = x (ix2 b q) :=
  broadcastInDim_apply _ h x _ _ fun a => by
    match a with
    | ⟨0, _⟩ => exact (if_neg hB).symm
    | ⟨1, _⟩ => exact (if_neg hN).symm

/-- Four [B, N, 1] arrays laid side by side along the last axis: column k of the result is the k-th array. -/
theorem concat4_apply (x0 x1 x2 x3 : (⟨3, ![B, N, 1]⟩ : Shape).Idx → α)
    (h : Shape.Concatenates [⟨3, ![B, N, 1]⟩, ⟨3, ![B, N, 1]⟩, ⟨3, ![B, N, 1]⟩, ⟨3, ![B, N, 1]⟩] ⟨3, ![B, N, 4]⟩ 2)
    (b : Fin B) (q : Fin N) (k : Fin 4) :
    concatenate ⟨3, ![B, N, 4]⟩ 2 [⟨⟨3, ![B, N, 1]⟩, x0⟩, ⟨⟨3, ![B, N, 1]⟩, x1⟩, ⟨⟨3, ![B, N, 1]⟩, x2⟩, ⟨⟨3, ![B, N, 1]⟩, x3⟩] h (ix3 b q k)
      = (![x0, x1, x2, x3] k) (ix3 b q (0 : Fin 1)) := by
  have hi : ∀ a : Fin 3, a.cast rfl ≠ (2 : Fin 3) →
      ((ix3 b q (0 : Fin 1) : (⟨3, ![B, N, 1]⟩ : Shape).Idx) a).val = ((ix3 b q k : (⟨3, ![B, N, 4]⟩ : Shape).Idx) (a.cast rfl)).val := fun a ha => by
    match a with
    | ⟨0, _⟩ => rfl
    | ⟨1, _⟩ => rfl
    | ⟨2, _⟩ => exact absurd rfl ha
  fin_cases k
  · exact concatenate_apply_piece (t := ⟨3, ![B, N, 4]⟩) (2 : Fin 3)
      [⟨⟨3, ![B, N, 1]⟩, x0⟩, ⟨⟨3, ![B, N, 1]⟩, x1⟩, ⟨⟨3, ![B, N, 1]⟩, x2⟩, ⟨⟨3, ![B, N, 1]⟩, x3⟩]
      h _ 0 (by simp) _ x0 rfl rfl 0 rfl _ hi rfl
  · exact concatenate_apply_piece (t := ⟨3, ![B, N, 4]⟩) (2 : Fin 3)
      [⟨⟨3, ![B, N, 1]⟩, x0⟩, ⟨⟨3, ![B, N, 1]⟩, x1⟩, ⟨⟨3, ![B, N, 1]⟩, x2⟩, ⟨⟨3, ![B, N, 1]⟩, x3⟩]
      h _ 1 (by simp) _ x1 rfl rfl 1 rfl _ hi rfl
  · exact concatenate_apply_piece (t := ⟨3, ![B, N, 4]⟩) (2 : Fin 3)
      [⟨⟨3, ![B, N, 1]⟩, x0⟩, ⟨⟨3, ![B, N, 1]⟩, x1⟩, ⟨⟨3, ![B, N, 1]⟩, x2⟩, ⟨⟨3, ![B, N, 1]⟩, x3⟩]
      h _ 2 (by simp) _ x2 rfl rfl 2 rfl _ hi rfl
  · exact concatenate_apply_piece (t := ⟨3, ![B, N, 4]⟩) (2 : Fin 3)
      [⟨⟨3, ![B, N, 1]⟩, x0⟩, ⟨⟨3, ![B, N, 1]⟩, x1⟩, ⟨⟨3, ![B, N, 1]⟩, x2⟩, ⟨⟨3, ![B, N, 1]⟩, x3⟩]
      h _ 3 (by simp) _ x3 rfl rfl 3 rfl _ hi rfl

/-- Coordinate c of every box, as the [B, N] array the reference extracts: transposed to the front, one plane cut out, the
    unit axis dropped. -/
theorem coord_apply (o : ℕ) (x : (⟨3, ![B, N, 4]⟩ : Shape).Idx → α)
    (h1 : (⟨3, ![B, N, 4]⟩ : Shape).Transposes [2, 0, 1] ⟨3, ![4, B, N]⟩)
    (h2 : (⟨3, ![4, B, N]⟩ : Shape).Slices ![o, 0, 0] ⟨3, ![1, B, N]⟩)
    (h3 : (⟨3, ![1, B, N]⟩ : Shape).ShapeCasts ⟨2, ![B, N]⟩) (c : Fin 4) (hc : c.val = o) (b : Fin B) (q : Fin N) :
    shapeCast ⟨2, ![B, N]⟩ (extractStridedSlice ⟨3, ![1, B, N]⟩ ![o, 0, 0] (transpose ⟨3, ![4, B, N]⟩ [2, 0, 1] x h1) h2) h3 (ix2 b q)
      = x (ix3 b q c) := by
  rw [shapeCast_1ab_ab_apply, plane_apply o _ h2 c hc, transpose_201_apply]

/-- A scalar constant spread over an array is the constant's number everywhere. -/
theorem splat_apply {s : Shape} (w : BitVec 32) (h : S_.BroadcastsInDim s (![] : Fin 0 → Fin s.rank)) (j : s.Idx) :
    broadcastInDim s ![] h (constant (F := Ideal) S_ .f32 w) j = Spec.lit w := rfl

/-- A low corner, as the reference computes it: coordinate c less w times coordinate e, given a trailing unit axis. -/
theorem lo_apply (hB : B ≠ 1) (hN : N ≠ 1) (w : BitVec 32) (oc oe : ℕ) (x : (⟨3, ![B, N, 4]⟩ : Shape).Idx → EReal)
    (h1 : (⟨3, ![B, N, 4]⟩ : Shape).Transposes [2, 0, 1] ⟨3, ![4, B, N]⟩)
    (hc : (⟨3, ![4, B, N]⟩ : Shape).Slices ![oc, 0, 0] ⟨3, ![1, B, N]⟩)
    (he : (⟨3, ![4, B, N]⟩ : Shape).Slices ![oe, 0, 0] ⟨3, ![1, B, N]⟩)
    (h3 : (⟨3, ![1, B, N]⟩ : Shape).ShapeCasts ⟨2, ![B, N]⟩)
    (h4 : S_.BroadcastsInDim ⟨2, ![B, N]⟩ (![] : Fin 0 → Fin 2))
    (h5 : (⟨2, ![B, N]⟩ : Shape).BroadcastsInDim ⟨3, ![B, N, 1]⟩ (![0, 1] : Fin 2 → Fin 3))
    (c e : Fin 4) (hcv : c.val = oc) (hev : e.val = oe) (b : Fin B) (q : Fin N) (z : Fin 1) :
    broadcastInDim ⟨3, ![B, N, 1]⟩ (![0, 1] : Fin 2 → Fin 3) h5
        (subf (F := Ideal) (φ := .f32)
          (shapeCast ⟨2, ![B, N]⟩ (extractStridedSlice ⟨3, ![1, B, N]⟩ ![oc, 0, 0] (transpose ⟨3, ![4, B, N]⟩ [2, 0, 1] x h1) hc) h3)
          (mulf (broadcastInDim ⟨2, ![B, N]⟩ ![] h4 (constant (F := Ideal) S_ .f32 w))
            (shapeCast ⟨2, ![B, N]⟩ (extractStridedSlice ⟨3, ![1, B, N]⟩ ![oe, 0, 0] (transpose ⟨3, ![4, B, N]⟩ [2, 0, 1] x h1) he) h3)))
        (ix3 b q z)
      = x (ix3 b q c) - Spec.lit w * x (ix3 b q e) := by
  rw [addLast_apply hB hN, subf_apply, mulf_apply, coord_apply oc x h1 hc h3 c hcv, coord_apply oe x h1 he h3 e hev, splat_apply]

/-- A high corner: coordinate c plus w times coordinate e. -/
theorem hi_apply (hB : B ≠ 1) (hN : N ≠ 1) (w : BitVec 32) (oc oe : ℕ) (x : (⟨3, ![B, N, 4]⟩ : Shape).Idx → EReal)
    (h1 : (⟨3, ![B, N, 4]⟩ : Shape).Transposes [2, 0, 1] ⟨3, ![4, B, N]⟩)
    (hc : (⟨3, ![4, B, N]⟩ : Shape).Slices ![oc, 0, 0] ⟨3, ![1, B, N]⟩)
    (he : (⟨3, ![4, B, N]⟩ : Shape).Slices ![oe, 0, 0] ⟨3, ![1, B, N]⟩)
    (h3 : (⟨3, ![1, B, N]⟩ : Shape).ShapeCasts ⟨2, ![B, N]⟩)
    (h4 : S_.BroadcastsInDim ⟨2, ![B, N]⟩ (![] : Fin 0 → Fin 2))
    (h5 : (⟨2, ![B, N]⟩ : Shape).BroadcastsInDim ⟨3, ![B, N, 1]⟩ (![0, 1] : Fin 2 → Fin 3))
    (c e : Fin 4) (hcv : c.val = oc) (hev : e.val = oe) (b : Fin B) (q : Fin N) (z : Fin 1) :
    broadcastInDim ⟨3, ![B, N, 1]⟩ (![0, 1] : Fin 2 → Fin 3) h5
        (addf (F := Ideal) (φ := .f32)
          (shapeCast ⟨2, ![B, N]⟩ (extractStridedSlice ⟨3, ![1, B, N]⟩ ![oc, 0, 0] (transpose ⟨3, ![4, B, N]⟩ [2, 0, 1] x h1) hc) h3)
          (mulf (broadcastInDim ⟨2, ![B, N]⟩ ![] h4 (constant (F := Ideal) S_ .f32 w))
            (shapeCast ⟨2, ![B, N]⟩ (extractStridedSlice ⟨3, ![1, B, N]⟩ ![oe, 0, 0] (transpose ⟨3, ![4, B, N]⟩ [2, 0, 1] x h1) he) h3)))
        (ix3 b q z)
      = x (ix3 b q c) + Spec.lit w * x (ix3 b q e) := by
  rw [addLast_apply hB hN, addf_apply, mulf_apply, coord_apply oc x h1 hc h3 c hcv, coord_apply oe x h1 he h3 e hev, splat_apply]

end Reads

/-! ### The corner form

From a box array in (cx, cy, w, h) form the reference brings the box axis to the front, takes the four coordinate planes,
forms centre ∓ 0.5 · extent on each, and lays the four results side by side along a new last axis. -/

/-- The corner form of the predicted boxes. -/
def fF1 (ob : FVec Ideal S64x900x4 .f32) : FVec Ideal S64x900x4 .f32 :=
  have v61 : FVec Ideal S4x64x900 .f32 := transpose S4x64x900 [2, 0, 1] ob transposes_S64x900x4_S4x64x900_2_0_1
  have v62 : FVec Ideal S1x64x900 .f32 := extractStridedSlice S1x64x900 ![0, 0, 0] v61 slices_S4x64x900_S1x64x900_0_0_0
  have v63 : FVec Ideal S64x900 .f32 := shapeCast S64x900 v62 shapeCasts_S1x64x900_S64x900
  have v64 : FVec Ideal S1x64x900 .f32 := extractStridedSlice S1x64x900 ![1, 0, 0] v61 slices_S4x64x900_S1x64x900_1_0_0
  have v65 : FVec Ideal S64x900 .f32 := shapeCast S64x900 v64 shapeCasts_S1x64x900_S64x900
  have v66 : FVec Ideal S1x64x900 .f32 := extractStridedSlice S1x64x900 ![2, 0, 0] v61 slices_S4x64x900_S1x64x900_2_0_0
  have v67 : FVec Ideal S64x900 .f32 := shapeCast S64x900 v66 shapeCasts_S1x64x900_S64x900
  have v68 : FVec Ideal S1x64x900 .f32 := extractStridedSlice S1x64x900 ![3, 0, 0] v61 slices_S4x64x900_S1x64x900_3_0_0
  have v69 : FVec Ideal S64x900 .f32 := shapeCast S64x900 v68 shapeCasts_S1x64x900_S64x900
  have cst_28 : FVec Ideal S_ .f32 := constant S_ .f32 0x3F000000#32
  have v70 : FVec Ideal S64x900 .f32 := broadcastInDim S64x900 ![] bcast_S_S64x900 cst_28
  have v71 : FVec Ideal S64x900 .f32 := mulf v70 v67
  have v72 : FVec Ideal S64x900 .f32 := subf v63 v71
  have cst_29 : FVec Ideal S_ .f32 := constant S_ .f32 0x3F000000#32
  have v73 : FVec Ideal S64x900 .f32 := broadcastInDim S64x900 ![] bcast_S_S64x900 cst_29
  have v74 : FVec Ideal S64x900 .f32 := mulf v73 v69
  have v75 : FVec Ideal S64x900 .f32 := subf v65 v74
  have cst_30 : FVec Ideal S_ .f32 := constant S_ .f32 0x3F000000#32
  have v76 : FVec Ideal S64x900 .f32 := broadcastInDim S64x900 ![] bcast_S_S64x900 cst_30
  have v77 : FVec Ideal S64x900 .f32 := mulf v76 v67
  have v78 : FVec Ideal S64x900 .f32 := addf v63 v77
  have cst_31 : FVec Ideal S_ .f32 := constant S_ .f32 0x3F000000#32
  have v79 : FVec Ideal S64x900 .f32 := broadcastInDim S64x900 ![] bcast_S_S64x900 cst_31
  have v80 : FVec Ideal S64x900 .f32 := mulf v79 v69
  have v81 : FVec Ideal S64x900 .f32 := addf v65 v80
  have v82 : FVec Ideal S64x900x1 .f32 := broadcastInDim S64x900x1 ![0, 1] bcast_S64x900_S64x900x1_0_1 v72
  have v83 : FVec Ideal S64x900x1 .f32 := broadcastInDim S64x900x1 ![0, 1] bcast_S64x900_S64x900x1_0_1 v75
  have v84 : FVec Ideal S64x900x1 .f32 := broadcastInDim S64x900x1 ![0, 1] bcast_S64x900_S64x900x1_0_1 v78
  have v85 : FVec Ideal S64x900x1 .f32 := broadcastInDim S64x900x1 ![0, 1] bcast_S64x900_S64x900x1_0_1 v81
  concatenate S64x900x4 2 [⟨S64x900x1, v82⟩, ⟨S64x900x1, v83⟩, ⟨S64x900x1, v84⟩, ⟨S64x900x1, v85⟩]
    concatenates_S64x900x1_S64x900x1_S64x900x1_S64x900x1_S64x900x4_d2

theorem fF1_apply (ob : FVec Ideal S64x900x4 .f32) (b : Fin 64) (q : Fin 900) (k : Fin 4) :
    fF1 ob (ix3 b q k) = Spec.corners (fun k => ob (ix3 b q k)) k := by
  unfold fF1
  refine (concat4_apply _ _ _ _ _ b q k).trans ?_
  fin_cases k
  · exact lo_apply (by decide) (by decide) _ 0 2 ob transposes_S64x900x4_S4x64x900_2_0_1 slices_S4x64x900_S1x64x900_0_0_0
      slices_S4x64x900_S1x64x900_2_0_0 shapeCasts_S1x64x900_S64x900 bcast_S_S64x900 bcast_S64x900_S64x900x1_0_1 0 2 rfl rfl b q 0
  · exact lo_apply (by decide) (by decide) _ 1 3 ob transposes_S64x900x4_S4x64x900_2_0_1 slices_S4x64x900_S1x64x900_1_0_0
      slices_S4x64x900_S1x64x900_3_0_0 shapeCasts_S1x64x900_S64x900 bcast_S_S64x900 bcast_S64x900_S64x900x1_0_1 1 3 rfl rfl b q 0
  · exact hi_apply (by decide) (by decide) _ 0 2 ob transposes_S64x900x4_S4x64x900_2_0_1 slices_S4x64x900_S1x64x900_0_0_0
      slices_S4x64x900_S1x64x900_2_0_0 shapeCasts_S1x64x900_S64x900 bcast_S_S64x900 bcast_S64x900_S64x900x1_0_1 0 2 rfl rfl b q 0
  · exact hi_apply (by decide) (by decide) _ 1 3 ob transposes_S64x900x4_S4x64x900_2_0_1 slices_S4x64x900_S1x64x900_1_0_0
      slices_S4x64x900_S1x64x900_3_0_0 shapeCasts_S1x64x900_S64x900 bcast_S_S64x900 bcast_S64x900_S64x900x1_0_1 1 3 rfl rfl b q 0

/-- The corner form of the target boxes. -/
def fF2 (tbx : FVec Ideal S64x200x4 .f32) : FVec Ideal S64x200x4 .f32 :=
  have v87 : FVec Ideal S4x64x200 .f32 := transpose S4x64x200 [2, 0, 1] tbx transposes_S64x200x4_S4x64x200_2_0_1
  have v88 : FVec Ideal S1x64x200 .f32 := extractStridedSlice S1x64x200 ![0, 0, 0] v87 slices_S4x64x200_S1x64x200_0_0_0
  have v89 : FVec Ideal S64x200 .f32 := shapeCast S64x200 v88 shapeCasts_S1x64x200_S64x200
  have v90 : FVec Ideal S1x64x200 .f32 := extractStridedSlice S1x64x200 ![1, 0, 0] v87 slices_S4x64x200_S1x64x200_1_0_0
  have v91 : FVec Ideal S64x200 .f32 := shapeCast S64x200 v90 shapeCasts_S1x64x200_S64x200
  have v92 : FVec Ideal S1x64x200 .f32 := extractStridedSlice S1x64x200 ![2, 0, 0] v87 slices_S4x64x200_S1x64x200_2_0_0
  have v93 : FVec Ideal S64x200 .f32 := shapeCast S64x200 v92 shapeCasts_S1x64x200_S64x200
  have v94 : FVec Ideal S1x64x200 .f32 := extractStridedSlice S1x64x200 ![3, 0, 0] v87 slices_S4x64x200_S1x64x200_3_0_0
  have v95 : FVec Ideal S64x200 .f32 := shapeCast S64x200 v94 shapeCasts_S1x64x200_S64x200
  have cst_32 : FVec Ideal S_ .f32 := constant S_ .f32 0x3F000000#32
  have v96 : FVec Ideal S64x200 .f32 := broadcastInDim S64x200 ![] bcast_S_S64x200 cst_32
  have v97 : FVec Ideal S64x200 .f32 := mulf v96 v93
  have v98 : FVec Ideal S64x200 .f32 := subf v89 v97
  have cst_33 : FVec Ideal S_ .f32 := constant S_ .f32 0x3F000000#32
  have v99 : FVec Ideal S64x200 .f32 := broadcastInDim S64x200 ![] bcast_S_S64x200 cst_33
  have v100 : FVec Ideal S64x200 .f32 := mulf v99 v95
  have v101 : FVec Ideal S64x200 .f32 := subf v91 v100
  have cst_34 : FVec Ideal S_ .f32 := constant S_ .f32 0x3F000000#32
  have v102 : FVec Ideal S64x200 .f32 := broadcastInDim S64x200 ![] bcast_S_S64x200 cst_34
  have v103 : FVec Ideal S64x200 .f32 := mulf v102 v93
  have v104 : FVec Ideal S64x200 .f32 := addf v89 v103
  have cst_35 : FVec Ideal S_ .f32 := constant S_ .f32 0x3F000000#32
  have v105 : FVec Ideal S64x200 .f32 := broadcastInDim S64x200 ![] bcast_S_S64x200 cst_35
  have v106 : FVec Ideal S64x200 .f32 := mulf v105 v95
  have v107 : FVec Ideal S64x200 .f32 := addf v91 v106
  have v108 : FVec Ideal S64x200x1 .f32 := broadcastInDim S64x200x1 ![0, 1] bcast_S64x200_S64x200x1_0_1 v98
  have v109 : FVec Ideal S64x200x1 .f32 := broadcastInDim S64x200x1 ![0, 1] bcast_S64x200_S64x200x1_0_1 v101
  have v110 : FVec Ideal S64x200x1 .f32 := broadcastInDim S64x200x1 ![0, 1] bcast_S64x200_S64x200x1_0_1 v104
  have v111 : FVec Ideal S64x200x1 .f32 := broadcastInDim S64x200x1 ![0, 1] bcast_S64x200_S64x200x1_0_1 v107
  concatenate S64x200x4 2 [⟨S64x200x1, v108⟩, ⟨S64x200x1, v109⟩, ⟨S64x200x1, v110⟩, ⟨S64x200x1, v111⟩]
    concatenates_S64x200x1_S64x200x1_S64x200x1_S64x200x1_S64x200x4_d2

theorem fF2_apply (tbx : FVec Ideal S64x200x4 .f32) (b : Fin 64) (t : Fin 200) (k : Fin 4) :
    fF2 tbx (ix3 b t k) = Spec.corners (fun k => tbx (ix3 b t k)) k := by
  unfold fF2
  refine (concat4_apply _ _ _ _ _ b t k).trans ?_
  fin_cases k
  · exact lo_apply (by decide) (by decide) _ 0 2 tbx transposes_S64x200x4_S4x64x200_2_0_1 slices_S4x64x200_S1x64x200_0_0_0
      slices_S4x64x200_S1x64x200_2_0_0 shapeCasts_S1x64x200_S64x200 bcast_S_S64x200 bcast_S64x200_S64x200x1_0_1 0 2 rfl rfl b t 0
  · exact lo_apply (by decide) (by decide) _ 1 3 tbx transposes_S64x200x4_S4x64x200_2_0_1 slices_S4x64x200_S1x64x200_1_0_0
      slices_S4x64x200_S1x64x200_3_0_0 shapeCasts_S1x64x200_S64x200 bcast_S_S64x200 bcast_S64x200_S64x200x1_0_1 1 3 rfl rfl b t 0
  · exact hi_apply (by decide) (by decide) _ 0 2 tbx transposes_S64x200x4_S4x64x200_2_0_1 slices_S4x64x200_S1x64x200_0_0_0
      slices_S4x64x200_S1x64x200_2_0_0 shapeCasts_S1x64x200_S64x200 bcast_S_S64x200 bcast_S64x200_S64x200x1_0_1 0 2 rfl rfl b t 0
  · exact hi_apply (by decide) (by decide) _ 1 3 tbx transposes_S64x200x4_S4x64x200_2_0_1 slices_S4x64x200_S1x64x200_1_0_0
      slices_S4x64x200_S1x64x200_3_0_0 shapeCasts_S1x64x200_S64x200 bcast_S_S64x200 bcast_S64x200_S64x200x1_0_1 1 3 rfl rfl b t 0

/-! ### The weighted sum, sanitised

1 · class + 5 · box + 2 · giou, each weight a scalar constant spread over the array, then NaN, +∞ and −∞ each replaced
by 10⁶: the "not a number" test is spelt "unordered or not equal", which on the extended reals is the ordered test. -/

/-- The weighted sum of the three cost arrays, sanitised. -/
def fH (cc cb cg : FVec Ideal S64x900x200 .f32) : FVec Ideal S64x900x200 .f32 :=
  have cst_38 : FVec Ideal S_ .f32 := constant S_ .f32 0x3F800000#32
  have v188 : FVec Ideal S64x900x200 .f32 := broadcastInDim S64x900x200 ![] bcast_S_S64x900x200 cst_38
  have v189 : FVec Ideal S64x900x200 .f32 := mulf v188 cc
  have cst_39 : FVec Ideal S_ .f32 := constant S_ .f32 0x40A00000#32
  have v190 : FVec Ideal S64x900x200 .f32 := broadcastInDim S64x900x200 ![] bcast_S_S64x900x200 cst_39
  have v191 : FVec Ideal S64x900x200 .f32 := mulf v190 cb
  have v192 : FVec Ideal S64x900x200 .f32 := addf v189 v191
  have cst_40 : FVec Ideal S_ .f32 := constant S_ .f32 0x40000000#32
  have v193 : FVec Ideal S64x900x200 .f32 := broadcastInDim S64x900x200 ![] bcast_S_S64x900x200 cst_40
  have v194 : FVec Ideal S64x900x200 .f32 := mulf v193 cg
  have v195 : FVec Ideal S64x900x200 .f32 := addf v192 v194
  have cst_41 : FVec Ideal S_ .f32 := constant S_ .f32 0x49742400#32
  have cst_42 : FVec Ideal S_ .f32 := constant S_ .f32 0x49742400#32
  have cst_43 : FVec Ideal S_ .f32 := constant S_ .f32 0x49742400#32
  -- the sanitising: a test for "not a number", then for +∞, then for −∞, each followed by a select against a spread constant
  have n_v0 : IVec S64x900x200 1 := cmpf .une v195 v195
  have n_v1 : FVec Ideal S_ .f32 := id cst_41
  have w0_v0 : FVec Ideal S64x900x200 .f32 := broadcastInDim S64x900x200 ![] bcast_S_S64x900x200 n_v1
  have n_v2 : FVec Ideal S64x900x200 .f32 := select n_v0 w0_v0 v195
  have n_cst : FVec Ideal S_ .f32 := constant S_ .f32 0x7F800000#32
  have n_v3 : FVec Ideal S64x900x200 .f32 := broadcastInDim S64x900x200 ![] bcast_S_S64x900x200 n_cst
  have n_v4 : IVec S64x900x200 1 := cmpf .oeq n_v2 n_v3
  have n_v5 : FVec Ideal S_ .f32 := id cst_43
  have w1_v0 : FVec Ideal S64x900x200 .f32 := broadcastInDim S64x900x200 ![] bcast_S_S64x900x200 n_v5
  have n_v6 : FVec Ideal S64x900x200 .f32 := select n_v4 w1_v0 n_v2
  have n_cst_0 : FVec Ideal S_ .f32 := constant S_ .f32 0xFF800000#32
  have n_v7 : FVec Ideal S64x900x200 .f32 := broadcastInDim S64x900x200 ![] bcast_S_S64x900x200 n_cst_0
  have n_v8 : IVec S64x900x200 1 := cmpf .oeq n_v6 n_v7
  have n_v9 : FVec Ideal S_ .f32 := id cst_42
  have w2_v0 : FVec Ideal S64x900x200 .f32 := broadcastInDim S64x900x200 ![] bcast_S_S64x900x200 n_v9
  select n_v8 w2_v0 n_v6

theorem fH_apply (cc cb cg : FVec Ideal S64x900x200 .f32) (i : S64x900x200.Idx) :
    fH cc cb cg i = Spec.nanToNum (Spec.lit 0x49742400#32) (Spec.lit 0x49742400#32) (Spec.lit 0x49742400#32)
      ((Spec.lit 0x3F800000#32 * cc i + Spec.lit 0x40A00000#32 * cb i) + Spec.lit 0x40000000#32 * cg i) := by
  rw [← Spec.nanToNumU_eq]
  rfl

/-! ### The segments' results are these functions of what they read

Folding a segment's operations over any contents of the buffers, the result buffer holds the stage function of the
contents of the buffers the segment reads: each operation's result is its printed function of its operands' contents, and
the stage function is those printed functions composed in the same order. -/

section After
open Idealize.ShloMosaic.TcCoe Idealize.SL.Sem

/-- After the corner-form segment, the predicted boxes' corner array is fF1 of the sanitised predicted boxes. -/
theorem after_segF_v86 (W : Valuation τ sig (Elt Ideal)) :
    StableHlo.after Ops.segF W (main_v86 : DevRef τ sig) = fF1 (W (main_v30 : DevRef τ sig)) := by
  after_results_simp
  rfl

/-- After the corner-form segment, the target boxes' corner array is fF2 of the sanitised target boxes. -/
theorem after_segF_v112 (W : Valuation τ sig (Elt Ideal)) :
    StableHlo.after Ops.segF W (main_v112 : DevRef τ sig) = fF2 (W (main_v49 : DevRef τ sig)) := by
  after_results_simp
  rfl

/-- After the last segment, the result array is fH of the class, box and GIoU cost arrays. -/
theorem after_segH (W : Valuation τ sig (Elt Ideal)) :
    StableHlo.after Ops.segH W (main_v196 : DevRef τ sig)
      = fH (W (main_v53 : DevRef τ sig)) (W (main_v60 : DevRef τ sig)) (W (main_v187 : DevRef τ sig)) := by
  after_results_simp
  rfl

end After

end Cert.ReferenceIdeal.Corner

end
-- ==== Proof.RefGiou.lean ====
/-
  The generalised IoU cost of the reference, entry by entry.

  From the two corner-form arrays (x_lo, y_lo, x_hi, y_hi) of the predicted boxes [64, 900, 4] and the target boxes
  [64, 200, 4] the reference forms, for each batch b, query q and target t:
    • the two areas (x_hi − x_lo) · (y_hi − y_lo);
    • the intersection: the pairs (x_lo, y_lo) and (x_hi, y_hi) of both boxes spread over [64, 900, 200, 2], the larger
      of the low corners taken from the smaller of the high corners, each side clipped at 0, the two sides multiplied;
    • the union: the sum of the areas less the intersection; the IoU: intersection over union;
    • the enclosing box: the smaller of the low corners taken from the larger of the high corners, clipped, multiplied;
    • IoU − (enclosing − union) / enclosing, negated.
  Every operation is pointwise or a re-indexing (a slice, a reshape that drops a trailing unit axis, a broadcast along
  a new axis), so the array read at (b, q, t) is the scalar formula of the two boxes' four numbers.
-/
import proofs.«424823_j58110907515474_1_alg».proof.ReferenceIdeal
import proofs.«424823_j58110907515474_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«424823_j58110907515474_1_alg».proof.Proof.RefOps

noncomputable section

namespace Cert.ReferenceIdeal.Giou

open Cert.ReferenceIdeal Idealize.ShloMosaic Idealize.ShloMosaic.ValueIdx
open Facts₀ Facts

/-! ## Re-indexings read at an index given by coordinates -/

section Layout
variable {α : Type}

/-- A coordinate below n is 0 when n = 1. -/
theorem val_eq_ite_one {n : Nat} (a : Fin n) : a.val = if n = 1 then 0 else a.val := by
  split
  · have := a.isLt; omega
  · rfl

/-- A rank-3 array cut along its last axis from o reads, at (a, b, j), the source at (a, b, o + j). -/
theorem slice3_axis2_eq {n0 n1 n2 m : Nat} (o : Nat) (X : (⟨3, ![n0, n1, n2]⟩ : Shape).Idx → α)
    (h : (⟨3, ![n0, n1, n2]⟩ : Shape).Slices ![0, 0, o] ⟨3, ![n0, n1, m]⟩) (a : Fin n0) (b : Fin n1) (j : Fin m) :
    extractStridedSlice ⟨3, ![n0, n1, m]⟩ ![0, 0, o] X h (ix3 a b j)
      = X (ix3 a b ⟨o + j.val, Nat.lt_of_lt_of_le (Nat.add_lt_add_left j.isLt o) (h.2 2)⟩) :=
  extractStridedSlice_apply _ _ _ _ _ (fun ax => by
    match ax with
    | ⟨0, _⟩ => exact (Nat.zero_add _).symm
    | ⟨1, _⟩ => exact (Nat.zero_add _).symm
    | ⟨2, _⟩ => rfl)

/-- A rank-4 array cut along its last axis from o reads, at (a, b, c, j), the source at (a, b, c, o + j). -/
theorem slice4_axis3_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, b, c, 1] array cast to [a, b, c] reads, at (i, j, k), the operand at (i, j, k, 0). -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- A scalar spread over any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t (no_index ![]) h x j = x ix0 :=
  broadcastInDim_apply _ h x j ix0 (fun ax => ax.elim0)

/-- [a, b, e] placed on axes (0, 1, 3) of [a, b, 1, e]. -/
theorem bcast_abe_ab1e_apply {a b e : ℕ}
    (h : (⟨3, ![a, b, e]⟩ : Shape).BroadcastsInDim ⟨4, ![a, b, 1, e]⟩
      (![0, 1, 3] : Fin (⟨3, ![a, b, e]⟩ : Shape).rank → Fin (⟨4, ![a, b, 1, e]⟩ : Shape).rank))
    (x : (⟨3, ![a, b, e]⟩ : Shape).Idx → α) (i : Fin a) (j : Fin b) (z : Fin 1) (k : Fin e) :
    broadcastInDim ⟨4, ![a, b, 1, e]⟩ (no_index ![0, 1, 3]) h x (ix4 i j z k) = x (ix3 i j k) :=
  broadcastInDim_apply _ h x _ _ (fun ax => by
    match ax with
    | ⟨0, _⟩ => exact val_eq_ite_one i
    | ⟨1, _⟩ => exact val_eq_ite_one j
    | ⟨2, _⟩ => exact val_eq_ite_one k)

/-- [a, c, e] placed on axes (0, 2, 3) of [a, 1, c, e]. -/
theorem bcast_ace_a1ce_apply {a c e : ℕ}
    (h : (⟨3, ![a, c, e]⟩ : Shape).BroadcastsInDim ⟨4, ![a, 1, c, e]⟩
      (![0, 2, 3] : Fin (⟨3, ![a, c, e]⟩ : Shape).rank → Fin (⟨4, ![a, 1, c, e]⟩ : Shape).rank))
    (x : (⟨3, ![a, c, e]⟩ : Shape).Idx → α) (i : Fin a) (z : Fin 1) (j : Fin c) (k : Fin e) :
    broadcastInDim ⟨4, ![a, 1, c, e]⟩ (no_index ![0, 2, 3]) h x (ix4 i z j k) = x (ix3 i j k) :=
  broadcastInDim_apply _ h x _ _ (fun ax => by
    match ax with
    | ⟨0, _⟩ => exact val_eq_ite_one i
    | ⟨1, _⟩ => exact val_eq_ite_one j
    | ⟨2, _⟩ => exact val_eq_ite_one k)

/-- [a, b, 1, e] spread along axis 2 of [a, b, c, e]. -/
theorem bcast_ab1e_abce_apply {a b c e : ℕ}
    (h : (⟨4, ![a, b, 1, e]⟩ : Shape).BroadcastsInDim ⟨4, ![a, b, c, e]⟩
      (![0, 1, 2, 3] : Fin (⟨4, ![a, b, 1, e]⟩ : Shape).rank → Fin (⟨4, ![a, b, c, e]⟩ : Shape).rank))
    (x : (⟨4, ![a, b, 1, e]⟩ : Shape).Idx → α) (i : Fin a) (j : Fin b) (t : Fin c) (k : Fin e) :
    broadcastInDim ⟨4, ![a, b, c, e]⟩ (no_index ![0, 1, 2, 3]) h x (ix4 i j t k) = x (ix4 i j (0 : Fin 1) k) :=
  broadcastInDim_apply _ h x _ _ (fun ax => by
    match ax with
    | ⟨0, _⟩ => exact val_eq_ite_one i
    | ⟨1, _⟩ => exact val_eq_ite_one j
    | ⟨2, _⟩ => rfl
    | ⟨3, _⟩ => exact val_eq_ite_one k)

/-- [a, 1, c, e] spread along axis 1 of [a, b, c, e]. -/
theorem bcast_a1ce_abce_apply {a b c e : ℕ}
    (h : (⟨4, ![a, 1, c, e]⟩ : Shape).BroadcastsInDim ⟨4, ![a, b, c, e]⟩
      (![0, 1, 2, 3] : Fin (⟨4, ![a, 1, c, e]⟩ : Shape).rank → Fin (⟨4, ![a, b, c, e]⟩ : Shape).rank))
    (x : (⟨4, ![a, 1, c, e]⟩ : Shape).Idx → α) (i : Fin a) (q : Fin b) (t : Fin c) (k : Fin e) :
    broadcastInDim ⟨4, ![a, b, c, e]⟩ (no_index ![0, 1, 2, 3]) h x (ix4 i q t k) = x (ix4 i (0 : Fin 1) t k) :=
  broadcastInDim_apply _ h x _ _ (fun ax => by
    match ax with
    | ⟨0, _⟩ => exact val_eq_ite_one i
    | ⟨1, _⟩ => rfl
    | ⟨2, _⟩ => exact val_eq_ite_one t
    | ⟨3, _⟩ => exact val_eq_ite_one k)

/-- [a, b] placed on axes (0, 1) of [a, b, 1]. -/
theorem bcast_ab_ab1_apply {a b : ℕ}
    (h : (⟨2, ![a, b]⟩ : Shape).BroadcastsInDim ⟨3, ![a, b, 1]⟩
      (![0, 1] : Fin (⟨2, ![a, b]⟩ : Shape).rank → Fin (⟨3, ![a, b, 1]⟩ : Shape).rank))
    (x : (⟨2, ![a, b]⟩ : Shape).Idx → α) (i : Fin a) (j : Fin b) (z : Fin 1) :
    broadcastInDim ⟨3, ![a, b, 1]⟩ (no_index ![0, 1]) h x (ix3 i j z) = x (ix2 i j) :=
  broadcastInDim_apply _ h x _ _ (fun ax => by
    match ax with
    | ⟨0, _⟩ => exact val_eq_ite_one i
    | ⟨1, _⟩ => exact val_eq_ite_one j)

/-- [a, c] placed on axes (0, 2) of [a, 1, c]. -/
theorem bcast_ac_a1c_apply {a c : ℕ}
    (h : (⟨2, ![a, c]⟩ : Shape).BroadcastsInDim ⟨3, ![a, 1, c]⟩
      (![0, 2] : Fin (⟨2, ![a, c]⟩ : Shape).rank → Fin (⟨3, ![a, 1, c]⟩ : Shape).rank))
    (x : (⟨2, ![a, c]⟩ : Shape).Idx → α) (i : Fin a) (z : Fin 1) (j : Fin c) :
    broadcastInDim ⟨3, ![a, 1, c]⟩ (no_index ![0, 2]) h x (ix3 i z j) = x (ix2 i j) :=
  broadcastInDim_apply _ h x _ _ (fun ax => by
    match ax with
    | ⟨0, _⟩ => exact val_eq_ite_one i
    | ⟨1, _⟩ => exact val_eq_ite_one j)

/-- [a, b, 1] spread along axis 2 of [a, b, c]. -/
theorem bcast_ab1_abc_apply {a b c : ℕ}
    (h : (⟨3, ![a, b, 1]⟩ : Shape).BroadcastsInDim ⟨3, ![a, b, c]⟩
      (![0, 1, 2] : Fin (⟨3, ![a, b, 1]⟩ : Shape).rank → Fin (⟨3, ![a, b, c]⟩ : Shape).rank))
    (x : (⟨3, ![a, b, 1]⟩ : Shape).Idx → α) (i : Fin a) (j : Fin b) (t : Fin c) :
    broadcastInDim ⟨3, ![a, b, c]⟩ (no_index ![0, 1, 2]) h x (ix3 i j t) = x (ix3 i j (0 : Fin 1)) :=
  broadcastInDim_apply _ h x _ _ (fun ax => by
    match ax with
    | ⟨0, _⟩ => exact val_eq_ite_one i
    | ⟨1, _⟩ => exact val_eq_ite_one j
    | ⟨2, _⟩ => rfl)

/-- [a, 1, c] spread along axis 1 of [a, b, c]. -/
theorem bcast_a1c_abc_apply {a b c : ℕ}
    (h : (⟨3, ![a, 1, c]⟩ : Shape).BroadcastsInDim ⟨3, ![a, b, c]⟩
      (![0, 1, 2] : Fin (⟨3, ![a, 1, c]⟩ : Shape).rank → Fin (⟨3, ![a, b, c]⟩ : Shape).rank))
    (x : (⟨3, ![a, 1, c]⟩ : Shape).Idx → α) (i : Fin a) (q : Fin b) (t : Fin c) :
    broadcastInDim ⟨3, ![a, b, c]⟩ (no_index ![0, 1, 2]) h x (ix3 i q t) = x (ix3 i (0 : Fin 1) t) :=
  broadcastInDim_apply _ h x _ _ (fun ax => by
    match ax with
    | ⟨0, _⟩ => exact val_eq_ite_one i
    | ⟨1, _⟩ => rfl
    | ⟨2, _⟩ => exact val_eq_ite_one t)

end Layout

/-! ## Host division and negation read at an index -/

section Host
variable {s : Shape} {φ : FTy}

theorem hostDivf_apply (a b : FVec Ideal s φ) (i : s.Idx) : Host.divf a b i = Ideal.div (a i) (b i) := rfl

theorem hostNegf_apply (a : FVec Ideal s φ) (i : s.Idx) : Host.negf a i = -(a i) := rfl

end Host

variable [Facts]

/-! ## The stages, in the order the reference prints them -/

/-- The area of each predicted box: (x_hi − x_lo) · (y_hi − y_lo). -/
def area1 (c1 : FVec Ideal S64x900x4 .f32) : FVec Ideal S64x900 .f32 :=
  have v113 : FVec Ideal S64x900x1 .f32 := extractStridedSlice S64x900x1 ![0, 0, 2] c1 slices_S64x900x4_S64x900x1_0_0_2
  have v114 : FVec Ideal S64x900 .f32 := shapeCast S64x900 v113 shapeCasts_S64x900x1_S64x900
  have v115 : FVec Ideal S64x900x1 .f32 := extractStridedSlice S64x900x1 ![0, 0, 0] c1 slices_S64x900x4_S64x900x1_0_0_0
  have v116 : FVec Ideal S64x900 .f32 := shapeCast S64x900 v115 shapeCasts_S64x900x1_S64x900
  have v117 : FVec Ideal S64x900 .f32 := subf v114 v116
  have v118 : FVec Ideal S64x900x1 .f32 := extractStridedSlice S64x900x1 ![0, 0, 3] c1 slices_S64x900x4_S64x900x1_0_0_3
  have v119 : FVec Ideal S64x900 .f32 := shapeCast S64x900 v118 shapeCasts_S64x900x1_S64x900
  have v120 : FVec Ideal S64x900x1 .f32 := extractStridedSlice S64x900x1 ![0, 0, 1] c1 slices_S64x900x4_S64x900x1_0_0_1
  have v121 : FVec Ideal S64x900 .f32 := shapeCast S64x900 v120 shapeCasts_S64x900x1_S64x900
  have v122 : FVec Ideal S64x900 .f32 := subf v119 v121
  mulf v117 v122

/-- The area of each target box. -/
def area2 (c2 : FVec Ideal S64x200x4 .f32) : FVec Ideal S64x200 .f32 :=
  have v124 : FVec Ideal S64x200x1 .f32 := extractStridedSlice S64x200x1 ![0, 0, 2] c2 slices_S64x200x4_S64x200x1_0_0_2
  have v125 : FVec Ideal S64x200 .f32 := shapeCast S64x200 v124 shapeCasts_S64x200x1_S64x200
  have v126 : FVec Ideal S64x200x1 .f32 := extractStridedSlice S64x200x1 ![0, 0, 0] c2 slices_S64x200x4_S64x200x1_0_0_0
  have v127 : FVec Ideal S64x200 .f32 := shapeCast S64x200 v126 shapeCasts_S64x200x1_S64x200
  have v128 : FVec Ideal S64x200 .f32 := subf v125 v127
  have v129 : FVec Ideal S64x200x1 .f32 := extractStridedSlice S64x200x1 ![0, 0, 3] c2 slices_S64x200x4_S64x200x1_0_0_3
  have v130 : FVec Ideal S64x200 .f32 := shapeCast S64x200 v129 shapeCasts_S64x200x1_S64x200
  have v131 : FVec Ideal S64x200x1 .f32 := extractStridedSlice S64x200x1 ![0, 0, 1] c2 slices_S64x200x4_S64x200x1_0_0_1
  have v132 : FVec Ideal S64x200 .f32 := shapeCast S64x200 v131 shapeCasts_S64x200x1_S64x200
  have v133 : FVec Ideal S64x200 .f32 := subf v130 v132
  mulf v128 v133

/-- A pair of numbers per predicted box spread over the targets: [64, 900, 2] to [64, 900, 200, 2]. -/
def bcQ (x : FVec Ideal S64x900x2 .f32) : FVec Ideal S64x900x200x2 .f32 :=
  have y : FVec Ideal S64x900x1x2 .f32 := broadcastInDim S64x900x1x2 ![0, 1, 3] bcast_S64x900x2_S64x900x1x2_0_1_3 x
  broadcastInDim S64x900x200x2 ![0, 1, 2, 3] bcast_S64x900x1x2_S64x900x200x2_0_1_2_3 y

/-- A pair of numbers per target box spread over the predictions: [64, 200, 2] to [64, 900, 200, 2]. -/
def bcT (x : FVec Ideal S64x200x2 .f32) : FVec Ideal S64x900x200x2 .f32 :=
  have y : FVec Ideal S64x1x200x2 .f32 := broadcastInDim S64x1x200x2 ![0, 2, 3] bcast_S64x200x2_S64x1x200x2_0_2_3 x
  broadcastInDim S64x900x200x2 ![0, 1, 2, 3] bcast_S64x1x200x2_S64x900x200x2_0_1_2_3 y

/-- Clipping at 0 from below: the larger of the zero scalar spread everywhere and the operand. -/
def clip0 (x : FVec Ideal S64x900x200x2 .f32) : FVec Ideal S64x900x200x2 .f32 :=
  have cst : FVec Ideal S_ .f32 := constant S_ .f32 0x00000000#32
  have k0 : FVec Ideal S_ .f32 := id cst
  have k1 : FVec Ideal S64x900x200x2 .f32 := broadcastInDim S64x900x200x2 ![] bcast_S_S64x900x200x2 k0
  maximumf k1 x

/-- The two numbers on the last axis multiplied: [64, 900, 200, 2] to [64, 900, 200]. -/
def prod2 (z : FVec Ideal S64x900x200x2 .f32) : FVec Ideal S64x900x200 .f32 :=
  have a : FVec Ideal S64x900x200x1 .f32 := extractStridedSlice S64x900x200x1 ![0, 0, 0, 0] z slices_S64x900x200x2_S64x900x200x1_0_0_0_0
  have a' : FVec Ideal S64x900x200 .f32 := shapeCast S64x900x200 a shapeCasts_S64x900x200x1_S64x900x200
  have b : FVec Ideal S64x900x200x1 .f32 := extractStridedSlice S64x900x200x1 ![0, 0, 0, 1] z slices_S64x900x200x2_S64x900x200x1_0_0_0_1
  have b' : FVec Ideal S64x900x200 .f32 := shapeCast S64x900x200 b shapeCasts_S64x900x200x1_S64x900x200
  mulf a' b'

/-- The low corners (x_lo, y_lo) and the high corners (x_hi, y_hi) of each box. -/
def lo1 (c1 : FVec Ideal S64x900x4 .f32) : FVec Ideal S64x900x2 .f32 :=
  extractStridedSlice S64x900x2 ![0, 0, 0] c1 slices_S64x900x4_S64x900x2_0_0_0
def hi1 (c1 : FVec Ideal S64x900x4 .f32) : FVec Ideal S64x900x2 .f32 :=
  extractStridedSlice S64x900x2 ![0, 0, 2] c1 slices_S64x900x4_S64x900x2_0_0_2
def lo2 (c2 : FVec Ideal S64x200x4 .f32) : FVec Ideal S64x200x2 .f32 :=
  extractStridedSlice S64x200x2 ![0, 0, 0] c2 slices_S64x200x4_S64x200x2_0_0_0
def hi2 (c2 : FVec Ideal S64x200x4 .f32) : FVec Ideal S64x200x2 .f32 :=
  extractStridedSlice S64x200x2 ![0, 0, 2] c2 slices_S64x200x4_S64x200x2_0_0_2

/-- The area of the intersection of each pair of boxes. -/
def interArr (c1 : FVec Ideal S64x900x4 .f32) (c2 : FVec Ideal S64x200x4 .f32) : FVec Ideal S64x900x200 .f32 :=
  have v141 : FVec Ideal S64x900x200x2 .f32 := maximumf (bcQ (lo1 c1)) (bcT (lo2 c2))
  have v148 : FVec Ideal S64x900x200x2 .f32 := minimumf (bcQ (hi1 c1)) (bcT (hi2 c2))
  have v149 : FVec Ideal S64x900x200x2 .f32 := subf v148 v141
  prod2 (clip0 v149)

/-- The area of the union of each pair of boxes. -/
def unionArr (c1 : FVec Ideal S64x900x4 .f32) (c2 : FVec Ideal S64x200x4 .f32) : FVec Ideal S64x900x200 .f32 :=
  have v156 : FVec Ideal S64x900x1 .f32 := broadcastInDim S64x900x1 ![0, 1] bcast_S64x900_S64x900x1_0_1 (area1 c1)
  have v157 : FVec Ideal S64x1x200 .f32 := broadcastInDim S64x1x200 ![0, 2] bcast_S64x200_S64x1x200_0_2 (area2 c2)
  have v158 : FVec Ideal S64x900x200 .f32 := broadcastInDim S64x900x200 ![0, 1, 2] bcast_S64x900x1_S64x900x200_0_1_2 v156
  have v159 : FVec Ideal S64x900x200 .f32 := broadcastInDim S64x900x200 ![0, 1, 2] bcast_S64x1x200_S64x900x200_0_1_2 v157
  have v160 : FVec Ideal S64x900x200 .f32 := addf v158 v159
  subf v160 (interArr c1 c2)

/-- The area of the smallest box enclosing each pair of boxes. -/
def enclArr (c1 : FVec Ideal S64x900x4 .f32) (c2 : FVec Ideal S64x200x4 .f32) : FVec Ideal S64x900x200 .f32 :=
  have v169 : FVec Ideal S64x900x200x2 .f32 := minimumf (bcQ (lo1 c1)) (bcT (lo2 c2))
  have v176 : FVec Ideal S64x900x200x2 .f32 := maximumf (bcQ (hi1 c1)) (bcT (hi2 c2))
  have v177 : FVec Ideal S64x900x200x2 .f32 := subf v176 v169
  prod2 (clip0 v177)

/-- The generalised IoU of each pair of boxes, negated. -/
def fG (c1 : FVec Ideal S64x900x4 .f32) (c2 : FVec Ideal S64x200x4 .f32) : FVec Ideal S64x900x200 .f32 :=
  have v155 : FVec Ideal S64x900x200 .f32 := interArr c1 c2
  have v161 : FVec Ideal S64x900x200 .f32 := unionArr c1 c2
  have v162 : FVec Ideal S64x900x200 .f32 := Host.divf v155 v161
  have v183 : FVec Ideal S64x900x200 .f32 := enclArr c1 c2
  have v184 : FVec Ideal S64x900x200 .f32 := subf v183 v161
  have v185 : FVec Ideal S64x900x200 .f32 := Host.divf v184 v183
  have v186 : FVec Ideal S64x900x200 .f32 := subf v162 v185
  Host.negf v186

/-! ## Each stage read at an entry -/

theorem area1_apply (c1 : FVec Ideal S64x900x4 .f32) (b : Fin 64) (q : Fin 900) :
    area1 c1 (ix2 b q) = Spec.areaOf (fun k => c1 (ix3 b q k)) := by
  simp only [area1, mulf_apply, subf_apply, shapeCast_ab1_ab_apply, slice3_axis2_eq]
  rfl

theorem area2_apply (c2 : FVec Ideal S64x200x4 .f32) (b : Fin 64) (t : Fin 200) :
    area2 c2 (ix2 b t) = Spec.areaOf (fun k => c2 (ix3 b t k)) := by
  simp only [area2, mulf_apply, subf_apply, shapeCast_ab1_ab_apply, slice3_axis2_eq]
  rfl

theorem bcQ_apply (x : FVec Ideal S64x900x2 .f32) (b : Fin 64) (q : Fin 900) (t : Fin 200) (k : Fin 2) :
    bcQ x (ix4 b q t k) = x (ix3 b q k) := by
  simp only [bcQ, bcast_ab1e_abce_apply, bcast_abe_ab1e_apply]

theorem bcT_apply (x : FVec Ideal S64x200x2 .f32) (b : Fin 64) (q : Fin 900) (t : Fin 200) (k : Fin 2) :
    bcT x (ix4 b q t k) = x (ix3 b t k) := by
  simp only [bcT, bcast_a1ce_abce_apply, bcast_ace_a1ce_apply]

theorem clip0_apply (x : FVec Ideal S64x900x200x2 .f32) (j : S64x900x200x2.Idx) :
    clip0 x j = max (Spec.lit 0x00000000#32) (x j) := by
  simp only [clip0, maximumf_apply, bcast_scalar_apply]
  rfl

theorem prod2_apply (z : FVec Ideal S64x900x200x2 .f32) (b : Fin 64) (q : Fin 900) (t : Fin 200) :
    prod2 z (ix3 b q t) = z (ix4 b q t (0 : Fin 2)) * z (ix4 b q t (1 : Fin 2)) := by
  simp only [prod2, mulf_apply, shapeCast_abc1_abc_apply, slice4_axis3_eq]
  rfl

theorem lo1_apply (c1 : FVec Ideal S64x900x4 .f32) (b : Fin 64) (q : Fin 900) :
    lo1 c1 (ix3 b q (0 : Fin 2)) = c1 (ix3 b q (0 : Fin 4)) ∧ lo1 c1 (ix3 b q (1 : Fin 2)) = c1 (ix3 b q (1 : Fin 4)) := by
  simp only [lo1, slice3_axis2_eq]
  exact ⟨rfl, rfl⟩

theorem hi1_apply (c1 : FVec Ideal S64x900x4 .f32) (b : Fin 64) (q : Fin 900) :
    hi1 c1 (ix3 b q (0 : Fin 2)) = c1 (ix3 b q (2 : Fin 4)) ∧ hi1 c1 (ix3 b q (1 : Fin 2)) = c1 (ix3 b q (3 : Fin 4)) := by
  simp only [hi1, slice3_axis2_eq]
  exact ⟨rfl, rfl⟩

theorem lo2_apply (c2 : FVec Ideal S64x200x4 .f32) (b : Fin 64) (t : Fin 200) :
    lo2 c2 (ix3 b t (0 : Fin 2)) = c2 (ix3 b t (0 : Fin 4)) ∧ lo2 c2 (ix3 b t (1 : Fin 2)) = c2 (ix3 b t (1 : Fin 4)) := by
  simp only [lo2, slice3_axis2_eq]
  exact ⟨rfl, rfl⟩

theorem hi2_apply (c2 : FVec Ideal S64x200x4 .f32) (b : Fin 64) (t : Fin 200) :
    hi2 c2 (ix3 b t (0 : Fin 2)) = c2 (ix3 b t (2 : Fin 4)) ∧ hi2 c2 (ix3 b t (1 : Fin 2)) = c2 (ix3 b t (3 : Fin 4)) := by
  simp only [hi2, slice3_axis2_eq]
  exact ⟨rfl, rfl⟩

theorem interArr_apply (c1 : FVec Ideal S64x900x4 .f32) (c2 : FVec Ideal S64x200x4 .f32) (b : Fin 64) (q : Fin 900) (t : Fin 200) :
    interArr c1 c2 (ix3 b q t) = Spec.interOf (fun k => c1 (ix3 b q k)) (fun k => c2 (ix3 b t k)) := by
  simp only [interArr, prod2_apply, clip0_apply, subf_apply, minimumf_apply, maximumf_apply, bcQ_apply, bcT_apply,
    (lo1_apply c1 b q).1, (lo1_apply c1 b q).2, (hi1_apply c1 b q).1, (hi1_apply c1 b q).2,
    (lo2_apply c2 b t).1, (lo2_apply c2 b t).2, (hi2_apply c2 b t).1, (hi2_apply c2 b t).2]
  rfl

theorem enclArr_apply (c1 : FVec Ideal S64x900x4 .f32) (c2 : FVec Ideal S64x200x4 .f32) (b : Fin 64) (q : Fin 900) (t : Fin 200) :
    enclArr c1 c2 (ix3 b q t) = Spec.enclOf (fun k => c1 (ix3 b q k)) (fun k => c2 (ix3 b t k)) := by
  simp only [enclArr, prod2_apply, clip0_apply, subf_apply, minimumf_apply, maximumf_apply, bcQ_apply, bcT_apply,
    (lo1_apply c1 b q).1, (lo1_apply c1 b q).2, (hi1_apply c1 b q).1, (hi1_apply c1 b q).2,
    (lo2_apply c2 b t).1, (lo2_apply c2 b t).2, (hi2_apply c2 b t).1, (hi2_apply c2 b t).2]
  rfl

theorem unionArr_apply (c1 : FVec Ideal S64x900x4 .f32) (c2 : FVec Ideal S64x200x4 .f32) (b : Fin 64) (q : Fin 900) (t : Fin 200) :
    unionArr c1 c2 (ix3 b q t) = Spec.unionOf (fun k => c1 (ix3 b q k)) (fun k => c2 (ix3 b t k)) := by
  simp only [unionArr, subf_apply, addf_apply, bcast_ab1_abc_apply, bcast_a1c_abc_apply, bcast_ab_ab1_apply,
    bcast_ac_a1c_apply, area1_apply, area2_apply, interArr_apply]
  rfl

/-- The reference's GIoU array at (b, q, t): the generalised IoU of predicted box q and target box t of batch b, negated. -/
theorem fG_apply (c1 : FVec Ideal S64x900x4 .f32) (c2 : FVec Ideal S64x200x4 .f32) (b : Fin 64) (q : Fin 900) (t : Fin 200) :
    fG c1 c2 (ix3 b q t) = -(Spec.giouOf (fun k => c1 (ix3 b q k)) (fun k => c2 (ix3 b t k))) := by
  simp only [fG, hostNegf_apply, hostDivf_apply, subf_apply, interArr_apply, unionArr_apply, enclArr_apply]
  rfl

/-! ## The stretch of the reference that computes it -/

section Run
open Idealize.SL.Sem Idealize.ShloMosaic.TcCoe

/-- After the operations %113 .. %187, whatever the buffers held before, the buffer of %187 holds the negated generalised
    IoU array of the two corner-form arrays held in the buffers of %86 and %112. -/
theorem after_segG (W : Valuation τ sig (Elt Ideal)) :
    StableHlo.after Ops.segG W (main_v187 : DevRef τ sig)
      = fG (W (main_v86 : DevRef τ sig)) (W (main_v112 : DevRef τ sig)) := by
  after_results_simp
  rfl

end Run

end Cert.ReferenceIdeal.Giou

end
-- ==== Proof.RefChain.lean ====
/-
  The reference's whole line of operations, read stretch by stretch.

  The fold of the line over any buffer contents is the folds of its eight stretches in turn.  Each stretch leaves its
  stage in the buffer the program names for it, as a function of the buffers it reads, and leaves alone every buffer a
  later stretch still reads; so the result buffer after the whole line is the composition of the stages: the weighted,
  sanitised sum (H) of the class cost (D, read off the softmax A at the labels), the L1 distance (E) of the sanitised
  boxes (B, C), and the negated generalised IoU (G) of their corner forms (F).  No stretch writes an argument buffer, so
  the four arguments stand after the line as they stood before.
-/
import proofs.«424823_j58110907515474_1_alg».proof.Proof.RefOps
import proofs.«424823_j58110907515474_1_alg».proof.Proof.RefKeeps
import proofs.«424823_j58110907515474_1_alg».proof.Proof.RefSoft
import proofs.«424823_j58110907515474_1_alg».proof.Proof.RefSoftA
import proofs.«424823_j58110907515474_1_alg».proof.Proof.RefSoftD
import proofs.«424823_j58110907515474_1_alg».proof.Proof.RefBox
import proofs.«424823_j58110907515474_1_alg».proof.Proof.RefCorner
import proofs.«424823_j58110907515474_1_alg».proof.Proof.RefGiou

noncomputable section

namespace Cert.ReferenceIdeal.Chain

open Cert.ReferenceIdeal Idealize.ShloMosaic Idealize.ShloMosaic.TcCoe Idealize.SL.Sem

variable (V : Valuation τ sig (Elt Ideal))

/-! ## The buffer contents after each stretch -/

abbrev V1 : Valuation τ sig (Elt Ideal) := StableHlo.after Ops.segA V
abbrev V2 : Valuation τ sig (Elt Ideal) := StableHlo.after Ops.segB (V1 V)
abbrev V3 : Valuation τ sig (Elt Ideal) := StableHlo.after Ops.segC (V2 V)
abbrev V4 : Valuation τ sig (Elt Ideal) := StableHlo.after Ops.segD (V3 V)
abbrev V5 : Valuation τ sig (Elt Ideal) := StableHlo.after Ops.segE (V4 V)
abbrev V6 : Valuation τ sig (Elt Ideal) := StableHlo.after Ops.segF (V5 V)
abbrev V7 : Valuation τ sig (Elt Ideal) := StableHlo.after Ops.segG (V6 V)
abbrev V8 : Valuation τ sig (Elt Ideal) := StableHlo.after Ops.segH (V7 V)

/-- The fold of the whole line is the eight folds in turn. -/
theorem after_ops : StableHlo.after Ops.ops V = V8 V := by
  show StableHlo.after (Ops.segA ++ Ops.segB ++ Ops.segC ++ Ops.segD ++ Ops.segE ++ Ops.segF ++ Ops.segG ++ Ops.segH) V = _
  rw [Ops.after_append, Ops.after_append, Ops.after_append, Ops.after_append, Ops.after_append, Ops.after_append,
    Ops.after_append]

/-! ## Each stage where the next reader finds it -/

/-- The labels, untouched by the first three stretches. -/
theorem arg2_at3 : V3 V (main_arg2 : DevRef τ sig) = V (main_arg2 : DevRef τ sig) :=
  (Ops.segC_keeps_arg2 (V2 V)).trans ((Ops.segB_keeps_arg2 (V1 V)).trans (Ops.segA_keeps_arg2 V))

/-- The probabilities, written by the first stretch and untouched by the next two. -/
theorem v11_at3 : V3 V (main_v11 : DevRef τ sig) = Soft.fA (V (main_arg0 : DevRef τ sig)) :=
  (Ops.segC_keeps_v11 (V2 V)).trans ((Ops.segB_keeps_v11 (V1 V)).trans (Soft.after_segA V))

/-- The sanitised predicted boxes, written by the second stretch from the second argument. -/
theorem v30_at2 : V2 V (main_v30 : DevRef τ sig) = Box.fB (V (main_arg1 : DevRef τ sig)) :=
  (Box.after_segB (V1 V)).trans (congrArg Box.fB (Ops.segA_keeps_arg1 V))

/-- The sanitised target boxes, written by the third stretch from the fourth argument. -/
theorem v49_at3 : V3 V (main_v49 : DevRef τ sig) = Box.fC (V (main_arg3 : DevRef τ sig)) :=
  (Box.after_segC (V2 V)).trans (congrArg Box.fC ((Ops.segB_keeps_arg3 (V1 V)).trans (Ops.segA_keeps_arg3 V)))

theorem v30_at4 : V4 V (main_v30 : DevRef τ sig) = Box.fB (V (main_arg1 : DevRef τ sig)) :=
  (Ops.segD_keeps_v30 (V3 V)).trans ((Ops.segC_keeps_v30 (V2 V)).trans (v30_at2 V))

theorem v49_at4 : V4 V (main_v49 : DevRef τ sig) = Box.fC (V (main_arg3 : DevRef τ sig)) :=
  (Ops.segD_keeps_v49 (V3 V)).trans (v49_at3 V)

/-- The class cost, written by the fourth stretch from the probabilities and the labels. -/
theorem v53_at4 : V4 V (main_v53 : DevRef τ sig)
    = Soft.fD (Soft.fA (V (main_arg0 : DevRef τ sig))) (V (main_arg2 : DevRef τ sig)) :=
  (Soft.after_segD (V3 V)).trans (congrArg₂ Soft.fD (v11_at3 V) (arg2_at3 V))

/-- The L1 distance, written by the fifth stretch from the two sanitised box arrays. -/
theorem v60_at5 : V5 V (main_v60 : DevRef τ sig)
    = Box.fE (Box.fB (V (main_arg1 : DevRef τ sig))) (Box.fC (V (main_arg3 : DevRef τ sig))) :=
  (Box.after_segE (V4 V)).trans (congrArg₂ Box.fE (v30_at4 V) (v49_at4 V))

/-- The corner forms, written by the sixth stretch from the two sanitised box arrays. -/
theorem v86_at6 : V6 V (main_v86 : DevRef τ sig) = Corner.fF1 (Box.fB (V (main_arg1 : DevRef τ sig))) :=
  (Corner.after_segF_v86 (V5 V)).trans (congrArg Corner.fF1 ((Ops.segE_keeps_v30 (V4 V)).trans (v30_at4 V)))

theorem v112_at6 : V6 V (main_v112 : DevRef τ sig) = Corner.fF2 (Box.fC (V (main_arg3 : DevRef τ sig))) :=
  (Corner.after_segF_v112 (V5 V)).trans (congrArg Corner.fF2 ((Ops.segE_keeps_v49 (V4 V)).trans (v49_at4 V)))

/-- The negated generalised IoU, written by the seventh stretch from the corner forms. -/
theorem v187_at7 : V7 V (main_v187 : DevRef τ sig)
    = Giou.fG (Corner.fF1 (Box.fB (V (main_arg1 : DevRef τ sig)))) (Corner.fF2 (Box.fC (V (main_arg3 : DevRef τ sig)))) :=
  (Giou.after_segG (V6 V)).trans (congrArg₂ Giou.fG (v86_at6 V) (v112_at6 V))

theorem v53_at7 : V7 V (main_v53 : DevRef τ sig)
    = Soft.fD (Soft.fA (V (main_arg0 : DevRef τ sig))) (V (main_arg2 : DevRef τ sig)) :=
  (Ops.segG_keeps_v53 (V6 V)).trans ((Ops.segF_keeps_v53 (V5 V)).trans ((Ops.segE_keeps_v53 (V4 V)).trans (v53_at4 V)))

theorem v60_at7 : V7 V (main_v60 : DevRef τ sig)
    = Box.fE (Box.fB (V (main_arg1 : DevRef τ sig))) (Box.fC (V (main_arg3 : DevRef τ sig))) :=
  (Ops.segG_keeps_v60 (V6 V)).trans ((Ops.segF_keeps_v60 (V5 V)).trans (v60_at5 V))

/-! ## The result and the arguments after the whole line -/

/-- The result buffer after the line is the composition of the eight stages. -/
theorem out_chain : StableHlo.after Ops.ops V (main_v196 : DevRef τ sig)
    = Corner.fH (Soft.fD (Soft.fA (V (main_arg0 : DevRef τ sig))) (V (main_arg2 : DevRef τ sig)))
        (Box.fE (Box.fB (V (main_arg1 : DevRef τ sig))) (Box.fC (V (main_arg3 : DevRef τ sig))))
        (Giou.fG (Corner.fF1 (Box.fB (V (main_arg1 : DevRef τ sig)))) (Corner.fF2 (Box.fC (V (main_arg3 : DevRef τ sig))))) := by
  rw [after_ops V]
  refine (Corner.after_segH (V7 V)).trans ?_
  rw [v53_at7 V, v60_at7 V, v187_at7 V]

/-- A buffer every stretch leaves alone stands after the line as before it. -/
private theorem keep_all (b : DevRef τ sig)
    (hA : ∀ W : Valuation τ sig (Elt Ideal), StableHlo.after Ops.segA W b = W b)
    (hB : ∀ W : Valuation τ sig (Elt Ideal), StableHlo.after Ops.segB W b = W b)
    (hC : ∀ W : Valuation τ sig (Elt Ideal), StableHlo.after Ops.segC W b = W b)
    (hD : ∀ W : Valuation τ sig (Elt Ideal), StableHlo.after Ops.segD W b = W b)
    (hE : ∀ W : Valuation τ sig (Elt Ideal), StableHlo.after Ops.segE W b = W b)
    (hF : ∀ W : Valuation τ sig (Elt Ideal), StableHlo.after Ops.segF W b = W b)
    (hG : ∀ W : Valuation τ sig (Elt Ideal), StableHlo.after Ops.segG W b = W b)
    (hH : ∀ W : Valuation τ sig (Elt Ideal), StableHlo.after Ops.segH W b = W b) :
    StableHlo.after Ops.ops V b = V b := by
  rw [after_ops V]
  exact (hH (V7 V)).trans ((hG (V6 V)).trans ((hF (V5 V)).trans ((hE (V4 V)).trans ((hD (V3 V)).trans
    ((hC (V2 V)).trans ((hB (V1 V)).trans (hA V)))))))

theorem arg0_keep : StableHlo.after Ops.ops V (main_arg0 : DevRef τ sig) = V (main_arg0 : DevRef τ sig) :=
  keep_all V _ Ops.segA_keeps_arg0 Ops.segB_keeps_arg0 Ops.segC_keeps_arg0 Ops.segD_keeps_arg0 Ops.segE_keeps_arg0
    Ops.segF_keeps_arg0 Ops.segG_keeps_arg0 Ops.segH_keeps_arg0
theorem arg1_keep : StableHlo.after Ops.ops V (main_arg1 : DevRef τ sig) = V (main_arg1 : DevRef τ sig) :=
  keep_all V _ Ops.segA_keeps_arg1 Ops.segB_keeps_arg1 Ops.segC_keeps_arg1 Ops.segD_keeps_arg1 Ops.segE_keeps_arg1
    Ops.segF_keeps_arg1 Ops.segG_keeps_arg1 Ops.segH_keeps_arg1
theorem arg2_keep : StableHlo.after Ops.ops V (main_arg2 : DevRef τ sig) = V (main_arg2 : DevRef τ sig) :=
  keep_all V _ Ops.segA_keeps_arg2 Ops.segB_keeps_arg2 Ops.segC_keeps_arg2 Ops.segD_keeps_arg2 Ops.segE_keeps_arg2
    Ops.segF_keeps_arg2 Ops.segG_keeps_arg2 Ops.segH_keeps_arg2
theorem arg3_keep : StableHlo.after Ops.ops V (main_arg3 : DevRef τ sig) = V (main_arg3 : DevRef τ sig) :=
  keep_all V _ Ops.segA_keeps_arg3 Ops.segB_keeps_arg3 Ops.segC_keeps_arg3 Ops.segD_keeps_arg3 Ops.segE_keeps_arg3
    Ops.segF_keeps_arg3 Ops.segG_keeps_arg3 Ops.segH_keeps_arg3

end Cert.ReferenceIdeal.Chain

end
-- ==== Proof.Glue.lean ====
/-
  The stages composed. Arrays that are, entry by entry, the softmax, the two sanitised box arrays, the gathered and negated
  class cost, the L1 cost, the two corner forms, the negated generalised IoU and the sanitised weighted sum of the three
  costs, make up the cost function of the arguments: the one-hot sum over the classes is the entry at the label, and
  `0 - x` is `-x`.
-/
import proofs.«424823_j58110907515474_1_alg».proof.Proof.Spec

noncomputable section

namespace Cert.Glue

open Idealize.ShloMosaic Idealize.ShloMosaic.ValueIdx Cert.Spec
open scoped BigOperators

/-- The zero word denotes zero, so subtracting from it negates. -/
theorem lit_zero_sub (x : EReal) : lit 0x00000000#32 - x = -x := by
  rw [show lit 0x00000000#32 = 0 from Ideal.ofBits_zero_f32, sub_eq_add_neg, zero_add]

theorem compose
    (a0 : S64x900x256.Idx → EReal) (a1 : S64x900x4.Idx → EReal) (a2 : S64x200.Idx → BitVec 32) (a3 : S64x200x4.Idx → EReal)
    (hlab : ∀ i, (a2 i).toNat < 256)
    (P : S64x900x256.Idx → EReal) (OB : S64x900x4.Idx → EReal) (TB : S64x200x4.Idx → EReal)
    (CC CB CG : S64x900x200.Idx → EReal) (X1 : S64x900x4.Idx → EReal) (X2 : S64x200x4.Idx → EReal)
    (OUT : S64x900x200.Idx → EReal)
    (hP : ∀ (b : Fin 64) (q : Fin 900) (c : Fin 256), P (ix3 b q c) = prob (fun q c => a0 (ix3 b q c)) q c)
    (hOB : ∀ (b : Fin 64) (q : Fin 900) (k : Fin 4), OB (ix3 b q k) = sanBox (fun k => a1 (ix3 b q k)) k)
    (hTB : ∀ (b : Fin 64) (t : Fin 200) (k : Fin 4), TB (ix3 b t k) = sanBox (fun k => a3 (ix3 b t k)) k)
    (hCC : ∀ (b : Fin 64) (q : Fin 900) (t : Fin 200),
      CC (ix3 b q t) = -(P (ix3 b q (⟨(a2 (ix2 b t)).toNat, hlab _⟩ : Fin 256))))
    (hCB : ∀ (b : Fin 64) (q : Fin 900) (t : Fin 200),
      CB (ix3 b q t) = l1 (fun k => OB (ix3 b q k)) (fun k => TB (ix3 b t k)))
    (hX1 : ∀ (b : Fin 64) (q : Fin 900) (k : Fin 4), X1 (ix3 b q k) = corners (fun k => OB (ix3 b q k)) k)
    (hX2 : ∀ (b : Fin 64) (t : Fin 200) (k : Fin 4), X2 (ix3 b t k) = corners (fun k => TB (ix3 b t k)) k)
    (hCG : ∀ (b : Fin 64) (q : Fin 900) (t : Fin 200),
      CG (ix3 b q t) = -(giouOf (fun k => X1 (ix3 b q k)) (fun k => X2 (ix3 b t k))))
    (hOUT : ∀ i, OUT i = nanToNum (lit 0x49742400#32) (lit 0x49742400#32) (lit 0x49742400#32)
      ((lit 0x3F800000#32 * CC i + lit 0x40A00000#32 * CB i) + lit 0x40000000#32 * CG i))
    (hcc : ∀ (Pf : Fin 256 → EReal) (l : BitVec 32) (h : l.toNat < 256),
      lit 0x00000000#32 - ∑ c : Fin 256, Pf c * hot c l = -(Pf ⟨l.toNat, h⟩)) :
    OUT = G a0 a1 a2 a3 := by
  funext i
  obtain ⟨b, q, t, rfl⟩ : ∃ (b : Fin 64) (q : Fin 900) (t : Fin 200), i = ix3 b q t := ⟨i 0, i 1, i 2, eq_ix3 i⟩
  rw [hOUT, G_apply]
  unfold cost total
  have eOB : (fun k => OB (ix3 b q k)) = sanBox (fun k => a1 (ix3 b q k)) := funext fun k => hOB b q k
  have eTB : (fun k => TB (ix3 b t k)) = sanBox (fun k => a3 (ix3 b t k)) := funext fun k => hTB b t k
  have eX1 : (fun k => X1 (ix3 b q k)) = corners (sanBox (fun k => a1 (ix3 b q k))) :=
    funext fun k => by rw [hX1, eOB]
  have eX2 : (fun k => X2 (ix3 b t k)) = corners (sanBox (fun k => a3 (ix3 b t k))) :=
    funext fun k => by rw [hX2, eTB]
  have e1 : CC (ix3 b q t) = costClass (fun q c => a0 (ix3 b q c)) (fun t => a2 (ix2 b t)) q t := by
    rw [hCC, hP]; unfold costClass; exact (hcc _ _ _).symm
  have e2 : CB (ix3 b q t) = l1 (sanBox (fun k => a1 (ix3 b q k))) (sanBox (fun k => a3 (ix3 b t k))) := by
    rw [hCB, eOB, eTB]
  have e3 : CG (ix3 b q t)
      = lit 0x00000000#32 - giouOf (corners (sanBox (fun k => a1 (ix3 b q k)))) (corners (sanBox (fun k => a3 (ix3 b t k)))) := by
    rw [hCG, eX1, eX2, lit_zero_sub]
  rw [e1, e2, e3]

end Cert.Glue

end
-- ==== Proof.RefValue.lean ====
/-
  The reference's run with its result named: after every weakly fair execution the result array is the cost function of
  the argument arrays as launched, and the arguments are unchanged. The run leaves every buffer at the fold of the
  program's operations over the launch contents; the result buffer's fold is the composition of the eight stages, each of
  which is read entry by entry, and the stages compose to the cost function when every label lies in [0, 256).
-/
import proofs.«424823_j58110907515474_1_alg».proof.Proof.RefOps
import proofs.«424823_j58110907515474_1_alg».proof.Proof.RefChain
import proofs.«424823_j58110907515474_1_alg».proof.Proof.RefSoft
import proofs.«424823_j58110907515474_1_alg».proof.Proof.RefBox
import proofs.«424823_j58110907515474_1_alg».proof.Proof.RefCorner
import proofs.«424823_j58110907515474_1_alg».proof.Proof.RefGiou
import proofs.«424823_j58110907515474_1_alg».proof.Proof.Glue
import proofs.«424823_j58110907515474_1_alg».proof.Proof.Spec

noncomputable section

namespace Cert.ReferenceIdeal.RefValue

open Cert.ReferenceIdeal Idealize.ShloMosaic Idealize.ShloMosaic.TcCoe Idealize.SL.Sem Idealize.ShloMosaic.ValueIdx
open Idealize.ShloMosaic.StableHlo

/-- The result buffer's contents after the program's operations, from any valuation whose labels lie in [0, 256). -/
theorem out_eq (V : Valuation τ sig (Elt Ideal))
    (hlab : ∀ i : S64x200.Idx, ((V (main_arg2 : DevRef τ sig) : IVec S64x200 32) i).toNat < 256) :
    StableHlo.after Ops.ops V (main_v196 : DevRef τ sig)
      = Spec.G (V (main_arg0 : DevRef τ sig)) (V (main_arg1 : DevRef τ sig)) (V (main_arg2 : DevRef τ sig))
          (V (main_arg3 : DevRef τ sig)) := by
  rw [Chain.out_chain V]
  exact Cert.Glue.compose _ _ _ _ hlab _ _ _ _ _ _ _ _ _
    (Soft.fA_apply _) (Box.fB_apply _) (Box.fC_apply _) (Soft.fD_apply _ _ hlab) (Box.fE_apply _ _)
    (Corner.fF1_apply _) (Corner.fF2_apply _) (Giou.fG_apply _ _) (Corner.fH_apply _ _ _) Soft.costClass_eq

theorem run (m : (ℓ : Loc nD τ sig) → Buf (Elt Ideal) ℓ) (ρ : Dev nD → PrngReg)
    (hlab : ∀ (c : Dev nD) (i : S64x200.Idx), ((m ((c.tc : Thread nD τ).loc main_arg2) : IVec S64x200 32) i).toNat < 256) :
    θ_run (defs (F := Ideal)) (onTc (τ := τ) (main (F := Ideal))) ⟨m, fun _ => 0, ρ⟩ fun r => ∀ c : Dev nD,
      r.2.mem ((c.tc : Thread nD τ).loc main_v196)
        = Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h c main_v196).trans (out_eq (launchContents m c) (hlab c)),
        (h c main_arg0).trans (Chain.arg0_keep _), (h c main_arg1).trans (Chain.arg1_keep _),
        (h c main_arg2).trans (Chain.arg2_keep _), (h c main_arg3).trans (Chain.arg3_keep _)⟩)
    (Ops.run_main m ρ)

end Cert.ReferenceIdeal.RefValue

end
-- ==== Proof.lean ====
/-
  The certificate's five claims for the matching-cost kernel against its jnp reference, under the precondition
  "every float input is finite and every label lies in [0, 256)".

  Both programs compute, for each batch, query and target, the sanitised weighted sum of a class cost, an L1 box cost
  and a generalised-IoU cost. They differ in how the class cost is taken: the kernel multiplies the row of softmax
  probabilities by a one-hot matrix built from the labels (so a label outside [0, 256) selects nothing), the reference
  gathers the probability at the label (so a negative label wraps and a large one is filled). On labels in range the
  one-hot sum is the gathered entry, and everything else is the same arithmetic in another layout (whole [64, …] arrays
  against one batch's block per grid point; the four L1 terms folded from the left against a sum over the last axis; a
  row maximum against the same maximum joined once more with −∞): both result arrays are `Spec.G` of the arguments.
  The two frames of the kernel are its generated frame certificates; the reference's frame is its run with the result
  dropped; the idealisation rewrote nothing, so `preserves` is trivial.
-/
import proofs.«424823_j58110907515474_1_alg».proof.Defs
import proofs.«424823_j58110907515474_1_alg».proof.Proof.Gen.Kernel
import proofs.«424823_j58110907515474_1_alg».proof.Proof.Gen.Kernel.Skeleton
import proofs.«424823_j58110907515474_1_alg».proof.Proof.Gen.Kernel.Launch
import proofs.«424823_j58110907515474_1_alg».proof.Proof.Gen.Kernel.Points
import proofs.«424823_j58110907515474_1_alg».proof.Proof.Gen.Kernel.Frame
import proofs.«424823_j58110907515474_1_alg».proof.Proof.Gen.KernelIdeal
import proofs.«424823_j58110907515474_1_alg».proof.Proof.Gen.KernelIdeal.Skeleton
import proofs.«424823_j58110907515474_1_alg».proof.Proof.Gen.KernelIdeal.Launch
import proofs.«424823_j58110907515474_1_alg».proof.Proof.Gen.KernelIdeal.Points
import proofs.«424823_j58110907515474_1_alg».proof.Proof.Gen.KernelIdeal.Frame
import proofs.«424823_j58110907515474_1_alg».proof.Proof.Gen.KernelIdeal.Value
import proofs.«424823_j58110907515474_1_alg».proof.Proof.Gen.ReferenceIdeal
import proofs.«424823_j58110907515474_1_alg».proof.Proof.Gen.Pre_finite_inputs
import proofs.«424823_j58110907515474_1_alg».proof.Proof.Spec
import proofs.«424823_j58110907515474_1_alg».proof.Proof.PreDecode
import proofs.«424823_j58110907515474_1_alg».proof.Proof.KArr
import proofs.«424823_j58110907515474_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result forgotten; the labels' range is read off the
    precondition. -/
theorem frame_ri : Cert.frame_ReferenceIdeal := fun m ρ hpre =>
  (θ_run Cert.ReferenceIdeal.defs _ _).mono (fun _ h c => (h c).2)
    (Cert.ReferenceIdeal.RefValue.run m ρ fun c i => Cert.PreDecode.label_lt _ _ _ _ (hpre c) i)

theorem preserves : Cert.preserves_Kernel_KernelIdeal := trivial

/-- From memories agreeing on the arguments both runs end with the result array at the cost function of the
    arguments. -/
theorem algebraic : Cert.algebraic_KernelIdeal_ReferenceIdeal := by
  intro m ρ m' ρ' hpre hagree
  have hlab' : ∀ (c : Dev Cert.ReferenceIdeal.nD) (i : Cert.ReferenceIdeal.S64x200.Idx),
      ((m' ((c.tc : Thread Cert.ReferenceIdeal.nD Cert.ReferenceIdeal.τ).loc Cert.ReferenceIdeal.main_arg2)
        : IVec Cert.ReferenceIdeal.S64x200 32) i).toNat < 256 := fun c i => by
    rw [(hagree c).2.2.1]
    exact Cert.PreDecode.label_lt _ _ _ _ (hpre c) i
  refine ⟨_, Cert.KernelIdeal.ArrValue.run m ρ, ?_⟩
  refine (θ_run Cert.ReferenceIdeal.defs _ _).mono (fun _ h c => ⟨(h c).1.trans ?_, (h c).2⟩)
    (Cert.ReferenceIdeal.RefValue.run m' ρ' hlab')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
